-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S128x128 : Shape := ⟨2, ![128, 128]⟩
abbrev S128 : Shape := ⟨1, ![128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S4x4096x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S4x4096x128 : Shape := ⟨3, ![4, 4096, 128]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S4x1x128 : Shape := ⟨3, ![4, 1, 128]⟩
abbrev S1x4096x128 : Shape := ⟨3, ![1, 4096, 128]⟩
abbrev S1x512x128 : Shape := ⟨3, ![1, 512, 128]⟩
abbrev S1x1x128 : Shape := ⟨3, ![1, 1, 128]⟩
abbrev S4096x128 : Shape := ⟨2, ![4096, 128]⟩
abbrev S1x128 : Shape := ⟨2, ![1, 128]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S4x128 : Shape := ⟨2, ![4, 128]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x384, .f32⟩
  | .hbm, ⟨11, _⟩ => ⟨S384, .f32⟩
  | .hbm, ⟨12, _⟩ => ⟨S1x384, .f32⟩
  | .hbm, ⟨13, _⟩ => ⟨S4x1x128, .f32⟩
  | .hbm, ⟨14, _⟩ => ⟨S4x128, .f32⟩
  | .local _ .vmem, ⟨0, _⟩ => ⟨S1x4096x128, .f32⟩
  | .local _ .vmem, ⟨1, _⟩ => ⟨S1x4096x128, .f32⟩
  | .local _ .vmem, ⟨2, _⟩ => ⟨S1x512x128, .f32⟩
  | .local _ .vmem, ⟨3, _⟩ => ⟨S1x512x128, .f32⟩
  | .local _ .vmem, ⟨4, _⟩ => ⟨S128x384, .f32⟩
  | .local _ .vmem, ⟨5, _⟩ => ⟨S1x384, .f32⟩
  | .local _ .vmem, ⟨6, _⟩ => ⟨S1x1x128, .f32⟩
  | .local _ .vmem, ⟨7, _⟩ => ⟨S1x1x128, .f32⟩
  | .local _ .vmem, ⟨8, _⟩ => ⟨S4096x128, .bf16⟩
  | .local _ .vmem, ⟨9, _⟩ => ⟨S4096x128, .bf16⟩
  | .local _ .vmem, ⟨10, _⟩ => ⟨S1x128, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_20 : BitVec 32 := 0#32
  let v40 : BitVec 1 := Scalar.cmpi .ne v39 c0_i32_20
  v40

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S128x128_S128x128_1_0 : S128x128.Transposes [1, 0] S128x128
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  inb_S128x384_S128x384_0_0 : ∀ a, (![0, 0] : Fin 2 → Nat) a + S128x384.size a ≤ S128x384.size a
  h_S128x384 : 0 < S128x384.numel
  shapeCasts_S128x384_S128x384 : S128x384.ShapeCasts S128x384
  bitsLt_bf16_f32 : FTy.bits .bf16 < FTy.bits .f32
  inb_S1x384_S1x384_0_0 : ∀ a, (![0, 0] : Fin 2 → Nat) a + S1x384.size a ≤ S1x384.size a
  h_S1x384 : 0 < S1x384.numel
  shapeCasts_S1x384_S1x384 : S1x384.ShapeCasts S1x384
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  slices_S128x384_o0_128_S128x128 : S128x384.Slices ![0, 128] S128x128
  slices_S128x384_o0_256_S128x128 : S128x384.Slices ![0, 256] S128x128
  slices_S1x384_o0_128_S1x128 : S1x384.Slices ![0, 128] S1x128
  broadcasts_S1x128_S4096x128 : S1x128.Broadcasts S4096x128
  slices_S1x384_o0_256_S1x128 : S1x384.Slices ![0, 256] S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  slices_S128x384_o0_0_S128x128 : S128x384.Slices ![0, 0] S128x128
  slices_S1x384_o0_0_S1x128 : S1x384.Slices ![0, 0] S1x128
  broadcasts_S1x128_S512x128 : S1x128.Broadcasts S512x128
  reduces_S512x4096_S512 : S512x4096.Reduces [1] S512
  shapeCasts_S512_S512x1 : S512.ShapeCasts S512x1
  broadcasts_S512x1_S512x4096 : S512x1.Broadcasts S512x4096
  reduces_S512x128_S128 : S512x128.Reduces [0] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S4x1x128_S4x128 : S4x1x128.ShapeCasts S4x128
  dot_S4096x128_S128x128_S4096x128_1_0_0_1_n_n_wf : DotDims.WF S4096x128 S128x128 S4096x128 [1] [0] [0] [1] [] []
  dot_S512x128_S128x128_S512x128_1_0_0_1_n_n_wf : DotDims.WF S512x128 S128x128 S512x128 [1] [0] [0] [1] [] []
  dot_S512x128_S4096x128_S512x4096_1_1_0_0_n_n_wf : DotDims.WF S512x128 S4096x128 S512x4096 [1] [1] [0] [0] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x4096x128.size a
  hwx0_1 : ∀ i : grid0.Coords, EltTy.bits .f32 = 32 ∨ (Rect.block (s := S4x4096x128) S1x512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x384.size a ≤ S128x384.size a
  hwx0_2 : ∀ i : grid0.Coords, EltTy.bits .f32 = 32 ∨ (Rect.block (s := S128x384) S128x384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x384.size a
  hwx0_3 : ∀ i : grid0.Coords, EltTy.bits .f32 = 32 ∨ (Rect.block (s := S1x384) S1x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S4x1x128.size a
  hwx0_4 : ∀ i : grid0.Coords, EltTy.bits .f32 = 32 ∨ (Rect.block (s := S4x1x128) S1x1x128.size (cc0_transform_4 i) (hinb0_4 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4096x128 : Shape := ⟨3, ![4, 4096, 128]⟩
abbrev S128x128 : Shape := ⟨2, ![128, 128]⟩
abbrev S128 : Shape := ⟨1, ![128]⟩
abbrev S1x1x128 : Shape := ⟨3, ![1, 1, 128]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x128 : Shape := ⟨2, ![4, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S4x4096x128, .f32⟩
  | .hbm, ⟨8, _⟩ => ⟨S1x1x128, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S1x1x128, .f32⟩
  | .hbm, ⟨13, _⟩ => ⟨S4x4096x128, .f32⟩
  | .hbm, ⟨14, _⟩ => ⟨S4x4096x128, .f32⟩
  | .hbm, ⟨15, _⟩ => ⟨S4x4096x128, .f32⟩
  | .hbm, ⟨16, _⟩ => ⟨S1x1x128, .f32⟩
  | .hbm, ⟨17, _⟩ => ⟨S4x4096x128, .f32⟩
  | .hbm, ⟨18, _⟩ => ⟨S4x4096x128, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S4x4096x1, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S4x4096x4096, .f32⟩
  | .hbm, ⟨33, _⟩ => ⟨S4x4096x4096, .f32⟩
  | .hbm, ⟨34, _⟩ => ⟨S4x4096x128, .f32⟩
  | .hbm, ⟨35, _⟩ => ⟨S_, .f32⟩
  | .hbm, ⟨36, _⟩ => ⟨S4x128, .f32⟩
  | .hbm, ⟨37, _⟩ => ⟨S_, .f32⟩
  | .hbm, ⟨38, _⟩ => ⟨S4x128, .f32⟩
  | .hbm, ⟨39, _⟩ => ⟨S4x128, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x4096x128_0_1_2 : S1x1x128.BroadcastsInDim S4x4096x128 (![0, 1, 2] : Fin 3 → Fin S4x4096x128.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  reducesTo_S4x4096x128_S4x128_d1 : S4x4096x128.ReducesTo [1] S4x128
  bcast_S_S4x128 : S_.BroadcastsInDim S4x128 (![] : Fin 0 → Fin S4x128.rank)
  dot_S4x4096x128_S128x128_S4x4096x128_2_1_01_0_n_n_wf : DotDims.WF S4x4096x128 S128x128 S4x4096x128 [2] [1] [0, 1] [0] [] []
  dot_S4x4096x128_S4x4096x128_S4x4096x4096_2_2_1_1_0_0_wf : DotDims.WF S4x4096x128 S4x4096x128 S4x4096x4096 [2] [2] [1] [1] [0] [0]
  dot_S4x4096x4096_S4x4096x128_S4x4096x128_2_1_1_2_0_0_wf : DotDims.WF S4x4096x4096 S4x4096x128 S4x4096x128 [2] [1] [1] [2] [0] [0]

variable [Facts₀]

def dot_S4x4096x128_S128x128_S4x4096x128_2_1_01_0_n_n : DotDims S4x4096x128 S128x128 S4x4096x128 where
  lhsContracting := [2]
  rhsContracting := [1]
  lhsNonContracting := [0, 1]
  rhsNonContracting := [0]
  lhsBatch := []
  rhsBatch := []
  wf := dot_S4x4096x128_S128x128_S4x4096x128_2_1_01_0_n_n_wf
def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf
def dot_S4x4096x4096_S4x4096x128_S4x4096x128_2_1_1_2_0_0 : DotDims S4x4096x4096 S4x4096x128 S4x4096x128 where
  lhsContracting := [2]
  rhsContracting := [1]
  lhsNonContracting := [1]
  rhsNonContracting := [2]
  lhsBatch := [0]
  rhsBatch := [0]
  wf := dot_S4x4096x4096_S4x4096x128_S4x4096x128_2_1_1_2_0_0_wf

class Facts : Prop extends Facts₀ where

variable [Facts]
-- ==== Proof.KiRuns.lean ====
/-
  What the runs of the kernel body at its three kinds of grid point share.

  The grid has 4 × 8 = 32 points, point t = 8·b + q for batch b and query tile q. The body branches twice on q alone:
  at q = 0 it projects the batch's keys and values into the two scratch buffers and clears the running sum; at every
  point it adds the tile's attended rows, summed, to the running sum; at q = 7 it writes the running sum divided by
  4096 into the result's block. So a point is of one of three kinds: first of its batch (t ≡ 0 mod 8), last
  (t ≡ 7 mod 8), or in between. Here: the contents of the buffers when the region is entered (the six host operations
  have run), each window's block read off them, the two conditions in closed form over the grid, where the result's
  window is idle, and the staging and scratch memrefs a run is stated over.
-/
import proofs.«425314_j78219944395235_3_alg».proof.Proof.Gen.KernelIdeal.Launch
import proofs.«425314_j78219944395235_3_alg».proof.Proof.Gen.KernelIdeal.Skeleton
import proofs.«425314_j78219944395235_3_alg».proof.Proof.Gen.KernelIdeal.Points
import Idealize.ShloMosaic.Lib.Pipeline.FrameBody
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev V₀ (c : Dev nD) : Valuation τ sig (Elt F) := fun b => m (c, b)
/-- and when the region is entered: the six host operations have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## The two conditions, over the grid -/

/-- The first branch's condition (the query tile is the batch's first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition (the query tile is the batch's last). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from a batch's last point the result's window is idle (the body stores nothing into it), -/
theorem idleAt4 : ∀ t : Fin cfg0.N, ¬cond0_1 (grid0.coords t) → cfg0.idle 4 (grid0.coords t) = true := by decide +kernel
/-- and the pipeline does not write its block back there; -/
theorem noFlush4 : ∀ t : Fin cfg0.N, ¬cond0_1 (grid0.coords t) → (cfg0.win 4).flush t = false := by decide +kernel
/-- at a batch's last point it is live. -/
theorem liveAt4 : ∀ t : Fin cfg0.N, cond0_1 (grid0.coords t) → cfg0.idle 4 (grid0.coords t) = false := by decide +kernel

/-! ## The memrefs a run is stated over -/

abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)
/-- The three scratch operands: whole scoped buffers of the kernel's own (keys, values, the running sum). -/
abbrev scK : Memref sig .tc .vmem S4096x128 .bf16 := Memref.whole cc0_scratch0
abbrev scV : Memref sig .tc .vmem S4096x128 .bf16 := Memref.whole cc0_scratch1
abbrev scA : Memref sig .tc .vmem S1x128 .f32 := Memref.whole cc0_scratch2
/-- One staging buffer of the result's window, and the scratch buffers, as views through which contents are stated. -/
abbrev VO4 : View sig .tc .vmem S1x1x128 .f32 := (Memref.whole cc0_stg4_0 : Memref sig .tc .vmem S1x1x128 .f32).view
abbrev VSK : View sig .tc .vmem S4096x128 .bf16 := scK.view
abbrev VSV : View sig .tc .vmem S4096x128 .bf16 := scV.view
abbrev VSA : View sig .tc .vmem S1x128 .f32 := scA.view

/-- The scoped buffers that are no staging buffer, as the three scratch memrefs owned at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scK fullShare d) ∗ (∃ d, owns (c : Thread nD τ) scV fullShare d) ∗ (∃ d, owns (c : Thread nD τ) scA fullShare d)) := by
  rw [scopedRest0_eq]; simp only [scK, scV, scA, owns_whole]; rfl

end Cert.KernelIdeal.Hand

end
-- ==== Proof.KiRunA.lean ====
/-
  The kernel body run once, on any whole staging and scratch memrefs, at a grid point that is its batch's first: the first branch is taken, the second is not. The body reads the batch's whole block, projects it into keys and values, stores them over the two scratch buffers, clears the running sum, then goes on as at every point, reading back what it has just stored.
  What each buffer the body stores into ends with is found by the run itself, as the list of its stores (last first),
  and stated as the witness of a subtype together with the run's triple.
-/
import proofs.«425314_j78219944395235_3_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun_A (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x1x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x128 .f32) (harg9 : arg9.IsWhole) (hc0 : cond0_0 i) (hc1 : ¬cond0_1 i)
    (x0 : Vec F S1x4096x128 .f32) (x1 : Vec F S1x512x128 .f32) (x2 : Vec F S128x384 .f32) (x3 : Vec F S1x384 .f32) :
    Σ' (LK : List (View.Piece (Elt F) S4096x128 .bf16)) (LV : List (View.Piece (Elt F) S4096x128 .bf16)), { LA : List (View.Piece (Elt F) S1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LK) ∗ (∃ f, arg8.view.loc (c : Thread nD τ) ↦[arg8.view.set]{fullShare} arg8.view.writes (Elt F) f LV) ∗ (∃ f, arg9.view.loc (c : Thread nD τ) ↦[arg9.view.set]{fullShare} arg9.view.writes (Elt F) f LA)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, fun xi4 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dk, %fk, -, HK⟩, ⟨%dv, %fv, -, HV⟩, ⟨%da, %fa, -, HA⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HK]; · iexists _; iexact HK
    isplitl [HV]; · iexists _; iexact HV
    iexists _; iexact HA

end Cert.KernelIdeal.Hand

end
-- ==== Proof.KiRunB.lean ====
/-
  The kernel body run once, on any whole staging and scratch memrefs, at a grid point strictly inside a batch: neither branch is taken. The body reads the query tile, the packed weights and biases, the keys, the values and the running sum, and stores the running sum plus the tile's attended rows summed; the result's buffer is not touched.
  What each buffer the body stores into ends with is found by the run itself, as the list of its stores (last first),
  and stated as the witness of a subtype together with the run's triple.
-/
import proofs.«425314_j78219944395235_3_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun_B (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x1x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x128 .f32) (harg9 : arg9.IsWhole) (hc0 : ¬cond0_0 i) (hc1 : ¬cond0_1 i)
    (x0 : Vec F S1x4096x128 .f32) (x1 : Vec F S1x512x128 .f32) (x2 : Vec F S128x384 .f32) (x3 : Vec F S1x384 .f32)
    (xk : Vec F S4096x128 .bf16) (xv : Vec F S4096x128 .bf16) (xa : Vec F S1x128 .f32) :
    { LA : List (View.Piece (Elt F) S1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xk ∗ owns (c : Thread nD τ) arg8 fullShare xv ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xk ∗ owns (c : Thread nD τ) arg8 fullShare xv ∗ (∃ f, arg9.view.loc (c : Thread nD τ) ↦[arg9.view.set]{fullShare} arg9.view.writes (Elt F) f LA)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun xi4 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fk, %hfk, HK⟩, ⟨%fv, %hfv, HV⟩, ⟨%fa, %hfa, HA⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfk; obtain rfl := harg8.eq_unread hfv; obtain rfl := harg9.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HK]
    · iexists _; isplitr; · ipureintro; exact harg7.read_unread _
      iexact HK
    isplitl [HV]
    · iexists _; isplitr; · ipureintro; exact harg8.read_unread _
      iexact HV
    iexists _; iexact HA

end Cert.KernelIdeal.Hand

end
-- ==== Proof.KiRunC.lean ====
/-
  The kernel body run once, on any whole staging and scratch memrefs, at a grid point that is its batch's last: the first branch is not taken, the second is. After adding the tile's attended rows to the running sum the body reads the sum back, divides it by 4096 and stores the quotient over the result's buffer.
  What each buffer the body stores into ends with is found by the run itself, as the list of its stores (last first),
  and stated as the witness of a subtype together with the run's triple.
-/
import proofs.«425314_j78219944395235_3_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun_C (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x1x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x128 .f32) (harg9 : arg9.IsWhole) (hc0 : ¬cond0_0 i) (hc1 : cond0_1 i)
    (x0 : Vec F S1x4096x128 .f32) (x1 : Vec F S1x512x128 .f32) (x2 : Vec F S128x384 .f32) (x3 : Vec F S1x384 .f32)
    (xk : Vec F S4096x128 .bf16) (xv : Vec F S4096x128 .bf16) (xa : Vec F S1x128 .f32) :
    Σ' (L4 : List (View.Piece (Elt F) S1x1x128 .f32)), { LA : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xk ∗ owns (c : Thread nD τ) arg8 fullShare xv ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xk ∗ owns (c : Thread nD τ) arg8 fullShare xv ∗ (∃ f, arg9.view.loc (c : Thread nD τ) ↦[arg9.view.set]{fullShare} arg9.view.writes (Elt F) f LA)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fk, %hfk, HK⟩, ⟨%fv, %hfv, HV⟩, ⟨%fa, %hfa, HA⟩, Hk⟩
    obtain rfl := harg2.eq_unread hf0; obtain rfl := harg3.eq_unread hf1; obtain rfl := harg4.eq_unread hf2; obtain rfl := harg5.eq_unread hf3
    obtain rfl := harg7.eq_unread hfk; obtain rfl := harg8.eq_unread hfv; obtain rfl := harg9.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HK]
    · iexists _; isplitr; · ipureintro; exact harg7.read_unread _
      iexact HK
    isplitl [HV]
    · iexists _; isplitr; · ipureintro; exact harg8.read_unread _
      iexact HV
    iexists _; iexact HA

end Cert.KernelIdeal.Hand

end
-- ==== Proof.KiFrame.lean ====
/-
  What the kernel's buffers hold point by point, the pipeline's proof data, and the body obligation.

  After the body at point t = 8·b + q the two large scratch buffers hold the batch's keys and values (written at q = 0
  and only read afterwards), the small one the running sum of the attended rows of tiles 0 … q, and at q = 7 the
  result's staging buffer the running sum divided by 4096. These contents are stated by recursion on the point, each
  point's from the point before through the run of its kind; the invariant between points is the three scratch buffers
  at exactly those contents (at anything before the first point); an input window's buffer holds its block at every
  point, fetched there or not; the result's window is idle away from q = 7 and handed back untouched there.
-/
import proofs.«425314_j78219944395235_3_alg».proof.Proof.KiRunA
import proofs.«425314_j78219944395235_3_alg».proof.Proof.KiRunB
import proofs.«425314_j78219944395235_3_alg».proof.Proof.KiRunC
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each kind of point leaves -/

/-- The result's buffer at a point that stores nothing into it: a placeholder nothing consults (the window is idle and
    not written back there). -/
def junk4 : Vec F S1x1x128 .f32 := VO4.read (Elt F) VO4.junk

def skA (c : Dev nD) (t : Fin cfg0.N) (h0 : t.val % 8 = 0) : Vec F S4096x128 .bf16 := VSK.read (Elt F) (VSK.writes (Elt F) VSK.junk (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).1)
def svA (c : Dev nD) (t : Fin cfg0.N) (h0 : t.val % 8 = 0) : Vec F S4096x128 .bf16 := VSV.read (Elt F) (VSV.writes (Elt F) VSV.junk (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.1)
def saA (c : Dev nD) (t : Fin cfg0.N) (h0 : t.val % 8 = 0) : Vec F S1x128 .f32 := VSA.read (Elt F) (VSA.writes (Elt F) VSA.junk (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.2.1)
theorem coverKA (c : Dev nD) (t : Fin cfg0.N) (h0 : t.val % 8 = 0) (y : S4096x128.Idx) : ∃ pc ∈ (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).1, y ∈ pc.1.set :=
  View.cover_of_tiledL (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).1 S4096x128.size (by sl_kernel_rfl) y

theorem coverVA (c : Dev nD) (t : Fin cfg0.N) (h0 : t.val % 8 = 0) (y : S4096x128.Idx) : ∃ pc ∈ (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.1, y ∈ pc.1.set :=
  View.cover_of_tiledL (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.1 S4096x128.size (by sl_kernel_rfl) y

theorem coverAA (c : Dev nD) (t : Fin cfg0.N) (h0 : t.val % 8 = 0) (y : S1x128.Idx) : ∃ pc ∈ (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.2.1, y ∈ pc.1.set :=
  View.cover_of_tiledL (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.2.1 S1x128.size (by sl_kernel_rfl) y

def saB (c : Dev nD) (t : Fin cfg0.N) (h0 : ¬t.val % 8 = 0) (h1 : ¬t.val % 8 = 7) (xk : Vec F S4096x128 .bf16) (xv : Vec F S4096x128 .bf16) (xa : Vec F S1x128 .f32) : Vec F S1x128 .f32 := VSA.read (Elt F) (VSA.writes (Elt F) VSA.junk (kernelRun_B c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) (fun h => h1 ((hcond0_1 t).mp h)) (iblk m c 0 t) (iblk m c 1 t) (iblk m c 2 t) (iblk m c 3 t) xk xv xa).1)
theorem coverAB (c : Dev nD) (t : Fin cfg0.N) (h0 : ¬t.val % 8 = 0) (h1 : ¬t.val % 8 = 7) (xk : Vec F S4096x128 .bf16) (xv : Vec F S4096x128 .bf16) (xa : Vec F S1x128 .f32) (y : S1x128.Idx) : ∃ pc ∈ (kernelRun_B c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) (fun h => h1 ((hcond0_1 t).mp h)) (iblk m c 0 t) (iblk m c 1 t) (iblk m c 2 t) (iblk m c 3 t) xk xv xa).1, y ∈ pc.1.set :=
  View.cover_of_tiledL (kernelRun_B c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) (fun h => h1 ((hcond0_1 t).mp h)) (iblk m c 0 t) (iblk m c 1 t) (iblk m c 2 t) (iblk m c 3 t) xk xv xa).1 S1x128.size (by sl_kernel_rfl) y

def o4C (c : Dev nD) (t : Fin cfg0.N) (h0 : ¬t.val % 8 = 0) (h1 : t.val % 8 = 7) (xk : Vec F S4096x128 .bf16) (xv : Vec F S4096x128 .bf16) (xa : Vec F S1x128 .f32) : Vec F S1x1x128 .f32 := VO4.read (Elt F) (VO4.writes (Elt F) VO4.junk (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).1)
def saC (c : Dev nD) (t : Fin cfg0.N) (h0 : ¬t.val % 8 = 0) (h1 : t.val % 8 = 7) (xk : Vec F S4096x128 .bf16) (xv : Vec F S4096x128 .bf16) (xa : Vec F S1x128 .f32) : Vec F S1x128 .f32 := VSA.read (Elt F) (VSA.writes (Elt F) VSA.junk (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).2.1)
theorem cover4C (c : Dev nD) (t : Fin cfg0.N) (h0 : ¬t.val % 8 = 0) (h1 : t.val % 8 = 7) (xk : Vec F S4096x128 .bf16) (xv : Vec F S4096x128 .bf16) (xa : Vec F S1x128 .f32) (y : S1x1x128.Idx) : ∃ pc ∈ (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).1, y ∈ pc.1.set :=
  View.cover_of_tiledL (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).1 S1x1x128.size (by sl_kernel_rfl) y

theorem coverAC (c : Dev nD) (t : Fin cfg0.N) (h0 : ¬t.val % 8 = 0) (h1 : t.val % 8 = 7) (xk : Vec F S4096x128 .bf16) (xv : Vec F S4096x128 .bf16) (xa : Vec F S1x128 .f32) (y : S1x128.Idx) : ∃ pc ∈ (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).2.1, y ∈ pc.1.set :=
  View.cover_of_tiledL (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).2.1 S1x128.size (by sl_kernel_rfl) y

/-! ## The contents after each point -/

/-- The result's staging buffer and the three scratch buffers after the body at position `n`. -/
def outsAt (c : Dev nD) : (n : ℕ) → n < cfg0.N → Vec F S1x1x128 .f32 × Vec F S4096x128 .bf16 × Vec F S4096x128 .bf16 × Vec F S1x128 .f32
  | 0, hn => (junk4, skA m c ⟨0, hn⟩ (Nat.zero_mod _), svA m c ⟨0, hn⟩ (Nat.zero_mod _), saA m c ⟨0, hn⟩ (Nat.zero_mod _))
  | n + 1, hn =>
    if h0 : (n + 1) % 8 = 0 then
      (junk4, skA m c ⟨n + 1, hn⟩ h0, svA m c ⟨n + 1, hn⟩ h0, saA m c ⟨n + 1, hn⟩ h0)
    else
      if h1 : (n + 1) % 8 = 7 then
        (o4C m c ⟨n + 1, hn⟩ h0 h1 (outsAt c n (Nat.lt_of_succ_lt hn)).2.1 (outsAt c n (Nat.lt_of_succ_lt hn)).2.2.1 (outsAt c n (Nat.lt_of_succ_lt hn)).2.2.2, (outsAt c n (Nat.lt_of_succ_lt hn)).2.1, (outsAt c n (Nat.lt_of_succ_lt hn)).2.2.1,
          saC m c ⟨n + 1, hn⟩ h0 h1 (outsAt c n (Nat.lt_of_succ_lt hn)).2.1 (outsAt c n (Nat.lt_of_succ_lt hn)).2.2.1 (outsAt c n (Nat.lt_of_succ_lt hn)).2.2.2)
      else
        (junk4, (outsAt c n (Nat.lt_of_succ_lt hn)).2.1, (outsAt c n (Nat.lt_of_succ_lt hn)).2.2.1, saB m c ⟨n + 1, hn⟩ h0 h1 (outsAt c n (Nat.lt_of_succ_lt hn)).2.1 (outsAt c n (Nat.lt_of_succ_lt hn)).2.2.1 (outsAt c n (Nat.lt_of_succ_lt hn)).2.2.2)

theorem outsAt_A (c : Dev nD) (t : Fin cfg0.N) (h0 : t.val % 8 = 0) :
    outsAt m c t.val t.isLt = (junk4, skA m c t h0, svA m c t h0, saA m c t h0) := by
  obtain ⟨n, hn⟩ := t
  cases n with
  | zero => exact rfl
  | succ n => exact (dif_pos h0).trans rfl

theorem outsAt_B (c : Dev nD) (t : Fin cfg0.N) (h0 : ¬t.val % 8 = 0) (h1 : ¬t.val % 8 = 7) :
    outsAt m c t.val t.isLt = (junk4, (outsAt m c (t.val - 1) (Nat.lt_of_le_of_lt (Nat.sub_le _ _) t.isLt)).2.1, (outsAt m c (t.val - 1) (Nat.lt_of_le_of_lt (Nat.sub_le _ _) t.isLt)).2.2.1, saB m c t h0 h1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (o4C m c t h0 h1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, (outsAt m c (t.val - 1) (Nat.lt_of_le_of_lt (Nat.sub_le _ _) t.isLt)).2.1, (outsAt m c (t.val - 1) (Nat.lt_of_le_of_lt (Nat.sub_le _ _) t.isLt)).2.2.1,
      saC m c t h0 h1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the three scratch buffers at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scK fullShare ((outsAt m c n hn).2.1) ∗ owns (c : Thread nD τ) scV fullShare ((outsAt m c n hn).2.2.1)
      ∗ owns (c : Thread nD τ) scA fullShare ((outsAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scK fullShare ((outsAt m c n hn).2.1) ∗ owns (c : Thread nD τ) scV fullShare ((outsAt m c n hn).2.2.1)
      ∗ owns (c : Thread nD τ) scA fullShare ((outsAt m c n hn).2.2.2)) := rfl

theorem PhiS_pos (c : Dev nD) (n : ℕ) (h : n ≤ cfg0.N) (hz : n ≠ 0) :
    PhiS m c n h = iprop(owns (c : Thread nD τ) scK fullShare ((outsAt m c (n - 1) (by omega)).2.1) ∗ owns (c : Thread nD τ) scV fullShare ((outsAt m c (n - 1) (by omega)).2.2.1)
      ∗ owns (c : Thread nD τ) scA fullShare ((outsAt m c (n - 1) (by omega)).2.2.2)) := by
  cases n with
  | zero => exact absurd rfl hz
  | succ n => rfl

/-! ## The pipeline's proof data -/

/-- The proof data on core `c`: the arrays as the region finds them; after the body each input's buffer at its block and
    the result's at `outsAt`; the invariant `PhiS`; nothing owed. The activations' array is read through two windows,
    the whole batch and the query tile: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point: the inputs' buffers hold their blocks; the closed forms say which kind the point is of; the
    invariant hands the body the scratch buffers at what the point before left (at anything at the first point) and takes
    them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · have h1 : ¬t.val % 8 = 7 := by omega
    rw [show (dats m 0 c).leavesExact 0 t = owns (c : Thread nD τ) (ms0 t) fullShare ((dats m 0 c).after 0 t) from by
      unfold Dat.leavesExact; rw [show cfg0.idle 0 (grid0.coords t) = false from rfl], after0]
    rw [show (dats m 0 c).leavesExact 1 t = owns (c : Thread nD τ) (ms1 t) fullShare ((dats m 0 c).after 1 t) from by
      unfold Dat.leavesExact; rw [show cfg0.idle 1 (grid0.coords t) = false from rfl], after1]
    rw [show (dats m 0 c).leavesExact 2 t = owns (c : Thread nD τ) (ms2 t) fullShare ((dats m 0 c).after 2 t) from by
      unfold Dat.leavesExact; rw [show cfg0.idle 2 (grid0.coords t) = false from rfl], after2]
    rw [show (dats m 0 c).leavesExact 3 t = owns (c : Thread nD τ) (ms3 t) fullShare ((dats m 0 c).after 3 t) from by
      unfold Dat.leavesExact; rw [show cfg0.idle 3 (grid0.coords t) = false from rfl], after3]
    rw [Dat.leavesExact_idle (dats m 0 c) 4 t (idleAt4 t (fun h => h1 ((hcond0_1 t).mp h))) (noFlush4 t (fun h => h1 ((hcond0_1 t).mp h)))]
    rw [outsAt_A m c t h0]
    unfold skA svA saA; (try dsimp only)
    have hrun := (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.2.2
    by_cases hz : t.val = 0
    · rw [PhiS_castSucc m c t, PhiS_zero m c _ _ hz, scopedRest_owns]
      iintro ⟨⟨HK, HV, HA⟩, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HK]; · iexact HK
      isplitl [HV]; · iexact HV
      isplitl [HA]; · iexact HA
      iintro ⟨H0, H1, H2, H3, H4, ⟨%ek, HK⟩, ⟨%ev, HV⟩, ⟨%ea, HA⟩⟩
      isplitl [HK HV HA]
      · isplitl [HK]
        · unfold owns; iexists _; isplitr
          swap; · iexact HK
          ipureintro; exact View.read_writes_of_cover _ _ _ _ _ (coverKA m c t h0)
        isplitl [HV]
        · unfold owns; iexists _; isplitr
          swap; · iexact HV
          ipureintro; exact View.read_writes_of_cover _ _ _ _ _ (coverVA m c t h0)
        unfold owns; iexists _; isplitr
        swap; · iexact HA
        ipureintro; exact View.read_writes_of_cover _ _ _ _ _ (coverAA m c t h0)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HK, HV, HA⟩, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HK]; · iexists _; iexact HK
      isplitl [HV]; · iexists _; iexact HV
      isplitl [HA]; · iexists _; iexact HA
      iintro ⟨H0, H1, H2, H3, H4, ⟨%ek, HK⟩, ⟨%ev, HV⟩, ⟨%ea, HA⟩⟩
      isplitl [HK HV HA]
      · isplitl [HK]
        · unfold owns; iexists _; isplitr
          swap; · iexact HK
          ipureintro; exact View.read_writes_of_cover _ _ _ _ _ (coverKA m c t h0)
        isplitl [HV]
        · unfold owns; iexists _; isplitr
          swap; · iexact HV
          ipureintro; exact View.read_writes_of_cover _ _ _ _ _ (coverVA m c t h0)
        unfold owns; iexists _; isplitr
        swap; · iexact HA
        ipureintro; exact View.read_writes_of_cover _ _ _ _ _ (coverAA m c t h0)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 0 t = owns (c : Thread nD τ) (ms0 t) fullShare ((dats m 0 c).after 0 t) from by
        unfold Dat.leavesExact; rw [show cfg0.idle 0 (grid0.coords t) = false from rfl], after0]
      rw [show (dats m 0 c).leavesExact 1 t = owns (c : Thread nD τ) (ms1 t) fullShare ((dats m 0 c).after 1 t) from by
        unfold Dat.leavesExact; rw [show cfg0.idle 1 (grid0.coords t) = false from rfl], after1]
      rw [show (dats m 0 c).leavesExact 2 t = owns (c : Thread nD τ) (ms2 t) fullShare ((dats m 0 c).after 2 t) from by
        unfold Dat.leavesExact; rw [show cfg0.idle 2 (grid0.coords t) = false from rfl], after2]
      rw [show (dats m 0 c).leavesExact 3 t = owns (c : Thread nD τ) (ms3 t) fullShare ((dats m 0 c).after 3 t) from by
        unfold Dat.leavesExact; rw [show cfg0.idle 3 (grid0.coords t) = false from rfl], after3]
      rw [show (dats m 0 c).leavesExact 4 t = owns (c : Thread nD τ) (ms4 t) fullShare ((dats m 0 c).after 4 t) from by
        unfold Dat.leavesExact; rw [liveAt4 t ((hcond0_1 t).mpr h1)], after4]
      rw [outsAt_C m c t h0 h1]
      unfold o4C saC; (try dsimp only)
      rw [PhiS_castSucc m c t, PhiS_pos m c _ _ hz]
      iintro ⟨⟨HK, HV, HA⟩, Ho, ⟨%d0, H0⟩, ⟨%d1, H1⟩, ⟨%d2, H2⟩, ⟨%d3, H3⟩, ⟨%d4, H4⟩⟩
      iapply ((kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) _ _ _).2.2 Set.univ _)
      isplitl [H0]; · iexact H0
      isplitl [H1]; · iexact H1
      isplitl [H2]; · iexact H2
      isplitl [H3]; · iexact H3
      isplitl [H4]; · iexists _; iexact H4
      isplitl [HK]; · iexact HK
      isplitl [HV]; · iexact HV
      isplitl [HA]; · iexact HA
      iintro ⟨H0, H1, H2, H3, ⟨%e4, H4⟩, HK, HV, ⟨%ea, HA⟩⟩
      isplitl [HK HV HA]
      · isplitl [HK]; · iexact HK
        isplitl [HV]; · iexact HV
        unfold owns; iexists _; isplitr
        swap; · iexact HA
        ipureintro; exact View.read_writes_of_cover _ _ _ _ _ (coverAC m c t h0 h1 _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover4C m c t h0 h1 _ _ _)
    · rw [show (dats m 0 c).leavesExact 0 t = owns (c : Thread nD τ) (ms0 t) fullShare ((dats m 0 c).after 0 t) from by
        unfold Dat.leavesExact; rw [show cfg0.idle 0 (grid0.coords t) = false from rfl], after0]
      rw [show (dats m 0 c).leavesExact 1 t = owns (c : Thread nD τ) (ms1 t) fullShare ((dats m 0 c).after 1 t) from by
        unfold Dat.leavesExact; rw [show cfg0.idle 1 (grid0.coords t) = false from rfl], after1]
      rw [show (dats m 0 c).leavesExact 2 t = owns (c : Thread nD τ) (ms2 t) fullShare ((dats m 0 c).after 2 t) from by
        unfold Dat.leavesExact; rw [show cfg0.idle 2 (grid0.coords t) = false from rfl], after2]
      rw [show (dats m 0 c).leavesExact 3 t = owns (c : Thread nD τ) (ms3 t) fullShare ((dats m 0 c).after 3 t) from by
        unfold Dat.leavesExact; rw [show cfg0.idle 3 (grid0.coords t) = false from rfl], after3]
      rw [Dat.leavesExact_idle (dats m 0 c) 4 t (idleAt4 t (fun h => h1 ((hcond0_1 t).mp h))) (noFlush4 t (fun h => h1 ((hcond0_1 t).mp h)))]
      rw [outsAt_B m c t h0 h1]
      unfold saB; (try dsimp only)
      rw [PhiS_castSucc m c t, PhiS_pos m c _ _ hz]
      iintro ⟨⟨HK, HV, HA⟩, Ho, ⟨%d0, H0⟩, ⟨%d1, H1⟩, ⟨%d2, H2⟩, ⟨%d3, H3⟩, ⟨%d4, H4⟩⟩
      iapply ((kernelRun_B c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) (fun h => h1 ((hcond0_1 t).mp h)) (iblk m c 0 t) (iblk m c 1 t) (iblk m c 2 t) (iblk m c 3 t) _ _ _).2 _ Set.univ _)
      isplitl [H0]; · iexact H0
      isplitl [H1]; · iexact H1
      isplitl [H2]; · iexact H2
      isplitl [H3]; · iexact H3
      isplitl [H4]; · iexact H4
      isplitl [HK]; · iexact HK
      isplitl [HV]; · iexact HV
      isplitl [HA]; · iexact HA
      iintro ⟨H0, H1, H2, H3, H4, HK, HV, ⟨%ea, HA⟩⟩
      isplitl [HK HV HA]
      · isplitl [HK]; · iexact HK
        isplitl [HV]; · iexact HV
        unfold owns; iexists _; isplitr
        swap; · iexact HA
        ipureintro; exact View.read_writes_of_cover _ _ _ _ _ (coverAB m c t h0 h1 _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.LibNary3.lean ====
/-
  An operation of three operands given as a literal family: its result with each operand's contents at its own
  reference.
-/
import Idealize.ShloMosaic.Lib.StableHlo.Run

noncomputable section

namespace Cert.LibNary3

open Idealize.ShloMosaic Idealize.ShloMosaic.StableHlo

variable {τ : Topo} {sig : RefSig} {Val : EltTy → Type} {x a b y : Ref sig .tc}

/-- The result of an operation over the literal family of three references `![x, a, b]`: its function at the
    three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for rewriting by simplification. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Cert.LibNary3

end
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.HostPrefix.lean ====
/-
  The host operations that run before the kernel region, read at an index.

  Before the region the program transposes the three weight matrices, lays the three transposes side by side
  along the columns into one [128, 384] matrix, lays the three bias vectors end to end into one [384] vector and
  reshapes that vector into a [1, 384] row. For every float family and every starting contents of the buffers:
  * the [128, 384] matrix at (d, o + e), for o = 0, 128, 256, is the first, second, third weight matrix at (e, d);
  * the [1, 384] row at (0, o + e) is the first, second, third bias vector at e;
  * the arguments and the two buffers written after the region hold what they held.
-/
import proofs.«425314_j78219944395235_3_alg».proof.Proof.Gen.KernelIdeal.Launch
import proofs.«425314_j78219944395235_3_alg».proof.Proof.LibNary3
import proofs.«425314_j78219944395235_3_alg».proof.Proof.LibKeepAll
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostPrefix

open Cert.KernelIdeal Cert.KernelIdeal.Gen Idealize.ShloMosaic Idealize.ShloMosaic.ValueIdx Idealize.ShloMosaic.StableHlo
open Cert.LibNary3 Cert.LibKeepAll

variable {F : FTy → Type} [FloatOps F] [Cert.KernelIdeal.Facts] (W : Valuation τ sig (Elt F))

/-! ## The buffers' whole contents after the six operations -/

/-- After the operations the [128, 384] matrix is the three transposed weight matrices side by side. -/
theorem v3_whole :
    (after (hostOps0 (F := F)) W (Proc.devRef .tc main_v3) : S128x384.Idx → Elt F .f32)
      = concatenate S128x384 1
          [⟨S128x128, transpose S128x128 [1, 0] (W (Proc.devRef .tc main_arg1) : S128x128.Idx → Elt F .f32) transposes_S128x128_S128x128_1_0⟩,
           ⟨S128x128, transpose S128x128 [1, 0] (W (Proc.devRef .tc main_arg3) : S128x128.Idx → Elt F .f32) transposes_S128x128_S128x128_1_0⟩,
           ⟨S128x128, transpose S128x128 [1, 0] (W (Proc.devRef .tc main_arg5) : S128x128.Idx → Elt F .f32) transposes_S128x128_S128x128_1_0⟩]
          concatenates_S128x128_S128x128_S128x128_S128x384_d1 := by
  simp only [after_cons, after_nil]
  rw [reshape_result_ne (h := by decide)]
  rw [nary_result_ne (h := by decide)]
  rw [nary3_result]
  repeat (first
    | rw [unary_result]
    | (rw [unary_result_ne]; rotate_left; decide))
  rfl

/-- After the operations the [1, 384] row is the three bias vectors end to end, reshaped. -/
theorem v5_whole :
    (after (hostOps0 (F := F)) W (Proc.devRef .tc main_v5) : S1x384.Idx → Elt F .f32)
      = shapeCast S1x384
          (concatenate S384 0
            [⟨S128, (W (Proc.devRef .tc main_arg2) : S128.Idx → Elt F .f32)⟩,
             ⟨S128, (W (Proc.devRef .tc main_arg4) : S128.Idx → Elt F .f32)⟩,
             ⟨S128, (W (Proc.devRef .tc main_arg6) : S128.Idx → Elt F .f32)⟩]
            concatenates_S128_S128_S128_S384_d0)
          shapeCasts_S384_S1x384 := by
  simp only [after_cons, after_nil]
  rw [reshape_result]
  rw [nary3_result]
  repeat (first
    | (rw [nary_result_ne]; rotate_left; decide)
    | (rw [unary_result_ne]; rotate_left; decide))
  rfl

/-! ## Three equal pieces laid along an axis, read at an index -/

section Pieces
variable {α : Type}

/-- Three [128, 128] matrices side by side, read in the first block of columns. -/
theorem cols_piece0 (x0 x1 x2 : S128x128.Idx → α) (h : Shape.Concatenates [S128x128, S128x128, S128x128] S128x384 1)
    (d e : Fin 128) :
    concatenate S128x384 1 [⟨S128x128, x0⟩, ⟨S128x128, x1⟩, ⟨S128x128, x2⟩] h (ix2 d ⟨e.val, by omega⟩) = x0 (ix2 d e) :=
  concatenate_apply_piece (t := S128x384) 1 [⟨S128x128, x0⟩, ⟨S128x128, x1⟩, ⟨S128x128, x2⟩] h _ 0 (show 0 < 3 by omega) S128x128 x0 rfl rfl 0 rfl (ix2 d e)
    (fun b hb => match b, hb with | ⟨0, _⟩, _ => rfl | ⟨1, _⟩, hb => absurd rfl hb)
    (Nat.zero_add _)

/-- Three [128, 128] matrices side by side, read in the second block of columns. -/
theorem cols_piece1 (x0 x1 x2 : S128x128.Idx → α) (h : Shape.Concatenates [S128x128, S128x128, S128x128] S128x384 1)
    (d e : Fin 128) :
    concatenate S128x384 1 [⟨S128x128, x0⟩, ⟨S128x128, x1⟩, ⟨S128x128, x2⟩] h (ix2 d ⟨128 + e.val, by omega⟩) = x1 (ix2 d e) :=
  concatenate_apply_piece (t := S128x384) 1 [⟨S128x128, x0⟩, ⟨S128x128, x1⟩, ⟨S128x128, x2⟩] h _ 1 (show 1 < 3 by omega) S128x128 x1 rfl rfl 128 rfl (ix2 d e)
    (fun b hb => match b, hb with | ⟨0, _⟩, _ => rfl | ⟨1, _⟩, hb => absurd rfl hb)
    rfl

/-- Three [128, 128] matrices side by side, read in the third block of columns. -/
theorem cols_piece2 (x0 x1 x2 : S128x128.Idx → α) (h : Shape.Concatenates [S128x128, S128x128, S128x128] S128x384 1)
    (d e : Fin 128) :
    concatenate S128x384 1 [⟨S128x128, x0⟩, ⟨S128x128, x1⟩, ⟨S128x128, x2⟩] h (ix2 d ⟨256 + e.val, by omega⟩) = x2 (ix2 d e) :=
  concatenate_apply_piece (t := S128x384) 1 [⟨S128x128, x0⟩, ⟨S128x128, x1⟩, ⟨S128x128, x2⟩] h _ 2 (show 2 < 3 by omega) S128x128 x2 rfl rfl 256 rfl (ix2 d e)
    (fun b hb => match b, hb with | ⟨0, _⟩, _ => rfl | ⟨1, _⟩, hb => absurd rfl hb)
    rfl

/-- Three [128] vectors end to end, read in the first stretch. -/
theorem vec_piece0 (x0 x1 x2 : S128.Idx → α) (h : Shape.Concatenates [S128, S128, S128] S384 0) (e : Fin 128) :
    concatenate S384 0 [⟨S128, x0⟩, ⟨S128, x1⟩, ⟨S128, x2⟩] h (ix1 ⟨e.val, by omega⟩) = x0 (ix1 e) :=
  concatenate_apply_piece (t := S384) 0 [⟨S128, x0⟩, ⟨S128, x1⟩, ⟨S128, x2⟩] h _ 0 (show 0 < 3 by omega) S128 x0 rfl rfl 0 rfl (ix1 e)
    (fun b hb => match b, hb with | ⟨0, _⟩, hb => absurd rfl hb)
    (Nat.zero_add _)

/-- Three [128] vectors end to end, read in the second stretch. -/
theorem vec_piece1 (x0 x1 x2 : S128.Idx → α) (h : Shape.Concatenates [S128, S128, S128] S384 0) (e : Fin 128) :
    concatenate S384 0 [⟨S128, x0⟩, ⟨S128, x1⟩, ⟨S128, x2⟩] h (ix1 ⟨128 + e.val, by omega⟩) = x1 (ix1 e) :=
  concatenate_apply_piece (t := S384) 0 [⟨S128, x0⟩, ⟨S128, x1⟩, ⟨S128, x2⟩] h _ 1 (show 1 < 3 by omega) S128 x1 rfl rfl 128 rfl (ix1 e)
    (fun b hb => match b, hb with | ⟨0, _⟩, hb => absurd rfl hb)
    rfl

/-- Three [128] vectors end to end, read in the third stretch. -/
theorem vec_piece2 (x0 x1 x2 : S128.Idx → α) (h : Shape.Concatenates [S128, S128, S128] S384 0) (e : Fin 128) :
    concatenate S384 0 [⟨S128, x0⟩, ⟨S128, x1⟩, ⟨S128, x2⟩] h (ix1 ⟨256 + e.val, by omega⟩) = x2 (ix1 e) :=
  concatenate_apply_piece (t := S384) 0 [⟨S128, x0⟩, ⟨S128, x1⟩, ⟨S128, x2⟩] h _ 2 (show 2 < 3 by omega) S128 x2 rfl rfl 256 rfl (ix1 e)
    (fun b hb => match b, hb with | ⟨0, _⟩, hb => absurd rfl hb)
    rfl

end Pieces

/-! ## The weights' matrix at an index: column block `o`, column `e`, row `d` is weight matrix `o` at `(e, d)` -/

theorem v3_q (d e : Fin 128) :
    (after (hostOps0 (F := F)) W (Proc.devRef .tc main_v3) : S128x384.Idx → Elt F .f32) (ix2 d ⟨e.val, by omega⟩)
      = (W (Proc.devRef .tc main_arg1) : S128x128.Idx → Elt F .f32) (ix2 e d) := by
  rw [v3_whole]
  refine (cols_piece0 _ _ _ _ d e).trans ?_
  exact transpose_ix2_apply _ _ d e

theorem v3_k (d e : Fin 128) :
    (after (hostOps0 (F := F)) W (Proc.devRef .tc main_v3) : S128x384.Idx → Elt F .f32) (ix2 d ⟨128 + e.val, by omega⟩)
      = (W (Proc.devRef .tc main_arg3) : S128x128.Idx → Elt F .f32) (ix2 e d) := by
  rw [v3_whole]
  refine (cols_piece1 _ _ _ _ d e).trans ?_
  exact transpose_ix2_apply _ _ d e

theorem v3_v (d e : Fin 128) :
    (after (hostOps0 (F := F)) W (Proc.devRef .tc main_v3) : S128x384.Idx → Elt F .f32) (ix2 d ⟨256 + e.val, by omega⟩)
      = (W (Proc.devRef .tc main_arg5) : S128x128.Idx → Elt F .f32) (ix2 e d) := by
  rw [v3_whole]
  refine (cols_piece2 _ _ _ _ d e).trans ?_
  exact transpose_ix2_apply _ _ d e

/-! ## The biases' row at an index: stretch `o`, position `e` is bias vector `o` at `e` -/

theorem v5_q (e : Fin 128) :
    (after (hostOps0 (F := F)) W (Proc.devRef .tc main_v5) : S1x384.Idx → Elt F .f32) (ix2 0 ⟨e.val, by omega⟩)
      = (W (Proc.devRef .tc main_arg2) : S128.Idx → Elt F .f32) (ix1 e) := by
  rw [v5_whole]
  refine (shapeCast_a_1a_apply _ _ 0 _).trans ?_
  exact vec_piece0 _ _ _ _ e

theorem v5_k (e : Fin 128) :
    (after (hostOps0 (F := F)) W (Proc.devRef .tc main_v5) : S1x384.Idx → Elt F .f32) (ix2 0 ⟨128 + e.val, by omega⟩)
      = (W (Proc.devRef .tc main_arg4) : S128.Idx → Elt F .f32) (ix1 e) := by
  rw [v5_whole]
  refine (shapeCast_a_1a_apply _ _ 0 _).trans ?_
  exact vec_piece1 _ _ _ _ e

theorem v5_v (e : Fin 128) :
    (after (hostOps0 (F := F)) W (Proc.devRef .tc main_v5) : S1x384.Idx → Elt F .f32) (ix2 0 ⟨256 + e.val, by omega⟩)
      = (W (Proc.devRef .tc main_arg6) : S128.Idx → Elt F .f32) (ix1 e) := by
  rw [v5_whole]
  refine (shapeCast_a_1a_apply _ _ 0 _).trans ?_
  exact vec_piece2 _ _ _ _ e

/-! ## The buffers the six operations do not write -/

theorem kept_arg0 : after (hostOps0 (F := F)) W (Proc.devRef .tc main_arg0) = W (Proc.devRef .tc main_arg0) := by
  kept_all hostOps0
theorem kept_arg1 : after (hostOps0 (F := F)) W (Proc.devRef .tc main_arg1) = W (Proc.devRef .tc main_arg1) := by
  kept_all hostOps0
theorem kept_arg2 : after (hostOps0 (F := F)) W (Proc.devRef .tc main_arg2) = W (Proc.devRef .tc main_arg2) := by
  kept_all hostOps0
theorem kept_arg3 : after (hostOps0 (F := F)) W (Proc.devRef .tc main_arg3) = W (Proc.devRef .tc main_arg3) := by
  kept_all hostOps0
theorem kept_arg4 : after (hostOps0 (F := F)) W (Proc.devRef .tc main_arg4) = W (Proc.devRef .tc main_arg4) := by
  kept_all hostOps0
theorem kept_arg5 : after (hostOps0 (F := F)) W (Proc.devRef .tc main_arg5) = W (Proc.devRef .tc main_arg5) := by
  kept_all hostOps0
theorem kept_arg6 : after (hostOps0 (F := F)) W (Proc.devRef .tc main_arg6) = W (Proc.devRef .tc main_arg6) := by
  kept_all hostOps0
theorem kept_v6 : after (hostOps0 (F := F)) W (Proc.devRef .tc main_v6) = W (Proc.devRef .tc main_v6) := by
  kept_all hostOps0
theorem kept_v7 : after (hostOps0 (F := F)) W (Proc.devRef .tc main_v7) = W (Proc.devRef .tc main_v7) := by
  kept_all hostOps0

end Cert.KernelIdeal.HostPrefix

end
-- ==== Proof.KiLaunch.lean ====
/-
  The launch: the whole program as three segments — the six host operations that pack the weights and biases, the
  kernel region, the reshape of its result — and what every weakly fair execution ends with.

  The activations' array is handed to the kernel through two windows, so the region is entered with that buffer's
  points-to split in two halves, one for each window, and left with the halves joined again; every other array of the
  pipeline is held whole. The three scratch buffers enter the region's invariant at anything and leave it at anything.
  After the region the result's array holds what the pipeline's account of the write-backs computes from the proof
  data, and the last host operation reshapes it into the program's result; the seven arguments are never written.
-/
import proofs.«425314_j78219944395235_3_alg».proof.Proof.KiFrame
import proofs.«425314_j78219944395235_3_alg».proof.Proof.HostPrefix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers through the segments: that the core owes nothing. -/
abbrev R (c : Dev nD) : sProp 𝕄 := iprop(∃ W, owes (c : Thread nD τ) (0 : CellTallies nD τ sig Unit) W)

/-- The arrays' final contents, as the library computes them from the proof data. -/
def finalA (c : Dev nD) (w : Fin cfg0.W) : Buf (Elt F) ((cfg0.win w).arr.view.loc (c : Thread nD τ)) := (dats m 0 c).arrAt w cfg0.N

/-! ## The pipeline's arrays, one by one -/

/-- The pipeline's arrays at contents `Fw`: the activations' buffer in two halves, the packed weights, the packed
    biases and the result's array whole. -/
theorem arrays_chain (c : Dev nD) (Fw : (w : Fin cfg0.W) → Buf (Elt F) ((cfg0.win w).arr.view.loc (c : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v3) ↦{fullShare} Fw 2) ∗ (((c : Thread nD τ).loc main_v5) ↦{fullShare} Fw 3)
          ∗ (((c : Thread nD τ).loc main_v6) ↦{fullShare} Fw 4)) := by
  unfold Dat.arrays
  rw [bigSep_W0]
  simp only [Memref.view_whole, View.set_whole]
  rfl

/-- The buffers behind the pipeline's arrays, each whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v3) ↦{fullShare} W main_v3)
          ∗ (((c : Thread nD τ).loc main_v5) ↦{fullShare} W main_v5) ∗ (((c : Thread nD τ).loc main_v6) ↦{fullShare} W main_v6)) := by
  unfold Pipeline.arrBufs
  exact BI.bigSep_eq_bigSepL_of_eq [main_arg0, main_v3, main_v5, main_v6] (by decide) (by decide) _

/-! ## The three segments -/

/-- The six host operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The two buffers the last host operation touches: the kernel's result array and the program's result. -/
def S₁ : Finset (DevRef τ sig) := {Proc.devRef .tc main_v6, Proc.devRef .tc main_v7}

/-- The buffers after the region: as the region found them, but the result's array at its final contents. -/
def W₁ (c : Dev nD) : Valuation τ sig (Elt F) :=
  Function.update (StableHlo.after hostOps0 (V₀ m c)) (Proc.devRef .tc main_v6) (finalA m c 4)

theorem W₁_v6 (c : Dev nD) : W₁ m c (Proc.devRef .tc main_v6) = finalA m c 4 := Function.update_self _ _ _
theorem W₁_v7 (c : Dev nD) : W₁ m c (Proc.devRef .tc main_v7) = V m c main_v7 :=
  Function.update_of_ne (by decide) _ _

theorem held_S₁ (c : Dev nD) (W : Valuation τ sig (Elt F)) :
    (StableHlo.held (c : Thread nD τ) S₁ W : sProp 𝕄)
      = iprop((((c : Thread nD τ).loc main_v6) ↦{fullShare} W (Proc.devRef .tc main_v6)) ∗ (((c : Thread nD τ).loc main_v7) ↦{fullShare} W (Proc.devRef .tc main_v7))) := by
  unfold StableHlo.held S₁
  rw [show ({Proc.devRef .tc main_v6, Proc.devRef .tc main_v7} : Finset (DevRef τ sig)) = insert (Proc.devRef .tc main_v6) {Proc.devRef .tc main_v7} from rfl,
    BI.bigSep_insert (by decide), BI.bigSep_singleton]
  rfl

/-- The seven arguments, whole, as the region found them. -/
abbrev Rargs (c : Dev nD) : sProp 𝕄 := iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6))

/-- The reshape of the kernel's result into the program's. -/
def seg1 : Pipeline.HostSeg (Name := ℕ) (U := UR sig nD τ) (pcfgs (F := F)) defs₀ 𝒱₀ L lv :=
  Pipeline.HostSeg.ofOps _ _ _ _ _ S₁ hostOps1
    (by intro op h; simp only [hostOps1, List.mem_singleton] at h; subst h; rw [StableHlo.reshape_bufs]; exact subset_rfl)
    (by intro _ h; (repeat (cases h with | head => rfl | tail _ h => ?_)); exact nomatch h) (W₁ m) (fun c => iprop(Rargs m c ∗ R c))

/-! ## The region's protocol -/

theorem arrAt0 (c : Dev nD) (w : Fin cfg0.W) : (dats m 0 c).arrAt w 0 = V m c (Pipeline.arrRef spec0 w) := A_eq m c w

theorem entry (c : Dev nD) :
    iprop((StableHlo.held (c : Thread nD τ) (Pipeline.ucRefs τ sig) (StableHlo.after hostOps0 (V₀ m c)) : sProp 𝕄) ∗ R c)
      ⊢ iprop((dats m 0 c).arrays ((dats m 0 c).arrAt · 0) ∗ Pipeline.unscopedRest spec0 c (V m c) ∗ R c) := by
  rw [show (StableHlo.held (c : Thread nD τ) (Pipeline.ucRefs τ sig) (StableHlo.after hostOps0 (V₀ m c)) : sProp 𝕄) = unscopedBufs c (V m c)
      from (Pipeline.unscopedBufs_held c _).symm,
    Pipeline.unscopedBufs_split₀ cfgs 0 winFacts₀0.arr_unscoped c (V m c), arrBufs_chain, arrays_chain]
  simp only [arrAt0]
  iintro ⟨⟨⟨H0, H3, H5, H6⟩, Hrest⟩, HR⟩
  ihave H0' := (pointsTo_share (PosShare.mem_left_op_right fullShare)).1 $$ H0
  icases H0' with ⟨H0l, H0r⟩
  isplitl [H0l H0r H3 H5 H6]
  · isplitl [H0l]; · iexact H0l
    isplitl [H0r]; · iexact H0r
    isplitl [H3]; · iexact H3
    isplitl [H5]; · iexact H5
    iexact H6
  isplitl [Hrest]; · iexact Hrest
  iexact HR

theorem exit_ (c : Dev nD) :
    iprop((dats m 0 c).arrays ((dats m 0 c).arrAt · cfg0.N) ∗ Pipeline.unscopedRest spec0 c (V m c) ∗ R c)
      ⊢ iprop((StableHlo.held (c : Thread nD τ) S₁ (W₁ m c) : sProp 𝕄) ∗ Rargs m c ∗ R c) := by
  rw [arrays_chain, unscopedRest0_eq, held_S₁, W₁_v6, W₁_v7]
  simp only [(dats m 0 c).arrAt_in 0 rfl, (dats m 0 c).arrAt_in 1 rfl, (dats m 0 c).arrAt_in 2 rfl, (dats m 0 c).arrAt_in 3 rfl, A_eq]
  unfold finalA
  iintro ⟨⟨H0l, H0r, H3, H5, H6⟩, ⟨H1, H2, H3', H4, H5', H6', Hv0, Hv1, Hv2, Hv4, Hv7⟩, HR⟩
  ihave H0 := (pointsTo_share (PosShare.mem_left_op_right fullShare)).2 $$ [H0l H0r]
  · isplitl [H0l] <;> iassumption
  isplitl [H6 Hv7]
  · isplitl [H6]; · iexact H6
    iexact Hv7
  isplitl [H0 H1 H2 H3' H4 H5' H6']
  · isplitl [H0]; · iexact H0
    isplitl [H1]; · iexact H1
    isplitl [H2]; · iexact H2
    isplitl [H3']; · iexact H3'
    isplitl [H4]; · iexact H4
    isplitl [H5']; · iexact H5'
    iexact H6'
  iexact HR

theorem Phi_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_owns]
  iintro ⟨HK, HV, HA⟩
  isplitl [HK]; · iexists _; iexact HK
  isplitl [HV]; · iexists _; iexact HV
  iexists _; iexact HA

set_option backward.isDefEq.respectTransparency.types false in
/-- THE REGION: the decided layout (the arrays need not be distinct), no semaphore of the kernel's own, the body
    obligation; entered from what the host operations left, left with the result's array at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S₁ (W₁ m c) ∗ Rargs m c ∗ R c)
  X _ := iprop(emp)
  Y _ := iprop(emp)
  Z c := Pipeline.unscopedRest spec0 c (V m c)
  hentry c := by
    iintro ⟨Hpre, -, -⟩
    ihave H := (entry m c) $$ Hpre
    icases H with ⟨Ha, Hrest, HO⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none]
    iintro H
    ihave Hr := (Phi_out m c) $$ H
    isplitr; · iempintro
    isplitr; · iempintro
    iexact Hr
  hexit c := by
    iintro ⟨Ha, HO, -, HZ⟩
    imodintro
    iapply (exit_ m c)
    isplitl [Ha]; · iexact Ha
    isplitl [HZ]; · iexact HZ
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What the end is read from: the two buffers of the last host operation after it, and the seven arguments. -/
abbrev Tₙ (c : Dev nD) : sProp 𝕄 :=
  iprop(StableHlo.held (c : Thread nD τ) S₁ (StableHlo.after hostOps1 (W₁ m c)) ∗ Rargs m c)

/-- The physical post: the program's result at what the last host operation makes of the kernel's result array, the
    arguments as launched. -/
def QV : PUnit × MemSt nD τ sig (Elt F) → Prop := fun r =>
  ∀ c : Dev nD, r.2.mem ((c : Thread nD τ).loc main_v7) = StableHlo.after (hostOps1 (F := F)) (W₁ m c) (Proc.devRef .tc main_v7)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)

theorem V_arg (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) :=
  ⟨HostPrefix.kept_arg0 (V₀ m c), HostPrefix.kept_arg1 (V₀ m c), HostPrefix.kept_arg2 (V₀ m c), HostPrefix.kept_arg3 (V₀ m c),
    HostPrefix.kept_arg4 (V₀ m c), HostPrefix.kept_arg5 (V₀ m c), HostPrefix.kept_arg6 (V₀ m c)⟩

set_option backward.isDefEq.respectTransparency.types false in
/-- At the compiled mesh, for any float values, from any memory with zero counters: every weakly fair execution of
    @main on the TensorCores terminates, and every final state has the program's result at the reshaped result array
    of the kernel and the seven arguments unchanged. -/
theorem run_main : θ_run defs (onTc (τ := τ) (main (F := F))) (s₀ m ρ) (QV m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop((StableHlo.held (c : Thread nD τ) S₁ (StableHlo.after hostOps1 (W₁ m c)) : sProp 𝕄) ∗ (Rargs m c ∗ R c)) ⊢ _
      iintro ⟨H, Ha, HR⟩
      isplitl [H Ha]
      · isplitl [H] <;> iassumption
      iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v7) = StableHlo.after (hostOps1 (F := F)) (W₁ m c) (Proc.devRef .tc main_v7)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6))
    (hfin := fun c s' => by
      dsimp only [Tₙ, Rargs]; rw [held_S₁]
      obtain ⟨e0, e1, e2, e3, e4, e5, e6⟩ := V_arg m c
      rw [e0, e1, e2, e3, e4, e5, e6]
      iintro ⟨⟨⟨H6, H7⟩, ⟨A0, A1, A2, A3, A4, A5, A6⟩⟩, HSI⟩
      icombine HSI H7 gives %h7
      icombine HSI A0 gives %h0
      icombine HSI A1 gives %h1
      icombine HSI A2 gives %h2
      icombine HSI A3 gives %h3
      icombine HSI A4 gives %h4
      icombine HSI A5 gives %h5
      icombine HSI A6 gives %h6
      imodintro
      isplitr
      · ipureintro
        exact ⟨Buf.eq_of_forall_mem_univ h7, Buf.eq_of_forall_mem_univ h0, Buf.eq_of_forall_mem_univ h1, Buf.eq_of_forall_mem_univ h2,
          Buf.eq_of_forall_mem_univ h3, Buf.eq_of_forall_mem_univ h4, Buf.eq_of_forall_mem_univ h5, Buf.eq_of_forall_mem_univ h6⟩
      iexact HSI)
    (hQ := fun _ h => h)

end Cert.KernelIdeal.Hand

end
-- ==== Proof.KiClaims.lean ====
/-
  What the run gives the certificate's claims: that the program runs to the end with its seven arguments unchanged, and
  that its result, entry (b, e), is entry (b, 0, e) of the kernel's result array as the pipeline's account of the
  write-backs computes it (the last host operation only drops that array's unit axis).
-/
import proofs.«425314_j78219944395235_3_alg».proof.Proof.KiLaunch
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Dropping the unit middle axis of an [a, 1, b] array: entry (i, j) of the result is entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The program's result after the last host operation, read at an entry. -/
theorem tail_at (c : Dev nD) (b : Fin 4) (e : Fin 128) :
    (StableHlo.after (hostOps1 (F := F)) (W₁ m c) (Proc.devRef .tc main_v7) : S4x128.Idx → Elt F .f32) (ix2 b e)
      = (finalA m c 4 : S4x1x128.Idx → Elt F .f32) (ix3 b 0 e) := by
  have e1 : (StableHlo.after (hostOps1 (F := F)) (W₁ m c) (Proc.devRef .tc main_v7) : S4x128.Idx → Elt F .f32)
      = shapeCast S4x128 (W₁ m c (Proc.devRef .tc main_v6) : S4x1x128.Idx → Elt F .f32) shapeCasts_S4x1x128_S4x128 := by
    dsimp only [hostOps1]; after_results; rfl
  rw [e1, W₁_v6]
  exact shapeCast_a1b_ab_apply _ _ b e

/-- The run's post read at the result. -/
theorem run_value : θ_run defs (onTc (τ := τ) (main (F := F))) ⟨m, fun _ => 0, ρ⟩ (fun r => ∀ c : Dev nD,
      (∀ (b : Fin 4) (e : Fin 128), (r.2.mem ((c.tc : Thread nD τ).loc main_v7) : S4x128.Idx → Elt F .f32) (ix2 b e)
          = (finalA m c 4 : S4x1x128.Idx → Elt F .f32) (ix3 b 0 e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨fun b e => by rw [(h c).1]; exact tail_at m c b e, (h c).2⟩) (run_main m ρ)

/-- THE FRAME: every weakly fair execution terminates, nothing faulting, the seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_main m ρ)

end Cert.KernelIdeal.Hand

end
-- ==== Proof.KbRuns.lean ====
/-
  What the runs of the kernel body at its three kinds of grid point share.

  The grid has 4 × 8 = 32 points, point t = 8·b + q for batch b and query tile q. The body branches twice on q alone:
  at q = 0 it projects the batch's keys and values into the two scratch buffers and clears the running sum; at every
  point it adds the tile's attended rows, summed, to the running sum; at q = 7 it writes the running sum divided by
  4096 into the result's block. So a point is of one of three kinds: first of its batch (t ≡ 0 mod 8), last
  (t ≡ 7 mod 8), or in between. Here: the contents of the buffers when the region is entered (the six host operations
  have run), each window's block read off them, the two conditions in closed form over the grid, where the result's
  window is idle, and the staging and scratch memrefs a run is stated over.
-/
import proofs.«425314_j78219944395235_3_alg».proof.Proof.Gen.Kernel.Launch
import proofs.«425314_j78219944395235_3_alg».proof.Proof.Gen.Kernel.Skeleton
import proofs.«425314_j78219944395235_3_alg».proof.Proof.Gen.Kernel.Points
import Idealize.ShloMosaic.Lib.Pipeline.FrameBody
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation; -/
abbrev V₀ (c : Dev nD) : Valuation τ sig (Elt F) := fun b => m (c, b)
/-- and when the region is entered: the six host operations have run. -/
abbrev V (c : Dev nD) (b : Ref sig .tc) : Buf (Elt F) ((c : Thread nD τ).loc b) := StableHlo.after hostOps0 (V₀ m c) b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before_in_of {c : Dev nD} (dat : Dat τ (Elt F) Unit ℕ (UR sig nD τ) ℕ cfg0 c) (w : Fin cfg0.W)
    (hw : (cfg0.win w).isOut = false) (hlive : ∀ i, cfg0.idle w i = false)
    (hclip : ∀ t t' : Fin cfg0.N, (cfg0.win w).index t = (cfg0.win w).index t' →
      (cfg0.win w).clip (cfg0.grid.coords t) = (cfg0.win w).clip (cfg0.grid.coords t'))
    (hA : dat.A w = V m c (Pipeline.arrRef spec0 w))
    (hafter : ∀ t, (cfg0.win w).cut (cfg0.grid.coords t) (dat.after w t) = iblk m c w t) (t : Fin cfg0.N) (d) :
    dat.before w t d = dat.fetched w t d :=
  dat.before_in_eq_fetched w hw hlive hclip (fun t => by rw [hafter]; unfold Dat.blockOf iblk; rw [hA]) t d

/-! ## The two conditions, over the grid -/

/-- The first branch's condition (the query tile is the batch's first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition (the query tile is the batch's last). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from a batch's last point the result's window is idle (the body stores nothing into it), -/
theorem idleAt4 : ∀ t : Fin cfg0.N, ¬cond0_1 (grid0.coords t) → cfg0.idle 4 (grid0.coords t) = true := by decide +kernel
/-- and the pipeline does not write its block back there; -/
theorem noFlush4 : ∀ t : Fin cfg0.N, ¬cond0_1 (grid0.coords t) → (cfg0.win 4).flush t = false := by decide +kernel
/-- at a batch's last point it is live. -/
theorem liveAt4 : ∀ t : Fin cfg0.N, cond0_1 (grid0.coords t) → cfg0.idle 4 (grid0.coords t) = false := by decide +kernel

/-! ## The memrefs a run is stated over -/

abbrev ms0 (t : Fin cfg0.N) : Memref sig .tc .vmem S1x4096x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x384 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x384 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x128 .f32 := win0_4.stage (cfg0.slots t 4)
abbrev hs4 (t : Fin cfg0.N) : (ms4 t).IsWhole := hstage0_4 ((cfg0.slots t 4).cast nbuf0_4)
/-- The three scratch operands: whole scoped buffers of the kernel's own (keys, values, the running sum). -/
abbrev scK : Memref sig .tc .vmem S4096x128 .bf16 := Memref.whole cc0_scratch0
abbrev scV : Memref sig .tc .vmem S4096x128 .bf16 := Memref.whole cc0_scratch1
abbrev scA : Memref sig .tc .vmem S1x128 .f32 := Memref.whole cc0_scratch2
/-- One staging buffer of the result's window, and the scratch buffers, as views through which contents are stated. -/
abbrev VO4 : View sig .tc .vmem S1x1x128 .f32 := (Memref.whole cc0_stg4_0 : Memref sig .tc .vmem S1x1x128 .f32).view
abbrev VSK : View sig .tc .vmem S4096x128 .bf16 := scK.view
abbrev VSV : View sig .tc .vmem S4096x128 .bf16 := scV.view
abbrev VSA : View sig .tc .vmem S1x128 .f32 := scA.view

/-- The scoped buffers that are no staging buffer, as the three scratch memrefs owned at some contents. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scK fullShare d) ∗ (∃ d, owns (c : Thread nD τ) scV fullShare d) ∗ (∃ d, owns (c : Thread nD τ) scA fullShare d)) := by
  rw [scopedRest0_eq]; simp only [scK, scV, scA, owns_whole]; rfl

end Cert.Kernel.Hand

end
-- ==== Proof.KbRunA.lean ====
/-
  The kernel body run once, on any whole staging and scratch memrefs, at a grid point that is its batch's first: the first branch is taken, the second is not. The body reads the batch's whole block, projects it into keys and values, stores them over the two scratch buffers, clears the running sum, then goes on as at every point, reading back what it has just stored.
  What each buffer the body stores into ends with is found by the run itself, as the list of its stores (last first),
  and stated as the witness of a subtype together with the run's triple.
-/
import proofs.«425314_j78219944395235_3_alg».proof.Proof.KbRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun_A (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x1x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x128 .f32) (harg9 : arg9.IsWhole) (hc0 : cond0_0 i) (hc1 : ¬cond0_1 i)
    (x0 : Vec F S1x4096x128 .f32) (x1 : Vec F S1x512x128 .f32) (x2 : Vec F S128x384 .f32) (x3 : Vec F S1x384 .f32) :
    Σ' (LK : List (View.Piece (Elt F) S4096x128 .bf16)) (LV : List (View.Piece (Elt F) S4096x128 .bf16)), { LA : List (View.Piece (Elt F) S1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LK) ∗ (∃ f, arg8.view.loc (c : Thread nD τ) ↦[arg8.view.set]{fullShare} arg8.view.writes (Elt F) f LV) ∗ (∃ f, arg9.view.loc (c : Thread nD τ) ↦[arg9.view.set]{fullShare} arg9.view.writes (Elt F) f LA)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, fun xi4 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%dk, %fk, -, HK⟩, ⟨%dv, %fv, -, HV⟩, ⟨%da, %fa, -, HA⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HK]; · iexists _; iexact HK
    isplitl [HV]; · iexists _; iexact HV
    iexists _; iexact HA

end Cert.Kernel.Hand

end
-- ==== Proof.KbRunB.lean ====
/-
  The kernel body run once, on any whole staging and scratch memrefs, at a grid point strictly inside a batch: neither branch is taken. The body reads the query tile, the packed weights and biases, the keys, the values and the running sum, and stores the running sum plus the tile's attended rows summed; the result's buffer is not touched.
  What each buffer the body stores into ends with is found by the run itself, as the list of its stores (last first),
  and stated as the witness of a subtype together with the run's triple.
-/
import proofs.«425314_j78219944395235_3_alg».proof.Proof.KbRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun_B (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x1x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x128 .f32) (harg9 : arg9.IsWhole) (hc0 : ¬cond0_0 i) (hc1 : ¬cond0_1 i)
    (x0 : Vec F S1x4096x128 .f32) (x1 : Vec F S1x512x128 .f32) (x2 : Vec F S128x384 .f32) (x3 : Vec F S1x384 .f32)
    (xk : Vec F S4096x128 .bf16) (xv : Vec F S4096x128 .bf16) (xa : Vec F S1x128 .f32) :
    { LA : List (View.Piece (Elt F) S1x128 .f32) //
      ∀ (xi4 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xk ∗ owns (c : Thread nD τ) arg8 fullShare xv ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xk ∗ owns (c : Thread nD τ) arg8 fullShare xv ∗ (∃ f, arg9.view.loc (c : Thread nD τ) ↦[arg9.view.set]{fullShare} arg9.view.writes (Elt F) f LA)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, fun xi4 E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fk, %hfk, HK⟩, ⟨%fv, %hfv, HV⟩, ⟨%fa, %hfa, HA⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfk; obtain rfl := harg8.eq_unread hfv; obtain rfl := harg9.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HK]
    · iexists _; isplitr; · ipureintro; exact harg7.read_unread _
      iexact HK
    isplitl [HV]
    · iexists _; isplitr; · ipureintro; exact harg8.read_unread _
      iexact HV
    iexists _; iexact HA

end Cert.Kernel.Hand

end
-- ==== Proof.KbRunC.lean ====
/-
  The kernel body run once, on any whole staging and scratch memrefs, at a grid point that is its batch's last: the first branch is not taken, the second is. After adding the tile's attended rows to the running sum the body reads the sum back, divides it by 4096 and stores the quotient over the result's buffer.
  What each buffer the body stores into ends with is found by the run itself, as the list of its stores (last first),
  and stated as the witness of a subtype together with the run's triple.
-/
import proofs.«425314_j78219944395235_3_alg».proof.Proof.KbRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
noncomputable def kernelRun_C (c : Dev nD) (i : grid0.Coords) (arg2 : Memref sig .tc .vmem S1x4096x128 .f32) (harg2 : arg2.IsWhole) (arg3 : Memref sig .tc .vmem S1x512x128 .f32) (harg3 : arg3.IsWhole) (arg4 : Memref sig .tc .vmem S128x384 .f32) (harg4 : arg4.IsWhole) (arg5 : Memref sig .tc .vmem S1x384 .f32) (harg5 : arg5.IsWhole) (arg6 : Memref sig .tc .vmem S1x1x128 .f32) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S1x128 .f32) (harg9 : arg9.IsWhole) (hc0 : ¬cond0_0 i) (hc1 : cond0_1 i)
    (x0 : Vec F S1x4096x128 .f32) (x1 : Vec F S1x512x128 .f32) (x2 : Vec F S128x384 .f32) (x3 : Vec F S1x384 .f32)
    (xk : Vec F S4096x128 .bf16) (xv : Vec F S4096x128 .bf16) (xa : Vec F S1x128 .f32) :
    Σ' (L4 : List (View.Piece (Elt F) S1x1x128 .f32)), { LA : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xk ∗ owns (c : Thread nD τ) arg8 fullShare xv ∗ owns (c : Thread nD τ) arg9 fullShare xa
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xk ∗ owns (c : Thread nD τ) arg8 fullShare xv ∗ (∃ f, arg9.view.loc (c : Thread nD τ) ↦[arg9.view.set]{fullShare} arg9.view.writes (Elt F) f LA)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fk, %hfk, HK⟩, ⟨%fv, %hfv, HV⟩, ⟨%fa, %hfa, HA⟩, Hk⟩
    obtain rfl := harg2.eq_unread hf0; obtain rfl := harg3.eq_unread hf1; obtain rfl := harg4.eq_unread hf2; obtain rfl := harg5.eq_unread hf3
    obtain rfl := harg7.eq_unread hfk; obtain rfl := harg8.eq_unread hfv; obtain rfl := harg9.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HK]
    · iexists _; isplitr; · ipureintro; exact harg7.read_unread _
      iexact HK
    isplitl [HV]
    · iexists _; isplitr; · ipureintro; exact harg8.read_unread _
      iexact HV
    iexists _; iexact HA

end Cert.Kernel.Hand

end
-- ==== Proof.KbFrame.lean ====
/-
  What the kernel's buffers hold point by point, the pipeline's proof data, and the body obligation.

  After the body at point t = 8·b + q the two large scratch buffers hold the batch's keys and values (written at q = 0
  and only read afterwards), the small one the running sum of the attended rows of tiles 0 … q, and at q = 7 the
  result's staging buffer the running sum divided by 4096. These contents are stated by recursion on the point, each
  point's from the point before through the run of its kind; the invariant between points is the three scratch buffers
  at exactly those contents (at anything before the first point); an input window's buffer holds its block at every
  point, fetched there or not; the result's window is idle away from q = 7 and handed back untouched there.
-/
import proofs.«425314_j78219944395235_3_alg».proof.Proof.KbRunA
import proofs.«425314_j78219944395235_3_alg».proof.Proof.KbRunB
import proofs.«425314_j78219944395235_3_alg».proof.Proof.KbRunC
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What each kind of point leaves -/

/-- The result's buffer at a point that stores nothing into it: a placeholder nothing consults (the window is idle and
    not written back there). -/
def junk4 : Vec F S1x1x128 .f32 := VO4.read (Elt F) VO4.junk

def skA (c : Dev nD) (t : Fin cfg0.N) (h0 : t.val % 8 = 0) : Vec F S4096x128 .bf16 := VSK.read (Elt F) (VSK.writes (Elt F) VSK.junk (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).1)
def svA (c : Dev nD) (t : Fin cfg0.N) (h0 : t.val % 8 = 0) : Vec F S4096x128 .bf16 := VSV.read (Elt F) (VSV.writes (Elt F) VSV.junk (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.1)
def saA (c : Dev nD) (t : Fin cfg0.N) (h0 : t.val % 8 = 0) : Vec F S1x128 .f32 := VSA.read (Elt F) (VSA.writes (Elt F) VSA.junk (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.2.1)
theorem coverKA (c : Dev nD) (t : Fin cfg0.N) (h0 : t.val % 8 = 0) (y : S4096x128.Idx) : ∃ pc ∈ (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).1, y ∈ pc.1.set :=
  View.cover_of_tiledL (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).1 S4096x128.size (by sl_kernel_rfl) y

theorem coverVA (c : Dev nD) (t : Fin cfg0.N) (h0 : t.val % 8 = 0) (y : S4096x128.Idx) : ∃ pc ∈ (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.1, y ∈ pc.1.set :=
  View.cover_of_tiledL (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.1 S4096x128.size (by sl_kernel_rfl) y

theorem coverAA (c : Dev nD) (t : Fin cfg0.N) (h0 : t.val % 8 = 0) (y : S1x128.Idx) : ∃ pc ∈ (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.2.1, y ∈ pc.1.set :=
  View.cover_of_tiledL (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.2.1 S1x128.size (by sl_kernel_rfl) y

def saB (c : Dev nD) (t : Fin cfg0.N) (h0 : ¬t.val % 8 = 0) (h1 : ¬t.val % 8 = 7) (xk : Vec F S4096x128 .bf16) (xv : Vec F S4096x128 .bf16) (xa : Vec F S1x128 .f32) : Vec F S1x128 .f32 := VSA.read (Elt F) (VSA.writes (Elt F) VSA.junk (kernelRun_B c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) (fun h => h1 ((hcond0_1 t).mp h)) (iblk m c 0 t) (iblk m c 1 t) (iblk m c 2 t) (iblk m c 3 t) xk xv xa).1)
theorem coverAB (c : Dev nD) (t : Fin cfg0.N) (h0 : ¬t.val % 8 = 0) (h1 : ¬t.val % 8 = 7) (xk : Vec F S4096x128 .bf16) (xv : Vec F S4096x128 .bf16) (xa : Vec F S1x128 .f32) (y : S1x128.Idx) : ∃ pc ∈ (kernelRun_B c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) (fun h => h1 ((hcond0_1 t).mp h)) (iblk m c 0 t) (iblk m c 1 t) (iblk m c 2 t) (iblk m c 3 t) xk xv xa).1, y ∈ pc.1.set :=
  View.cover_of_tiledL (kernelRun_B c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) (fun h => h1 ((hcond0_1 t).mp h)) (iblk m c 0 t) (iblk m c 1 t) (iblk m c 2 t) (iblk m c 3 t) xk xv xa).1 S1x128.size (by sl_kernel_rfl) y

def o4C (c : Dev nD) (t : Fin cfg0.N) (h0 : ¬t.val % 8 = 0) (h1 : t.val % 8 = 7) (xk : Vec F S4096x128 .bf16) (xv : Vec F S4096x128 .bf16) (xa : Vec F S1x128 .f32) : Vec F S1x1x128 .f32 := VO4.read (Elt F) (VO4.writes (Elt F) VO4.junk (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).1)
def saC (c : Dev nD) (t : Fin cfg0.N) (h0 : ¬t.val % 8 = 0) (h1 : t.val % 8 = 7) (xk : Vec F S4096x128 .bf16) (xv : Vec F S4096x128 .bf16) (xa : Vec F S1x128 .f32) : Vec F S1x128 .f32 := VSA.read (Elt F) (VSA.writes (Elt F) VSA.junk (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).2.1)
theorem cover4C (c : Dev nD) (t : Fin cfg0.N) (h0 : ¬t.val % 8 = 0) (h1 : t.val % 8 = 7) (xk : Vec F S4096x128 .bf16) (xv : Vec F S4096x128 .bf16) (xa : Vec F S1x128 .f32) (y : S1x1x128.Idx) : ∃ pc ∈ (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).1, y ∈ pc.1.set :=
  View.cover_of_tiledL (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).1 S1x1x128.size (by sl_kernel_rfl) y

theorem coverAC (c : Dev nD) (t : Fin cfg0.N) (h0 : ¬t.val % 8 = 0) (h1 : t.val % 8 = 7) (xk : Vec F S4096x128 .bf16) (xv : Vec F S4096x128 .bf16) (xa : Vec F S1x128 .f32) (y : S1x128.Idx) : ∃ pc ∈ (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).2.1, y ∈ pc.1.set :=
  View.cover_of_tiledL (kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) xk xv xa).2.1 S1x128.size (by sl_kernel_rfl) y

/-! ## The contents after each point -/

/-- The result's staging buffer and the three scratch buffers after the body at position `n`. -/
def outsAt (c : Dev nD) : (n : ℕ) → n < cfg0.N → Vec F S1x1x128 .f32 × Vec F S4096x128 .bf16 × Vec F S4096x128 .bf16 × Vec F S1x128 .f32
  | 0, hn => (junk4, skA m c ⟨0, hn⟩ (Nat.zero_mod _), svA m c ⟨0, hn⟩ (Nat.zero_mod _), saA m c ⟨0, hn⟩ (Nat.zero_mod _))
  | n + 1, hn =>
    if h0 : (n + 1) % 8 = 0 then
      (junk4, skA m c ⟨n + 1, hn⟩ h0, svA m c ⟨n + 1, hn⟩ h0, saA m c ⟨n + 1, hn⟩ h0)
    else
      if h1 : (n + 1) % 8 = 7 then
        (o4C m c ⟨n + 1, hn⟩ h0 h1 (outsAt c n (Nat.lt_of_succ_lt hn)).2.1 (outsAt c n (Nat.lt_of_succ_lt hn)).2.2.1 (outsAt c n (Nat.lt_of_succ_lt hn)).2.2.2, (outsAt c n (Nat.lt_of_succ_lt hn)).2.1, (outsAt c n (Nat.lt_of_succ_lt hn)).2.2.1,
          saC m c ⟨n + 1, hn⟩ h0 h1 (outsAt c n (Nat.lt_of_succ_lt hn)).2.1 (outsAt c n (Nat.lt_of_succ_lt hn)).2.2.1 (outsAt c n (Nat.lt_of_succ_lt hn)).2.2.2)
      else
        (junk4, (outsAt c n (Nat.lt_of_succ_lt hn)).2.1, (outsAt c n (Nat.lt_of_succ_lt hn)).2.2.1, saB m c ⟨n + 1, hn⟩ h0 h1 (outsAt c n (Nat.lt_of_succ_lt hn)).2.1 (outsAt c n (Nat.lt_of_succ_lt hn)).2.2.1 (outsAt c n (Nat.lt_of_succ_lt hn)).2.2.2)

theorem outsAt_A (c : Dev nD) (t : Fin cfg0.N) (h0 : t.val % 8 = 0) :
    outsAt m c t.val t.isLt = (junk4, skA m c t h0, svA m c t h0, saA m c t h0) := by
  obtain ⟨n, hn⟩ := t
  cases n with
  | zero => exact rfl
  | succ n => exact (dif_pos h0).trans rfl

theorem outsAt_B (c : Dev nD) (t : Fin cfg0.N) (h0 : ¬t.val % 8 = 0) (h1 : ¬t.val % 8 = 7) :
    outsAt m c t.val t.isLt = (junk4, (outsAt m c (t.val - 1) (Nat.lt_of_le_of_lt (Nat.sub_le _ _) t.isLt)).2.1, (outsAt m c (t.val - 1) (Nat.lt_of_le_of_lt (Nat.sub_le _ _) t.isLt)).2.2.1, saB m c t h0 h1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 8 = 0) (h1 : t.val % 8 = 7) :
    outsAt m c t.val t.isLt = (o4C m c t h0 h1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2, (outsAt m c (t.val - 1) (Nat.lt_of_le_of_lt (Nat.sub_le _ _) t.isLt)).2.1, (outsAt m c (t.val - 1) (Nat.lt_of_le_of_lt (Nat.sub_le _ _) t.isLt)).2.2.1,
      saC m c t h0 h1 (outsAt m c (t.val - 1) (Nat.lt_of_le_of_lt (Nat.sub_le _ _) t.isLt)).2.1 (outsAt m c (t.val - 1) (Nat.lt_of_le_of_lt (Nat.sub_le _ _) t.isLt)).2.2.1 (outsAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the three scratch buffers at anything; afterwards at what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scK fullShare ((outsAt m c n hn).2.1) ∗ owns (c : Thread nD τ) scV fullShare ((outsAt m c n hn).2.2.1)
      ∗ owns (c : Thread nD τ) scA fullShare ((outsAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scK fullShare ((outsAt m c n hn).2.1) ∗ owns (c : Thread nD τ) scV fullShare ((outsAt m c n hn).2.2.1)
      ∗ owns (c : Thread nD τ) scA fullShare ((outsAt m c n hn).2.2.2)) := rfl

theorem PhiS_pos (c : Dev nD) (n : ℕ) (h : n ≤ cfg0.N) (hz : n ≠ 0) :
    PhiS m c n h = iprop(owns (c : Thread nD τ) scK fullShare ((outsAt m c (n - 1) (by omega)).2.1) ∗ owns (c : Thread nD τ) scV fullShare ((outsAt m c (n - 1) (by omega)).2.2.1)
      ∗ owns (c : Thread nD τ) scA fullShare ((outsAt m c (n - 1) (by omega)).2.2.2)) := by
  cases n with
  | zero => exact absurd rfl hz
  | succ n => rfl

/-! ## The pipeline's proof data -/

/-- The proof data on core `c`: the arrays as the region finds them; after the body each input's buffer at its block and
    the result's at `outsAt`; the invariant `PhiS`; nothing owed. The activations' array is read through two windows,
    the whole batch and the query tile: each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (outsAt m c t.val t.isLt).1 := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point: the inputs' buffers hold their blocks; the closed forms say which kind the point is of; the
    invariant hands the body the scratch buffers at what the point before left (at anything at the first point) and takes
    them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  by_cases h0 : t.val % 8 = 0
  · have h1 : ¬t.val % 8 = 7 := by omega
    rw [show (dats m 0 c).leavesExact 0 t = owns (c : Thread nD τ) (ms0 t) fullShare ((dats m 0 c).after 0 t) from by
      unfold Dat.leavesExact; rw [show cfg0.idle 0 (grid0.coords t) = false from rfl], after0]
    rw [show (dats m 0 c).leavesExact 1 t = owns (c : Thread nD τ) (ms1 t) fullShare ((dats m 0 c).after 1 t) from by
      unfold Dat.leavesExact; rw [show cfg0.idle 1 (grid0.coords t) = false from rfl], after1]
    rw [show (dats m 0 c).leavesExact 2 t = owns (c : Thread nD τ) (ms2 t) fullShare ((dats m 0 c).after 2 t) from by
      unfold Dat.leavesExact; rw [show cfg0.idle 2 (grid0.coords t) = false from rfl], after2]
    rw [show (dats m 0 c).leavesExact 3 t = owns (c : Thread nD τ) (ms3 t) fullShare ((dats m 0 c).after 3 t) from by
      unfold Dat.leavesExact; rw [show cfg0.idle 3 (grid0.coords t) = false from rfl], after3]
    rw [Dat.leavesExact_idle (dats m 0 c) 4 t (idleAt4 t (fun h => h1 ((hcond0_1 t).mp h))) (noFlush4 t (fun h => h1 ((hcond0_1 t).mp h)))]
    rw [outsAt_A m c t h0]
    unfold skA svA saA; (try dsimp only)
    have hrun := (kernelRun_A c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) ((hcond0_0 t).mpr h0) (fun h => by have := (hcond0_1 t).mp h; omega) (iblk m c 0 t) (iblk m c 1 t) (iblk m c 2 t) (iblk m c 3 t)).2.2.2
    by_cases hz : t.val = 0
    · rw [PhiS_castSucc m c t, PhiS_zero m c _ _ hz, scopedRest_owns]
      iintro ⟨⟨HK, HV, HA⟩, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HK]; · iexact HK
      isplitl [HV]; · iexact HV
      isplitl [HA]; · iexact HA
      iintro ⟨H0, H1, H2, H3, H4, ⟨%ek, HK⟩, ⟨%ev, HV⟩, ⟨%ea, HA⟩⟩
      isplitl [HK HV HA]
      · isplitl [HK]
        · unfold owns; iexists _; isplitr
          swap; · iexact HK
          ipureintro; exact View.read_writes_of_cover _ _ _ _ _ (coverKA m c t h0)
        isplitl [HV]
        · unfold owns; iexists _; isplitr
          swap; · iexact HV
          ipureintro; exact View.read_writes_of_cover _ _ _ _ _ (coverVA m c t h0)
        unfold owns; iexists _; isplitr
        swap; · iexact HA
        ipureintro; exact View.read_writes_of_cover _ _ _ _ _ (coverAA m c t h0)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HK, HV, HA⟩, Ho, ⟨%d0, H0⟩, ⟨%d1, H1⟩, ⟨%d2, H2⟩, ⟨%d3, H3⟩, ⟨%d4, H4⟩⟩
      iapply (hrun _ Set.univ _)
      isplitl [H0]; · iexact H0
      isplitl [H1]; · iexact H1
      isplitl [H2]; · iexact H2
      isplitl [H3]; · iexact H3
      isplitl [H4]; · iexact H4
      isplitl [HK]; · iexists _; iexact HK
      isplitl [HV]; · iexists _; iexact HV
      isplitl [HA]; · iexists _; iexact HA
      iintro ⟨H0, H1, H2, H3, H4, ⟨%ek, HK⟩, ⟨%ev, HV⟩, ⟨%ea, HA⟩⟩
      isplitl [HK HV HA]
      · isplitl [HK]
        · unfold owns; iexists _; isplitr
          swap; · iexact HK
          ipureintro; exact View.read_writes_of_cover _ _ _ _ _ (coverKA m c t h0)
        isplitl [HV]
        · unfold owns; iexists _; isplitr
          swap; · iexact HV
          ipureintro; exact View.read_writes_of_cover _ _ _ _ _ (coverVA m c t h0)
        unfold owns; iexists _; isplitr
        swap; · iexact HA
        ipureintro; exact View.read_writes_of_cover _ _ _ _ _ (coverAA m c t h0)
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    by_cases h1 : t.val % 8 = 7
    · rw [show (dats m 0 c).leavesExact 0 t = owns (c : Thread nD τ) (ms0 t) fullShare ((dats m 0 c).after 0 t) from by
        unfold Dat.leavesExact; rw [show cfg0.idle 0 (grid0.coords t) = false from rfl], after0]
      rw [show (dats m 0 c).leavesExact 1 t = owns (c : Thread nD τ) (ms1 t) fullShare ((dats m 0 c).after 1 t) from by
        unfold Dat.leavesExact; rw [show cfg0.idle 1 (grid0.coords t) = false from rfl], after1]
      rw [show (dats m 0 c).leavesExact 2 t = owns (c : Thread nD τ) (ms2 t) fullShare ((dats m 0 c).after 2 t) from by
        unfold Dat.leavesExact; rw [show cfg0.idle 2 (grid0.coords t) = false from rfl], after2]
      rw [show (dats m 0 c).leavesExact 3 t = owns (c : Thread nD τ) (ms3 t) fullShare ((dats m 0 c).after 3 t) from by
        unfold Dat.leavesExact; rw [show cfg0.idle 3 (grid0.coords t) = false from rfl], after3]
      rw [show (dats m 0 c).leavesExact 4 t = owns (c : Thread nD τ) (ms4 t) fullShare ((dats m 0 c).after 4 t) from by
        unfold Dat.leavesExact; rw [liveAt4 t ((hcond0_1 t).mpr h1)], after4]
      rw [outsAt_C m c t h0 h1]
      unfold o4C saC; (try dsimp only)
      rw [PhiS_castSucc m c t, PhiS_pos m c _ _ hz]
      iintro ⟨⟨HK, HV, HA⟩, Ho, ⟨%d0, H0⟩, ⟨%d1, H1⟩, ⟨%d2, H2⟩, ⟨%d3, H3⟩, ⟨%d4, H4⟩⟩
      iapply ((kernelRun_C c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) ((hcond0_1 t).mpr h1) (iblk m c 0 t) (iblk m c 1 t) (iblk m c 2 t) (iblk m c 3 t) _ _ _).2.2 Set.univ _)
      isplitl [H0]; · iexact H0
      isplitl [H1]; · iexact H1
      isplitl [H2]; · iexact H2
      isplitl [H3]; · iexact H3
      isplitl [H4]; · iexists _; iexact H4
      isplitl [HK]; · iexact HK
      isplitl [HV]; · iexact HV
      isplitl [HA]; · iexact HA
      iintro ⟨H0, H1, H2, H3, ⟨%e4, H4⟩, HK, HV, ⟨%ea, HA⟩⟩
      isplitl [HK HV HA]
      · isplitl [HK]; · iexact HK
        isplitl [HV]; · iexact HV
        unfold owns; iexists _; isplitr
        swap; · iexact HA
        ipureintro; exact View.read_writes_of_cover _ _ _ _ _ (coverAC m c t h0 h1 _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover4C m c t h0 h1 _ _ _)
    · rw [show (dats m 0 c).leavesExact 0 t = owns (c : Thread nD τ) (ms0 t) fullShare ((dats m 0 c).after 0 t) from by
        unfold Dat.leavesExact; rw [show cfg0.idle 0 (grid0.coords t) = false from rfl], after0]
      rw [show (dats m 0 c).leavesExact 1 t = owns (c : Thread nD τ) (ms1 t) fullShare ((dats m 0 c).after 1 t) from by
        unfold Dat.leavesExact; rw [show cfg0.idle 1 (grid0.coords t) = false from rfl], after1]
      rw [show (dats m 0 c).leavesExact 2 t = owns (c : Thread nD τ) (ms2 t) fullShare ((dats m 0 c).after 2 t) from by
        unfold Dat.leavesExact; rw [show cfg0.idle 2 (grid0.coords t) = false from rfl], after2]
      rw [show (dats m 0 c).leavesExact 3 t = owns (c : Thread nD τ) (ms3 t) fullShare ((dats m 0 c).after 3 t) from by
        unfold Dat.leavesExact; rw [show cfg0.idle 3 (grid0.coords t) = false from rfl], after3]
      rw [Dat.leavesExact_idle (dats m 0 c) 4 t (idleAt4 t (fun h => h1 ((hcond0_1 t).mp h))) (noFlush4 t (fun h => h1 ((hcond0_1 t).mp h)))]
      rw [outsAt_B m c t h0 h1]
      unfold saB; (try dsimp only)
      rw [PhiS_castSucc m c t, PhiS_pos m c _ _ hz]
      iintro ⟨⟨HK, HV, HA⟩, Ho, ⟨%d0, H0⟩, ⟨%d1, H1⟩, ⟨%d2, H2⟩, ⟨%d3, H3⟩, ⟨%d4, H4⟩⟩
      iapply ((kernelRun_B c (grid0.coords t) (ms0 t) (hs0 t) (ms1 t) (hs1 t) (ms2 t) (hs2 t) (ms3 t) (hs3 t) (ms4 t) (hs4 t) scK (Memref.isWhole_whole _) scV (Memref.isWhole_whole _) scA (Memref.isWhole_whole _) (fun h => h0 ((hcond0_0 t).mp h)) (fun h => h1 ((hcond0_1 t).mp h)) (iblk m c 0 t) (iblk m c 1 t) (iblk m c 2 t) (iblk m c 3 t) _ _ _).2 _ Set.univ _)
      isplitl [H0]; · iexact H0
      isplitl [H1]; · iexact H1
      isplitl [H2]; · iexact H2
      isplitl [H3]; · iexact H3
      isplitl [H4]; · iexact H4
      isplitl [HK]; · iexact HK
      isplitl [HV]; · iexact HV
      isplitl [HA]; · iexact HA
      iintro ⟨H0, H1, H2, H3, H4, HK, HV, ⟨%ea, HA⟩⟩
      isplitl [HK HV HA]
      · isplitl [HK]; · iexact HK
        isplitl [HV]; · iexact HV
        unfold owns; iexists _; isplitr
        swap; · iexact HA
        ipureintro; exact View.read_writes_of_cover _ _ _ _ _ (coverAB m c t h0 h1 _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbHostPrefix.lean ====
/-
  The host operations that run before the kernel region, read at an index.

  Before the region the program transposes the three weight matrices, lays the three transposes side by side
  along the columns into one [128, 384] matrix, lays the three bias vectors end to end into one [384] vector and
  reshapes that vector into a [1, 384] row. For every float family and every starting contents of the buffers:
  * the [128, 384] matrix at (d, o + e), for o = 0, 128, 256, is the first, second, third weight matrix at (e, d);
  * the [1, 384] row at (0, o + e) is the first, second, third bias vector at e;
  * the arguments and the two buffers written after the region hold what they held.
-/
import proofs.«425314_j78219944395235_3_alg».proof.Proof.Gen.Kernel.Launch
import proofs.«425314_j78219944395235_3_alg».proof.Proof.LibNary3
import proofs.«425314_j78219944395235_3_alg».proof.Proof.LibKeepAll
import Idealize.ShloMosaic.Lib.StableHlo.Run
import Idealize.ShloMosaic.Lib.ValueIdx
import Idealize.ShloMosaic.Lib.Pipeline.Value
import Idealize.ShloMosaic.Lib.ValueLayout

noncomputable section

namespace Cert.Kernel.HostPrefix

open Cert.Kernel Cert.Kernel.Gen Idealize.ShloMosaic Idealize.ShloMosaic.ValueIdx Idealize.ShloMosaic.StableHlo
open Cert.LibNary3 Cert.LibKeepAll

variable {F : FTy → Type} [FloatOps F] [Cert.Kernel.Facts] (W : Valuation τ sig (Elt F))

/-! ## The buffers' whole contents after the six operations -/

/-- After the operations the [128, 384] matrix is the three transposed weight matrices side by side. -/
theorem v3_whole :
    (after (hostOps0 (F := F)) W (Proc.devRef .tc main_v3) : S128x384.Idx → Elt F .f32)
      = concatenate S128x384 1
          [⟨S128x128, transpose S128x128 [1, 0] (W (Proc.devRef .tc main_arg1) : S128x128.Idx → Elt F .f32) transposes_S128x128_S128x128_1_0⟩,
           ⟨S128x128, transpose S128x128 [1, 0] (W (Proc.devRef .tc main_arg3) : S128x128.Idx → Elt F .f32) transposes_S128x128_S128x128_1_0⟩,
           ⟨S128x128, transpose S128x128 [1, 0] (W (Proc.devRef .tc main_arg5) : S128x128.Idx → Elt F .f32) transposes_S128x128_S128x128_1_0⟩]
          concatenates_S128x128_S128x128_S128x128_S128x384_d1 := by
  simp only [after_cons, after_nil]
  rw [reshape_result_ne (h := by decide)]
  rw [nary_result_ne (h := by decide)]
  rw [nary3_result]
  repeat (first
    | rw [unary_result]
    | (rw [unary_result_ne]; rotate_left; decide))
  rfl

/-- After the operations the [1, 384] row is the three bias vectors end to end, reshaped. -/
theorem v5_whole :
    (after (hostOps0 (F := F)) W (Proc.devRef .tc main_v5) : S1x384.Idx → Elt F .f32)
      = shapeCast S1x384
          (concatenate S384 0
            [⟨S128, (W (Proc.devRef .tc main_arg2) : S128.Idx → Elt F .f32)⟩,
             ⟨S128, (W (Proc.devRef .tc main_arg4) : S128.Idx → Elt F .f32)⟩,
             ⟨S128, (W (Proc.devRef .tc main_arg6) : S128.Idx → Elt F .f32)⟩]
            concatenates_S128_S128_S128_S384_d0)
          shapeCasts_S384_S1x384 := by
  simp only [after_cons, after_nil]
  rw [reshape_result]
  rw [nary3_result]
  repeat (first
    | (rw [nary_result_ne]; rotate_left; decide)
    | (rw [unary_result_ne]; rotate_left; decide))
  rfl

/-! ## Three equal pieces laid along an axis, read at an index -/

section Pieces
variable {α : Type}

/-- Three [128, 128] matrices side by side, read in the first block of columns. -/
theorem cols_piece0 (x0 x1 x2 : S128x128.Idx → α) (h : Shape.Concatenates [S128x128, S128x128, S128x128] S128x384 1)
    (d e : Fin 128) :
    concatenate S128x384 1 [⟨S128x128, x0⟩, ⟨S128x128, x1⟩, ⟨S128x128, x2⟩] h (ix2 d ⟨e.val, by omega⟩) = x0 (ix2 d e) :=
  concatenate_apply_piece (t := S128x384) 1 [⟨S128x128, x0⟩, ⟨S128x128, x1⟩, ⟨S128x128, x2⟩] h _ 0 (show 0 < 3 by omega) S128x128 x0 rfl rfl 0 rfl (ix2 d e)
    (fun b hb => match b, hb with | ⟨0, _⟩, _ => rfl | ⟨1, _⟩, hb => absurd rfl hb)
    (Nat.zero_add _)

/-- Three [128, 128] matrices side by side, read in the second block of columns. -/
theorem cols_piece1 (x0 x1 x2 : S128x128.Idx → α) (h : Shape.Concatenates [S128x128, S128x128, S128x128] S128x384 1)
    (d e : Fin 128) :
    concatenate S128x384 1 [⟨S128x128, x0⟩, ⟨S128x128, x1⟩, ⟨S128x128, x2⟩] h (ix2 d ⟨128 + e.val, by omega⟩) = x1 (ix2 d e) :=
  concatenate_apply_piece (t := S128x384) 1 [⟨S128x128, x0⟩, ⟨S128x128, x1⟩, ⟨S128x128, x2⟩] h _ 1 (show 1 < 3 by omega) S128x128 x1 rfl rfl 128 rfl (ix2 d e)
    (fun b hb => match b, hb with | ⟨0, _⟩, _ => rfl | ⟨1, _⟩, hb => absurd rfl hb)
    rfl

/-- Three [128, 128] matrices side by side, read in the third block of columns. -/
theorem cols_piece2 (x0 x1 x2 : S128x128.Idx → α) (h : Shape.Concatenates [S128x128, S128x128, S128x128] S128x384 1)
    (d e : Fin 128) :
    concatenate S128x384 1 [⟨S128x128, x0⟩, ⟨S128x128, x1⟩, ⟨S128x128, x2⟩] h (ix2 d ⟨256 + e.val, by omega⟩) = x2 (ix2 d e) :=
  concatenate_apply_piece (t := S128x384) 1 [⟨S128x128, x0⟩, ⟨S128x128, x1⟩, ⟨S128x128, x2⟩] h _ 2 (show 2 < 3 by omega) S128x128 x2 rfl rfl 256 rfl (ix2 d e)
    (fun b hb => match b, hb with | ⟨0, _⟩, _ => rfl | ⟨1, _⟩, hb => absurd rfl hb)
    rfl

/-- Three [128] vectors end to end, read in the first stretch. -/
theorem vec_piece0 (x0 x1 x2 : S128.Idx → α) (h : Shape.Concatenates [S128, S128, S128] S384 0) (e : Fin 128) :
    concatenate S384 0 [⟨S128, x0⟩, ⟨S128, x1⟩, ⟨S128, x2⟩] h (ix1 ⟨e.val, by omega⟩) = x0 (ix1 e) :=
  concatenate_apply_piece (t := S384) 0 [⟨S128, x0⟩, ⟨S128, x1⟩, ⟨S128, x2⟩] h _ 0 (show 0 < 3 by omega) S128 x0 rfl rfl 0 rfl (ix1 e)
    (fun b hb => match b, hb with | ⟨0, _⟩, hb => absurd rfl hb)
    (Nat.zero_add _)

/-- Three [128] vectors end to end, read in the second stretch. -/
theorem vec_piece1 (x0 x1 x2 : S128.Idx → α) (h : Shape.Concatenates [S128, S128, S128] S384 0) (e : Fin 128) :
    concatenate S384 0 [⟨S128, x0⟩, ⟨S128, x1⟩, ⟨S128, x2⟩] h (ix1 ⟨128 + e.val, by omega⟩) = x1 (ix1 e) :=
  concatenate_apply_piece (t := S384) 0 [⟨S128, x0⟩, ⟨S128, x1⟩, ⟨S128, x2⟩] h _ 1 (show 1 < 3 by omega) S128 x1 rfl rfl 128 rfl (ix1 e)
    (fun b hb => match b, hb with | ⟨0, _⟩, hb => absurd rfl hb)
    rfl

/-- Three [128] vectors end to end, read in the third stretch. -/
theorem vec_piece2 (x0 x1 x2 : S128.Idx → α) (h : Shape.Concatenates [S128, S128, S128] S384 0) (e : Fin 128) :
    concatenate S384 0 [⟨S128, x0⟩, ⟨S128, x1⟩, ⟨S128, x2⟩] h (ix1 ⟨256 + e.val, by omega⟩) = x2 (ix1 e) :=
  concatenate_apply_piece (t := S384) 0 [⟨S128, x0⟩, ⟨S128, x1⟩, ⟨S128, x2⟩] h _ 2 (show 2 < 3 by omega) S128 x2 rfl rfl 256 rfl (ix1 e)
    (fun b hb => match b, hb with | ⟨0, _⟩, hb => absurd rfl hb)
    rfl

end Pieces

/-! ## The weights' matrix at an index: column block `o`, column `e`, row `d` is weight matrix `o` at `(e, d)` -/

theorem v3_q (d e : Fin 128) :
    (after (hostOps0 (F := F)) W (Proc.devRef .tc main_v3) : S128x384.Idx → Elt F .f32) (ix2 d ⟨e.val, by omega⟩)
      = (W (Proc.devRef .tc main_arg1) : S128x128.Idx → Elt F .f32) (ix2 e d) := by
  rw [v3_whole]
  refine (cols_piece0 _ _ _ _ d e).trans ?_
  exact transpose_ix2_apply _ _ d e

theorem v3_k (d e : Fin 128) :
    (after (hostOps0 (F := F)) W (Proc.devRef .tc main_v3) : S128x384.Idx → Elt F .f32) (ix2 d ⟨128 + e.val, by omega⟩)
      = (W (Proc.devRef .tc main_arg3) : S128x128.Idx → Elt F .f32) (ix2 e d) := by
  rw [v3_whole]
  refine (cols_piece1 _ _ _ _ d e).trans ?_
  exact transpose_ix2_apply _ _ d e

theorem v3_v (d e : Fin 128) :
    (after (hostOps0 (F := F)) W (Proc.devRef .tc main_v3) : S128x384.Idx → Elt F .f32) (ix2 d ⟨256 + e.val, by omega⟩)
      = (W (Proc.devRef .tc main_arg5) : S128x128.Idx → Elt F .f32) (ix2 e d) := by
  rw [v3_whole]
  refine (cols_piece2 _ _ _ _ d e).trans ?_
  exact transpose_ix2_apply _ _ d e

/-! ## The biases' row at an index: stretch `o`, position `e` is bias vector `o` at `e` -/

theorem v5_q (e : Fin 128) :
    (after (hostOps0 (F := F)) W (Proc.devRef .tc main_v5) : S1x384.Idx → Elt F .f32) (ix2 0 ⟨e.val, by omega⟩)
      = (W (Proc.devRef .tc main_arg2) : S128.Idx → Elt F .f32) (ix1 e) := by
  rw [v5_whole]
  refine (shapeCast_a_1a_apply _ _ 0 _).trans ?_
  exact vec_piece0 _ _ _ _ e

theorem v5_k (e : Fin 128) :
    (after (hostOps0 (F := F)) W (Proc.devRef .tc main_v5) : S1x384.Idx → Elt F .f32) (ix2 0 ⟨128 + e.val, by omega⟩)
      = (W (Proc.devRef .tc main_arg4) : S128.Idx → Elt F .f32) (ix1 e) := by
  rw [v5_whole]
  refine (shapeCast_a_1a_apply _ _ 0 _).trans ?_
  exact vec_piece1 _ _ _ _ e

theorem v5_v (e : Fin 128) :
    (after (hostOps0 (F := F)) W (Proc.devRef .tc main_v5) : S1x384.Idx → Elt F .f32) (ix2 0 ⟨256 + e.val, by omega⟩)
      = (W (Proc.devRef .tc main_arg6) : S128.Idx → Elt F .f32) (ix1 e) := by
  rw [v5_whole]
  refine (shapeCast_a_1a_apply _ _ 0 _).trans ?_
  exact vec_piece2 _ _ _ _ e

/-! ## The buffers the six operations do not write -/

theorem kept_arg0 : after (hostOps0 (F := F)) W (Proc.devRef .tc main_arg0) = W (Proc.devRef .tc main_arg0) := by
  kept_all hostOps0
theorem kept_arg1 : after (hostOps0 (F := F)) W (Proc.devRef .tc main_arg1) = W (Proc.devRef .tc main_arg1) := by
  kept_all hostOps0
theorem kept_arg2 : after (hostOps0 (F := F)) W (Proc.devRef .tc main_arg2) = W (Proc.devRef .tc main_arg2) := by
  kept_all hostOps0
theorem kept_arg3 : after (hostOps0 (F := F)) W (Proc.devRef .tc main_arg3) = W (Proc.devRef .tc main_arg3) := by
  kept_all hostOps0
theorem kept_arg4 : after (hostOps0 (F := F)) W (Proc.devRef .tc main_arg4) = W (Proc.devRef .tc main_arg4) := by
  kept_all hostOps0
theorem kept_arg5 : after (hostOps0 (F := F)) W (Proc.devRef .tc main_arg5) = W (Proc.devRef .tc main_arg5) := by
  kept_all hostOps0
theorem kept_arg6 : after (hostOps0 (F := F)) W (Proc.devRef .tc main_arg6) = W (Proc.devRef .tc main_arg6) := by
  kept_all hostOps0
theorem kept_v6 : after (hostOps0 (F := F)) W (Proc.devRef .tc main_v6) = W (Proc.devRef .tc main_v6) := by
  kept_all hostOps0
theorem kept_v7 : after (hostOps0 (F := F)) W (Proc.devRef .tc main_v7) = W (Proc.devRef .tc main_v7) := by
  kept_all hostOps0

end Cert.Kernel.HostPrefix

end
-- ==== Proof.KbLaunch.lean ====
/-
  The launch: the whole program as three segments — the six host operations that pack the weights and biases, the
  kernel region, the reshape of its result — and what every weakly fair execution ends with.

  The activations' array is handed to the kernel through two windows, so the region is entered with that buffer's
  points-to split in two halves, one for each window, and left with the halves joined again; every other array of the
  pipeline is held whole. The three scratch buffers enter the region's invariant at anything and leave it at anything.
  After the region the result's array holds what the pipeline's account of the write-backs computes from the proof
  data, and the last host operation reshapes it into the program's result; the seven arguments are never written.
-/
import proofs.«425314_j78219944395235_3_alg».proof.Proof.KbFrame
import proofs.«425314_j78219944395235_3_alg».proof.Proof.KbHostPrefix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers through the segments: that the core owes nothing. -/
abbrev R (c : Dev nD) : sProp 𝕄 := iprop(∃ W, owes (c : Thread nD τ) (0 : CellTallies nD τ sig Unit) W)

/-- The arrays' final contents, as the library computes them from the proof data. -/
def finalA (c : Dev nD) (w : Fin cfg0.W) : Buf (Elt F) ((cfg0.win w).arr.view.loc (c : Thread nD τ)) := (dats m 0 c).arrAt w cfg0.N

/-! ## The pipeline's arrays, one by one -/

/-- The pipeline's arrays at contents `Fw`: the activations' buffer in two halves, the packed weights, the packed
    biases and the result's array whole. -/
theorem arrays_chain (c : Dev nD) (Fw : (w : Fin cfg0.W) → Buf (Elt F) ((cfg0.win w).arr.view.loc (c : Thread nD τ))) :
    ((dats m 0 c).arrays Fw : sProp 𝕄)
      = iprop((((c : Thread nD τ).loc main_arg0) ↦{fullShare.left} Fw 0) ∗ (((c : Thread nD τ).loc main_arg0) ↦{fullShare.right} Fw 1)
          ∗ (((c : Thread nD τ).loc main_v3) ↦{fullShare} Fw 2) ∗ (((c : Thread nD τ).loc main_v5) ↦{fullShare} Fw 3)
          ∗ (((c : Thread nD τ).loc main_v6) ↦{fullShare} Fw 4)) := by
  unfold Dat.arrays
  rw [bigSep_W0]
  simp only [Memref.view_whole, View.set_whole]
  rfl

/-- The buffers behind the pipeline's arrays, each whole. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v3) ↦{fullShare} W main_v3)
          ∗ (((c : Thread nD τ).loc main_v5) ↦{fullShare} W main_v5) ∗ (((c : Thread nD τ).loc main_v6) ↦{fullShare} W main_v6)) := by
  unfold Pipeline.arrBufs
  exact BI.bigSep_eq_bigSepL_of_eq [main_arg0, main_v3, main_v5, main_v6] (by decide) (by decide) _

/-! ## The three segments -/

/-- The six host operations over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (by intro _ h; (repeat (cases h with | head => rfl | tail _ h => ?_)); exact nomatch h) (V₀ m) R

/-- The two buffers the last host operation touches: the kernel's result array and the program's result. -/
def S₁ : Finset (DevRef τ sig) := {Proc.devRef .tc main_v6, Proc.devRef .tc main_v7}

/-- The buffers after the region: as the region found them, but the result's array at its final contents. -/
def W₁ (c : Dev nD) : Valuation τ sig (Elt F) :=
  Function.update (StableHlo.after hostOps0 (V₀ m c)) (Proc.devRef .tc main_v6) (finalA m c 4)

theorem W₁_v6 (c : Dev nD) : W₁ m c (Proc.devRef .tc main_v6) = finalA m c 4 := Function.update_self _ _ _
theorem W₁_v7 (c : Dev nD) : W₁ m c (Proc.devRef .tc main_v7) = V m c main_v7 :=
  Function.update_of_ne (by decide) _ _

theorem held_S₁ (c : Dev nD) (W : Valuation τ sig (Elt F)) :
    (StableHlo.held (c : Thread nD τ) S₁ W : sProp 𝕄)
      = iprop((((c : Thread nD τ).loc main_v6) ↦{fullShare} W (Proc.devRef .tc main_v6)) ∗ (((c : Thread nD τ).loc main_v7) ↦{fullShare} W (Proc.devRef .tc main_v7))) := by
  unfold StableHlo.held S₁
  rw [show ({Proc.devRef .tc main_v6, Proc.devRef .tc main_v7} : Finset (DevRef τ sig)) = insert (Proc.devRef .tc main_v6) {Proc.devRef .tc main_v7} from rfl,
    BI.bigSep_insert (by decide), BI.bigSep_singleton]
  rfl

/-- The seven arguments, whole, as the region found them. -/
abbrev Rargs (c : Dev nD) : sProp 𝕄 := iprop((((c : Thread nD τ).loc main_arg0) ↦{fullShare} V m c main_arg0) ∗ (((c : Thread nD τ).loc main_arg1) ↦{fullShare} V m c main_arg1) ∗ (((c : Thread nD τ).loc main_arg2) ↦{fullShare} V m c main_arg2) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_arg6) ↦{fullShare} V m c main_arg6))

/-- The reshape of the kernel's result into the program's. -/
def seg1 : Pipeline.HostSeg (Name := ℕ) (U := UR sig nD τ) (pcfgs (F := F)) defs₀ 𝒱₀ L lv :=
  Pipeline.HostSeg.ofOps _ _ _ _ _ S₁ hostOps1
    (by intro op h; simp only [hostOps1, List.mem_singleton] at h; subst h; rw [StableHlo.reshape_bufs]; exact subset_rfl)
    (by intro _ h; (repeat (cases h with | head => rfl | tail _ h => ?_)); exact nomatch h) (W₁ m) (fun c => iprop(Rargs m c ∗ R c))

/-! ## The region's protocol -/

theorem arrAt0 (c : Dev nD) (w : Fin cfg0.W) : (dats m 0 c).arrAt w 0 = V m c (Pipeline.arrRef spec0 w) := A_eq m c w

theorem entry (c : Dev nD) :
    iprop((StableHlo.held (c : Thread nD τ) (Pipeline.ucRefs τ sig) (StableHlo.after hostOps0 (V₀ m c)) : sProp 𝕄) ∗ R c)
      ⊢ iprop((dats m 0 c).arrays ((dats m 0 c).arrAt · 0) ∗ Pipeline.unscopedRest spec0 c (V m c) ∗ R c) := by
  rw [show (StableHlo.held (c : Thread nD τ) (Pipeline.ucRefs τ sig) (StableHlo.after hostOps0 (V₀ m c)) : sProp 𝕄) = unscopedBufs c (V m c)
      from (Pipeline.unscopedBufs_held c _).symm,
    Pipeline.unscopedBufs_split₀ cfgs 0 winFacts₀0.arr_unscoped c (V m c), arrBufs_chain, arrays_chain]
  simp only [arrAt0]
  iintro ⟨⟨⟨H0, H3, H5, H6⟩, Hrest⟩, HR⟩
  ihave H0' := (pointsTo_share (PosShare.mem_left_op_right fullShare)).1 $$ H0
  icases H0' with ⟨H0l, H0r⟩
  isplitl [H0l H0r H3 H5 H6]
  · isplitl [H0l]; · iexact H0l
    isplitl [H0r]; · iexact H0r
    isplitl [H3]; · iexact H3
    isplitl [H5]; · iexact H5
    iexact H6
  isplitl [Hrest]; · iexact Hrest
  iexact HR

theorem exit_ (c : Dev nD) :
    iprop((dats m 0 c).arrays ((dats m 0 c).arrAt · cfg0.N) ∗ Pipeline.unscopedRest spec0 c (V m c) ∗ R c)
      ⊢ iprop((StableHlo.held (c : Thread nD τ) S₁ (W₁ m c) : sProp 𝕄) ∗ Rargs m c ∗ R c) := by
  rw [arrays_chain, unscopedRest0_eq, held_S₁, W₁_v6, W₁_v7]
  simp only [(dats m 0 c).arrAt_in 0 rfl, (dats m 0 c).arrAt_in 1 rfl, (dats m 0 c).arrAt_in 2 rfl, (dats m 0 c).arrAt_in 3 rfl, A_eq]
  unfold finalA
  iintro ⟨⟨H0l, H0r, H3, H5, H6⟩, ⟨H1, H2, H3', H4, H5', H6', Hv0, Hv1, Hv2, Hv4, Hv7⟩, HR⟩
  ihave H0 := (pointsTo_share (PosShare.mem_left_op_right fullShare)).2 $$ [H0l H0r]
  · isplitl [H0l] <;> iassumption
  isplitl [H6 Hv7]
  · isplitl [H6]; · iexact H6
    iexact Hv7
  isplitl [H0 H1 H2 H3' H4 H5' H6']
  · isplitl [H0]; · iexact H0
    isplitl [H1]; · iexact H1
    isplitl [H2]; · iexact H2
    isplitl [H3']; · iexact H3'
    isplitl [H4]; · iexact H4
    isplitl [H5']; · iexact H5'
    iexact H6'
  iexact HR

theorem Phi_out (c : Dev nD) :
    (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), scopedRest_owns]
  iintro ⟨HK, HV, HA⟩
  isplitl [HK]; · iexists _; iexact HK
  isplitl [HV]; · iexists _; iexact HV
  iexists _; iexact HA

set_option backward.isDefEq.respectTransparency.types false in
/-- THE REGION: the decided layout (the arrays need not be distinct), no semaphore of the kernel's own, the body
    obligation; entered from what the host operations left, left with the result's array at its final contents. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (StableHlo.after hostOps0 (V₀ m c)) ∗ R c)
  post c := iprop(StableHlo.held (c : Thread nD τ) S₁ (W₁ m c) ∗ Rargs m c ∗ R c)
  X _ := iprop(emp)
  Y _ := iprop(emp)
  Z c := Pipeline.unscopedRest spec0 c (V m c)
  hentry c := by
    iintro ⟨Hpre, -, -⟩
    ihave H := (entry m c) $$ Hpre
    icases H with ⟨Ha, Hrest, HO⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Pipeline.scopedRest (Ix := Unit) (Name := ℕ) (U := UR sig nD τ) (Lvl := ℕ) (Val := Elt F) spec0 c from rfl]
    iintro ⟨-, -, Hr⟩; iexact Hr
  hout c := by
    rw [Pipeline.ownSems0_none]
    iintro H
    ihave Hr := (Phi_out m c) $$ H
    isplitr; · iempintro
    isplitr; · iempintro
    iexact Hr
  hexit c := by
    iintro ⟨Ha, HO, -, HZ⟩
    imodintro
    iapply (exit_ m c)
    isplitl [Ha]; · iexact Ha
    isplitl [HZ]; · iexact HZ
    unfold Pipeline.Dat.owesAt Pipeline.owesWithin
    icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-- What the end is read from: the two buffers of the last host operation after it, and the seven arguments. -/
abbrev Tₙ (c : Dev nD) : sProp 𝕄 :=
  iprop(StableHlo.held (c : Thread nD τ) S₁ (StableHlo.after hostOps1 (W₁ m c)) ∗ Rargs m c)

/-- The physical post: the program's result at what the last host operation makes of the kernel's result array, the
    arguments as launched. -/
def QV : PUnit × MemSt nD τ sig (Elt F) → Prop := fun r =>
  ∀ c : Dev nD, r.2.mem ((c : Thread nD τ).loc main_v7) = StableHlo.after (hostOps1 (F := F)) (W₁ m c) (Proc.devRef .tc main_v7)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)

theorem V_arg (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) :=
  ⟨HostPrefix.kept_arg0 (V₀ m c), HostPrefix.kept_arg1 (V₀ m c), HostPrefix.kept_arg2 (V₀ m c), HostPrefix.kept_arg3 (V₀ m c),
    HostPrefix.kept_arg4 (V₀ m c), HostPrefix.kept_arg5 (V₀ m c), HostPrefix.kept_arg6 (V₀ m c)⟩

set_option backward.isDefEq.respectTransparency.types false in
/-- At the compiled mesh, for any float values, from any memory with zero counters: every weakly fair execution of
    @main on the TensorCores terminates, and every final state has the program's result at the reshaped result array
    of the kernel and the seven arguments unchanged. -/
theorem run_main : θ_run defs (onTc (τ := τ) (main (F := F))) (s₀ m ρ) (QV m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c)) (Tₙ := Tₙ m)
    (hch := ⟨fun _ => .rfl, fun _ => .rfl, fun _ => .rfl, fun c => by
      show iprop((StableHlo.held (c : Thread nD τ) S₁ (StableHlo.after hostOps1 (W₁ m c)) : sProp 𝕄) ∗ (Rargs m c ∗ R c)) ⊢ _
      iintro ⟨H, Ha, HR⟩
      isplitl [H Ha]
      · isplitl [H] <;> iassumption
      iexact HR⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v7) = StableHlo.after (hostOps1 (F := F)) (W₁ m c) (Proc.devRef .tc main_v7)
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6))
    (hfin := fun c s' => by
      dsimp only [Tₙ, Rargs]; rw [held_S₁]
      obtain ⟨e0, e1, e2, e3, e4, e5, e6⟩ := V_arg m c
      rw [e0, e1, e2, e3, e4, e5, e6]
      iintro ⟨⟨⟨H6, H7⟩, ⟨A0, A1, A2, A3, A4, A5, A6⟩⟩, HSI⟩
      icombine HSI H7 gives %h7
      icombine HSI A0 gives %h0
      icombine HSI A1 gives %h1
      icombine HSI A2 gives %h2
      icombine HSI A3 gives %h3
      icombine HSI A4 gives %h4
      icombine HSI A5 gives %h5
      icombine HSI A6 gives %h6
      imodintro
      isplitr
      · ipureintro
        exact ⟨Buf.eq_of_forall_mem_univ h7, Buf.eq_of_forall_mem_univ h0, Buf.eq_of_forall_mem_univ h1, Buf.eq_of_forall_mem_univ h2,
          Buf.eq_of_forall_mem_univ h3, Buf.eq_of_forall_mem_univ h4, Buf.eq_of_forall_mem_univ h5, Buf.eq_of_forall_mem_univ h6⟩
      iexact HSI)
    (hQ := fun _ h => h)

end Cert.Kernel.Hand

end
-- ==== Proof.KbClaims.lean ====
/-
  What the run gives the certificate's claims: that the program runs to the end with its seven arguments unchanged, and
  that its result, entry (b, e), is entry (b, 0, e) of the kernel's result array as the pipeline's account of the
  write-backs computes it (the last host operation only drops that array's unit axis).
-/
import proofs.«425314_j78219944395235_3_alg».proof.Proof.KbLaunch
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Dropping the unit middle axis of an [a, 1, b] array: entry (i, j) of the result is entry (i, 0, j). -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- The program's result after the last host operation, read at an entry. -/
theorem tail_at (c : Dev nD) (b : Fin 4) (e : Fin 128) :
    (StableHlo.after (hostOps1 (F := F)) (W₁ m c) (Proc.devRef .tc main_v7) : S4x128.Idx → Elt F .f32) (ix2 b e)
      = (finalA m c 4 : S4x1x128.Idx → Elt F .f32) (ix3 b 0 e) := by
  have e1 : (StableHlo.after (hostOps1 (F := F)) (W₁ m c) (Proc.devRef .tc main_v7) : S4x128.Idx → Elt F .f32)
      = shapeCast S4x128 (W₁ m c (Proc.devRef .tc main_v6) : S4x1x128.Idx → Elt F .f32) shapeCasts_S4x1x128_S4x128 := by
    dsimp only [hostOps1]; after_results; rfl
  rw [e1, W₁_v6]
  exact shapeCast_a1b_ab_apply _ _ b e

/-- The run's post read at the result. -/
theorem run_value : θ_run defs (onTc (τ := τ) (main (F := F))) ⟨m, fun _ => 0, ρ⟩ (fun r => ∀ c : Dev nD,
      (∀ (b : Fin 4) (e : Fin 128), (r.2.mem ((c.tc : Thread nD τ).loc main_v7) : S4x128.Idx → Elt F .f32) (ix2 b e)
          = (finalA m c 4 : S4x1x128.Idx → Elt F .f32) (ix3 b 0 e))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨fun b e => by rw [(h c).1]; exact tail_at m c b e, (h c).2⟩) (run_main m ρ)

/-- THE FRAME: every weakly fair execution terminates, nothing faulting, the seven arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_main m ρ)

end Cert.Kernel.Hand

end
-- ==== Proof.Spec.lean ====
/-
  The function both programs compute, over the extended reals, entry by entry.

  For a batch `b`, every row `n` of `x[b]` is sent through three affine maps: `Q = x Wqᵀ + bq`, `K = x Wkᵀ + bk`,
  `V = x Wvᵀ + bv`. A row's scores against all rows are `s[n, m] = ⟨Q[n], K[m]⟩` (no scaling). They are made a
  probability vector the stable way: the row's maximum is taken away, the exponential applied, and each entry divided
  by the row's sum. The attended row is the mixture `∑ₘ soft[n, m] · V[m]`, and the result is the mean of the attended
  rows: their sum over `n` divided by the literal `4096.0`.

  A maximum is the fold of `max` from `⊥` (= −∞): that is what a reduction initialised with −∞ is at these values,
  whatever the order. Sums are sums in the extended reals' commutative monoid, so their grouping and order are free.
-/
import Idealize.ShloMosaic.PureOps.Ideal
import Idealize.ShloMosaic.Lib.ValueIdx

noncomputable section

open scoped BigOperators

namespace Cert.Spec

open Idealize.ShloMosaic Idealize.ShloMosaic.ValueIdx

/-- The shapes of the activations, of a weight matrix (`[out, in]`), of a bias and of the result. -/
abbrev SX : Shape := ⟨3, ![4, 4096, 128]⟩
abbrev SW : Shape := ⟨2, ![128, 128]⟩
abbrev SB : Shape := ⟨1, ![128]⟩
abbrev SO : Shape := ⟨2, ![4, 128]⟩

/-- One entry of an affine layer: row `n` of batch `b` against row `e` of the weight, plus the bias. -/
def lin (x : SX.Idx → EReal) (W : SW.Idx → EReal) (β : SB.Idx → EReal) (b : Fin 4) (n : Fin 4096) (e : Fin 128) : EReal :=
  (∑ d : Fin 128, x (ix3 b n d) * W (ix2 e d)) + β (ix1 e)

/-- The score of query row `n` against key row `m`. -/
def score (Q K : Fin 4 → Fin 4096 → Fin 128 → EReal) (b : Fin 4) (n m : Fin 4096) : EReal :=
  ∑ d : Fin 128, Q b n d * K b m d

/-- A row's maximum: `max` folded from −∞. -/
def rowMax (s : Fin 4096 → EReal) : EReal := (Finset.univ : Finset (Fin 4096)).fold max ⊥ s

/-- The shifted exponential of a row's entry. -/
def expo (s : Fin 4096 → EReal) (m : Fin 4096) : EReal := Ideal.exp (s m - rowMax s)

/-- The row made a probability vector. -/
def soft (s : Fin 4096 → EReal) (m : Fin 4096) : EReal := Ideal.div (expo s m) (∑ k : Fin 4096, expo s k)

/-- The attended row `n` at feature `e`. -/
def attend (Q K V : Fin 4 → Fin 4096 → Fin 128 → EReal) (b : Fin 4) (n : Fin 4096) (e : Fin 128) : EReal :=
  ∑ m : Fin 4096, soft (score Q K b n) m * V b m e

/-- The mean over the rows: their sum divided by `4096.0`. -/
def pooled (Q K V : Fin 4 → Fin 4096 → Fin 128 → EReal) (b : Fin 4) (e : Fin 128) : EReal :=
  Ideal.div (∑ n : Fin 4096, attend Q K V b n e) (Ideal.ofBits .f32 0x45800000#32)

/-- The result array as one function of the seven argument arrays. -/
def G (x : SX.Idx → EReal) (Wq : SW.Idx → EReal) (bq : SB.Idx → EReal) (Wk : SW.Idx → EReal) (bk : SB.Idx → EReal)
    (Wv : SW.Idx → EReal) (bv : SB.Idx → EReal) : SO.Idx → EReal :=
  fun j => pooled (lin x Wq bq) (lin x Wk bk) (lin x Wv bv) (j 0) (j 1)

end Cert.Spec

end
-- ==== Proof.RefIsSpec.lean ====
/-
  The reference computation is the specification function, entry by entry, over the extended reals.

  The reference sends every row of x through three affine maps, Q = x Wqᵀ + bq, K = x Wkᵀ + bk, V = x Wvᵀ + bv
  (a weight is indexed [out, in], so the contraction runs over its second axis and the bias is spread over batch and
  row). Its scores contract the feature axis of Q against that of K. A row of scores is made a probability vector the
  stable way: the row's maximum (a reduction by max from −∞, then one more max against −∞, which changes nothing)
  is taken away, the exponential applied, and each entry divided by the row's sum (a sum from 0). The attended row
  contracts the key axis of the probabilities against V, the rows are summed (again from 0) and the sum divided by
  the literal 4096.0.

  Each stage is read at an index built from its coordinates and identified with the corresponding function of the
  specification; the last stage, read at (b, e), is the specification's entry.
-/
import proofs.«425314_j78219944395235_3_alg».proof.Proof.Gen.ReferenceIdeal.Read
import proofs.«425314_j78219944395235_3_alg».proof.Proof.Spec
import Idealize.ShloMosaic.PureOps.Reduce
import Idealize.ShloMosaic.PureOps.Ideal
import Idealize.ShloMosaic.PureOps.Ideal.Laws
import Idealize.ShloMosaic.Lib.ValueIdx

noncomputable section

open scoped BigOperators

namespace Cert.RefSpec

open Idealize.ShloMosaic Idealize.ShloMosaic.ValueIdx Cert.ReferenceIdeal Cert.ReferenceIdeal.Read Cert.Spec

/-- The arrays' types: activations, a weight, a bias. -/
abbrev TX : Type := (⟨S4x4096x128, .f32⟩ : BufTy).Contents (Elt Ideal)
abbrev TW : Type := (⟨S128x128, .f32⟩ : BufTy).Contents (Elt Ideal)
abbrev TB : Type := (⟨S128, .f32⟩ : BufTy).Contents (Elt Ideal)

/-! ## The two literals -/

/-- The pattern 0xFF800000 is −∞. -/
theorem negInf_eq_bot : Ideal.ofBits .f32 0xFF800000#32 = (⊥ : EReal) := by
  simp [Ideal.ofBits, Ideal.ieee]

/-! ## The affine layers -/

/-- An entry of the first affine layer is the specification's. -/
theorem v3_eq (x : TX) (W : TW) (β : TB) (b : Fin 4) (n : Fin 4096) (e : Fin 128) :
    val_main_v3 (F := Ideal) x W β (ix3 b n e) = lin x W β b n e := by
  rw [val_main_v3_apply, val_main_v0_apply, val_main_v2_apply, val_main_v1_apply]
  show (∑ k : Fin 128, x (lidx_main_v0 (ix3 b n e) k) * W (ridx_main_v0 (ix3 b n e) k))
      + β (idx_main_v1 (idx_main_v2 (ix3 b n e))) = lin x W β b n e
  unfold lin
  have hl : ∀ k : Fin 128, lidx_main_v0 (ix3 b n e) k = ix3 b n k := fun k =>
    funext fun a => Fin.ext (by match a with | ⟨0, _⟩ => rfl | ⟨1, _⟩ => rfl | ⟨2, _⟩ => rfl)
  have hr : ∀ k : Fin 128, ridx_main_v0 (ix3 b n e) k = ix2 e k := fun k =>
    funext fun a => Fin.ext (by match a with | ⟨0, _⟩ => rfl | ⟨1, _⟩ => rfl)
  have hb : idx_main_v1 (idx_main_v2 (ix3 b n e)) = ix1 e :=
    funext fun a => Fin.ext (by match a with | ⟨0, _⟩ => rfl)
  rw [hb]
  refine congrArg (· + β (ix1 e)) (Finset.sum_congr rfl fun k _ => ?_)
  rw [hl k, hr k]

/-- The second affine layer is the same function of its own weight and bias. -/
theorem v7_eq (x : TX) (W : TW) (β : TB) (b : Fin 4) (n : Fin 4096) (e : Fin 128) :
    val_main_v7 (F := Ideal) x W β (ix3 b n e) = lin x W β b n e := v3_eq x W β b n e

/-- So is the third. -/
theorem v11_eq (x : TX) (W : TW) (β : TB) (b : Fin 4) (n : Fin 4096) (e : Fin 128) :
    val_main_v11 (F := Ideal) x W β (ix3 b n e) = lin x W β b n e := v3_eq x W β b n e

/-! ## The scores -/

section Stages

variable (x0 : TX) (x1 : TW) (x2 : TB) (x3 : TW) (x4 : TB) (x5 : TW) (x6 : TB)

/-- A score contracts the feature axis of row n of Q against that of row m of K. -/
theorem v12_eq (b : Fin 4) (n m : Fin 4096) :
    val_main_v12 (F := Ideal) x0 x1 x2 x3 x4 (ix3 b n m) = score (lin x0 x1 x2) (lin x0 x3 x4) b n m := by
  rw [val_main_v12_apply]
  unfold score
  refine Finset.sum_congr rfl fun d _ => ?_
  have hl : lidx_main_v12 (ix3 b n m) d = ix3 b n d :=
    funext fun a => Fin.ext (by match a with | ⟨0, _⟩ => rfl | ⟨1, _⟩ => rfl | ⟨2, _⟩ => rfl)
  have hr : ridx_main_v12 (ix3 b n m) d = ix3 b m d :=
    funext fun a => Fin.ext (by match a with | ⟨0, _⟩ => rfl | ⟨1, _⟩ => rfl | ⟨2, _⟩ => rfl)
  rw [hl, hr, v3_eq, v7_eq]

/-! ## The row maximum -/

/-- The index (b, n) with the key coordinate k put back is (b, n, k). -/
theorem lift_key (h : S4x4096x4096.Reduces [2] S4x4096) (b : Fin 4) (n : Fin 4096)
    (k : Fin (S4x4096x4096.size 2)) : h.lift (ix2 b n) k = ix3 b n (⟨k.val, k.isLt⟩ : Fin 4096) := by
  funext c; apply Fin.ext
  match c with
  | ⟨0, _⟩ => rfl
  | ⟨1, _⟩ => rfl
  | ⟨2, _⟩ => rfl

/-- The reduction by max over the key axis, from −∞, is the row's maximum. -/
theorem v13_eq (b : Fin 4) (n : Fin 4096) :
    val_main_v13 (F := Ideal) x0 x1 x2 x3 x4 (ix2 b n) = rowMax (score (lin x0 x1 x2) (lin x0 x3 x4) b n) := by
  have h : S4x4096x4096.Reduces [2] S4x4096 := by decide
  unfold val_main_v13
  rw [Host.reduce_eq_fold_single FloatOps.maximumf _ _ _ h _]
  have hi : val_main_cst (F := Ideal) (Shape.Idx.first Gen.h_S_) = (⊥ : EReal) := negInf_eq_bot
  have hf : (val_main_v12 (F := Ideal) x0 x1 x2 x3 x4 ∘ h.lift (ix2 b n))
      = fun k : Fin 4096 => score (lin x0 x1 x2) (lin x0 x3 x4) b n k := funext fun k => by
    show val_main_v12 (F := Ideal) x0 x1 x2 x3 x4 (h.lift (ix2 b n) k) = _
    rw [lift_key h b n k]
    exact v12_eq x0 x1 x2 x3 x4 b n _
  exact congrArg₂ (fun i f => Finset.fold max i f (Finset.univ : Finset (Fin 4096))) hi hf

/-- One more max against −∞ changes nothing. -/
theorem v15_eq (b : Fin 4) (n : Fin 4096) :
    val_main_v15 (F := Ideal) x0 x1 x2 x3 x4 (ix2 b n) = rowMax (score (lin x0 x1 x2) (lin x0 x3 x4) b n) := by
  rw [val_main_v15_apply, val_main_v14_apply, val_main_cst_0_apply, v13_eq]
  show max (Ideal.ofBits .f32 0xFF800000#32) _ = _
  rw [negInf_eq_bot]
  exact max_eq_right bot_le

/-- The maximum spread back along the key axis reads, at (b, n, m), the maximum of row (b, n). -/
theorem v17_eq (b : Fin 4) (n m : Fin 4096) :
    val_main_v17 (F := Ideal) x0 x1 x2 x3 x4 (ix3 b n m) = rowMax (score (lin x0 x1 x2) (lin x0 x3 x4) b n) := by
  rw [val_main_v17_apply, val_main_v16_apply]
  have hi : idx_main_v16 (idx_main_v17 (ix3 b n m)) = ix2 b n :=
    funext fun a => Fin.ext (by match a with | ⟨0, _⟩ => rfl | ⟨1, _⟩ => rfl)
  rw [hi, v15_eq]

/-! ## The exponentials, their sum and the probabilities -/

/-- The shifted exponential. -/
theorem v19_eq (b : Fin 4) (n m : Fin 4096) :
    val_main_v19 (F := Ideal) x0 x1 x2 x3 x4 (ix3 b n m) = expo (score (lin x0 x1 x2) (lin x0 x3 x4) b n) m := by
  rw [val_main_v19_apply, val_main_v18_apply, v12_eq, v17_eq]
  rfl

/-- The row's sum of exponentials: the sum from 0 over the key axis. -/
theorem v20_eq (b : Fin 4) (n : Fin 4096) :
    val_main_v20 (F := Ideal) x0 x1 x2 x3 x4 (ix2 b n)
      = ∑ k : Fin 4096, expo (score (lin x0 x1 x2) (lin x0 x3 x4) b n) k := by
  rw [val_main_v20_apply, val_main_cst_1_apply]
  show Ideal.ofBits .f32 0x00000000#32 + _ = _
  rw [Ideal.ofBits_zero_f32, zero_add]
  refine Finset.sum_congr rfl fun k _ => ?_
  have hi : idx_main_v20 (ix2 b n) k = ix3 b n k :=
    funext fun a => Fin.ext (by match a with | ⟨0, _⟩ => rfl | ⟨1, _⟩ => rfl | ⟨2, _⟩ => rfl)
  rw [hi, v19_eq]

/-- The sum spread back along the key axis. -/
theorem v22_eq (b : Fin 4) (n m : Fin 4096) :
    val_main_v22 (F := Ideal) x0 x1 x2 x3 x4 (ix3 b n m)
      = ∑ k : Fin 4096, expo (score (lin x0 x1 x2) (lin x0 x3 x4) b n) k := by
  rw [val_main_v22_apply, val_main_v21_apply]
  have hi : idx_main_v21 (idx_main_v22 (ix3 b n m)) = ix2 b n :=
    funext fun a => Fin.ext (by match a with | ⟨0, _⟩ => rfl | ⟨1, _⟩ => rfl)
  rw [hi, v20_eq]

/-- The probabilities. -/
theorem v23_eq (b : Fin 4) (n m : Fin 4096) :
    val_main_v23 (F := Ideal) x0 x1 x2 x3 x4 (ix3 b n m) = soft (score (lin x0 x1 x2) (lin x0 x3 x4) b n) m := by
  rw [val_main_v23_apply, v19_eq, v22_eq]
  rfl

/-! ## The attended rows, their sum and the mean -/

/-- The attended row contracts the key axis of the probabilities against V. -/
theorem v24_eq (b : Fin 4) (n : Fin 4096) (e : Fin 128) :
    val_main_v24 (F := Ideal) x0 x1 x2 x3 x4 x5 x6 (ix3 b n e)
      = attend (lin x0 x1 x2) (lin x0 x3 x4) (lin x0 x5 x6) b n e := by
  rw [val_main_v24_apply]
  unfold attend
  refine Finset.sum_congr rfl fun m _ => ?_
  have hl : lidx_main_v24 (ix3 b n e) m = ix3 b n m :=
    funext fun a => Fin.ext (by match a with | ⟨0, _⟩ => rfl | ⟨1, _⟩ => rfl | ⟨2, _⟩ => rfl)
  have hr : ridx_main_v24 (ix3 b n e) m = ix3 b m e :=
    funext fun a => Fin.ext (by match a with | ⟨0, _⟩ => rfl | ⟨1, _⟩ => rfl | ⟨2, _⟩ => rfl)
  rw [hl, hr, v23_eq, v11_eq]

/-- The sum of the attended rows: the sum from 0 over the query axis. -/
theorem v25_eq (b : Fin 4) (e : Fin 128) :
    val_main_v25 (F := Ideal) x0 x1 x2 x3 x4 x5 x6 (ix2 b e)
      = ∑ n : Fin 4096, attend (lin x0 x1 x2) (lin x0 x3 x4) (lin x0 x5 x6) b n e := by
  rw [val_main_v25_apply, val_main_cst_2_apply]
  show Ideal.ofBits .f32 0x00000000#32 + _ = _
  rw [Ideal.ofBits_zero_f32, zero_add]
  refine Finset.sum_congr rfl fun n _ => ?_
  have hi : idx_main_v25 (ix2 b e) n = ix3 b n e :=
    funext fun a => Fin.ext (by match a with | ⟨0, _⟩ => rfl | ⟨1, _⟩ => rfl | ⟨2, _⟩ => rfl)
  rw [hi, v24_eq]

/-- The mean: the sum divided by the literal 4096.0. -/
theorem v27_eq (b : Fin 4) (e : Fin 128) :
    val_main_v27 (F := Ideal) x0 x1 x2 x3 x4 x5 x6 (ix2 b e)
      = pooled (lin x0 x1 x2) (lin x0 x3 x4) (lin x0 x5 x6) b e := by
  rw [val_main_v27_apply, val_main_v26_apply, val_main_cst_3_apply, v25_eq]
  rfl

end Stages

/-! ## The reference is the specification -/

/-- The reference's result, as a function of the seven argument arrays, is the specification function. -/
theorem ref_is_G (x0 : (⟨Cert.ReferenceIdeal.S4x4096x128, .f32⟩ : BufTy).Contents (Elt Ideal))
    (x1 : (⟨Cert.ReferenceIdeal.S128x128, .f32⟩ : BufTy).Contents (Elt Ideal))
    (x2 : (⟨Cert.ReferenceIdeal.S128, .f32⟩ : BufTy).Contents (Elt Ideal))
    (x3 : (⟨Cert.ReferenceIdeal.S128x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal)) :
    Cert.ReferenceIdeal.Read.val_main_v27 (F := Ideal) x0 x1 x2 x3 x4 x5 x6 = Cert.Spec.G x0 x1 x2 x3 x4 x5 x6 := by
  funext j
  obtain ⟨b, e, rfl⟩ : ∃ (b : Fin 4) (e : Fin 128), j = ix2 b e := ⟨j 0, j 1, eq_ix2 j⟩
  exact v27_eq x0 x1 x2 x3 x4 x5 x6 b e

end Cert.RefSpec

end
-- ==== Proof.KiPieces.lean ====
/-
  What each kind of point leaves in the scratch buffers and in the result's buffer, as the body's payloads of the blocks
  and of what the point before left: the stores are whole-buffer stores, so what a buffer ends with is the payload of
  the last store into it, and a load after a store in the same run reads that payload back.
-/
import proofs.«425314_j78219944395235_3_alg».proof.Proof.KiFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

namespace KiPieces

/-- The zero offsets of a rank-2 store or load, as the constant function. -/
theorem hz2 : (![0, 0] : Fin 2 → Nat) = fun _ => 0 := funext fun a => by fin_cases a <;> rfl

/-- The zero offsets of a rank-3 store or load, as the constant function. -/
theorem hz3 : (![0, 0, 0] : Fin 3 → Nat) = fun _ => 0 := funext fun a => by fin_cases a <;> rfl

/-- Reading a scratch buffer back from the raw contents that hold a given block gives that block (the scratch
    memrefs are whole). -/
theorem read_scK (X : Vec F S4096x128 .bf16) :
    View.read (Elt F) (View.whole cc0_scratch0) ((Memref.isWhole_whole cc0_scratch0).unread X) = X :=
  (Memref.isWhole_whole cc0_scratch0).read_unread X

theorem read_scV (X : Vec F S4096x128 .bf16) :
    View.read (Elt F) (View.whole cc0_scratch1) ((Memref.isWhole_whole cc0_scratch1).unread X) = X :=
  (Memref.isWhole_whole cc0_scratch1).read_unread X

theorem read_scA (X : Vec F S1x128 .f32) :
    View.read (Elt F) (View.whole cc0_scratch2) ((Memref.isWhole_whole cc0_scratch2).unread X) = X :=
  (Memref.isWhole_whole cc0_scratch2).read_unread X

end KiPieces

open KiPieces

/-- A batch's first point leaves in the keys' buffer the keys' projection of the batch's block: the one store into it
    covers it, and the payload's loads read the whole staging buffers. -/
theorem skA_eq (c : Dev nD) (t : Fin cfg0.N) (h0 : t.val % 8 = 0) :
    skA m c t h0 = k0_pay6 (iblk m c 2 t) (iblk m c 3 t) (iblk m c 0 t) := by
  unfold skA
  rw [View.read_writes_eq_canon _ _ _ (coverKA m c t h0)]
  unfold kernelRun_A
  dsimp only
  sl_unfold_words
  rw [View.canon_unit_zero hz2]
  simp only [View.readAt_eq_ld, (hs0 t).read_unread, (hs2 t).read_unread, (hs3 t).read_unread,
    View.ld_unit_zero (S := S128x384) hz2, View.ld_unit_zero (S := S1x384) hz2, View.ld_unit_zero (S := S1x4096x128) hz3]

/-- A batch's first point leaves in the values' buffer the values' projection of the batch's block. -/
theorem svA_eq (c : Dev nD) (t : Fin cfg0.N) (h0 : t.val % 8 = 0) :
    svA m c t h0 = k0_pay7 (iblk m c 2 t) (iblk m c 3 t) (iblk m c 0 t) := by
  unfold svA
  rw [View.read_writes_eq_canon _ _ _ (coverVA m c t h0)]
  unfold kernelRun_A
  dsimp only
  sl_unfold_words
  rw [View.canon_unit_zero hz2]
  simp only [View.readAt_eq_ld, (hs0 t).read_unread, (hs2 t).read_unread, (hs3 t).read_unread,
    View.ld_unit_zero (S := S128x384) hz2, View.ld_unit_zero (S := S1x384) hz2, View.ld_unit_zero (S := S1x4096x128) hz3]

/-- A batch's first point clears the running sum, reads it and the two projections back, and stores the sum of the
    cleared value and the first tile's attended rows: the later of the two stores covers the buffer, and each read-back
    is the payload of the one store before it. -/
theorem saA_eq (c : Dev nD) (t : Fin cfg0.N) (h0 : t.val % 8 = 0) :
    saA m c t h0 = k0_pay1 (k0_pay9 (iblk m c 2 t) (iblk m c 3 t) (iblk m c 1 t)
      (k0_pay6 (iblk m c 2 t) (iblk m c 3 t) (iblk m c 0 t)) (k0_pay7 (iblk m c 2 t) (iblk m c 3 t) (iblk m c 0 t)) (k0_pay8 (F := F))) := by
  unfold saA
  rw [View.read_writes_eq_canon _ _ _ (coverAA m c t h0)]
  unfold kernelRun_A
  dsimp only
  sl_unfold_words
  rw [View.canon_cons_unit_zero (S := S1x128) hz2]
  simp only [View.readAt_eq_ld, Memref.IsWhole.read_unread, View.readCov_unit_zero (S := S4096x128) _ hz2,
    View.readCov_unit_zero (S := S1x128) _ hz2, View.ld_unit_zero (S := S128x384) hz2, View.ld_unit_zero (S := S1x384) hz2,
    View.ld_unit_zero (S := S1x512x128) hz3, View.ld_unit_zero (S := S1x4096x128) hz3]

/-- A point inside a batch reads the running sum and the two projections the point before left, and stores the sum
    increased by its tile's attended rows. -/
theorem saB_eq (c : Dev nD) (t : Fin cfg0.N) (h0 : ¬t.val % 8 = 0) (h1 : ¬t.val % 8 = 7)
    (xk : Vec F S4096x128 .bf16) (xv : Vec F S4096x128 .bf16) (xa : Vec F S1x128 .f32) :
    saB m c t h0 h1 xk xv xa = k0_pay1 (k0_pay9 (iblk m c 2 t) (iblk m c 3 t) (iblk m c 1 t) xk xv xa) := by
  unfold saB
  rw [View.read_writes_eq_canon _ _ _ (coverAB m c t h0 h1 xk xv xa)]
  unfold kernelRun_B
  dsimp only
  sl_unfold_words
  rw [View.canon_unit_zero (S := S1x128) hz2]
  simp only [View.readAt_eq_ld, Memref.IsWhole.read_unread, read_scK, read_scV, read_scA, View.ld_unit_zero (S := S128x384) hz2,
    View.ld_unit_zero (S := S1x384) hz2, View.ld_unit_zero (S := S1x512x128) hz3,
    View.ld_unit_zero (S := S4096x128) hz2, View.ld_unit_zero (S := S1x128) hz2]

/-- A batch's last point leaves the running sum as a point inside the batch does. -/
theorem saC_eq (c : Dev nD) (t : Fin cfg0.N) (h0 : ¬t.val % 8 = 0) (h1 : t.val % 8 = 7)
    (xk : Vec F S4096x128 .bf16) (xv : Vec F S4096x128 .bf16) (xa : Vec F S1x128 .f32) :
    saC m c t h0 h1 xk xv xa = k0_pay1 (k0_pay9 (iblk m c 2 t) (iblk m c 3 t) (iblk m c 1 t) xk xv xa) := by
  unfold saC
  rw [View.read_writes_eq_canon _ _ _ (coverAC m c t h0 h1 xk xv xa)]
  unfold kernelRun_C
  dsimp only
  sl_unfold_words
  rw [View.canon_unit_zero (S := S1x128) hz2]
  simp only [View.readAt_eq_ld, Memref.IsWhole.read_unread, read_scK, read_scV, read_scA, View.ld_unit_zero (S := S128x384) hz2,
    View.ld_unit_zero (S := S1x384) hz2, View.ld_unit_zero (S := S1x512x128) hz3,
    View.ld_unit_zero (S := S4096x128) hz2, View.ld_unit_zero (S := S1x128) hz2]

/-- A batch's last point reads the running sum it has just stored back and stores its scaling over the result's
    staging buffer. -/
theorem o4C_eq (c : Dev nD) (t : Fin cfg0.N) (h0 : ¬t.val % 8 = 0) (h1 : t.val % 8 = 7)
    (xk : Vec F S4096x128 .bf16) (xv : Vec F S4096x128 .bf16) (xa : Vec F S1x128 .f32) :
    o4C m c t h0 h1 xk xv xa = k0_pay2 (k0_pay1 (k0_pay9 (iblk m c 2 t) (iblk m c 3 t) (iblk m c 1 t) xk xv xa)) := by
  unfold o4C
  rw [View.read_writes_eq_canon _ _ _ (cover4C m c t h0 h1 xk xv xa)]
  unfold kernelRun_C
  dsimp only
  sl_unfold_words
  rw [View.canon_unit_zero (S := S1x1x128) hz3]
  simp only [View.readAt_eq_ld, Memref.IsWhole.read_unread, read_scK, read_scV, read_scA,
    View.readCov_unit_zero (S := S1x128) _ hz2, View.ld_unit_zero (S := S128x384) hz2, View.ld_unit_zero (S := S1x384) hz2, View.ld_unit_zero (S := S1x512x128) hz3,
    View.ld_unit_zero (S := S4096x128) hz2, View.ld_unit_zero (S := S1x128) hz2]

end Cert.KernelIdeal.Hand

end
-- ==== Proof.KiBlocks.lean ====
/-
  The windows' blocks read at an index, in terms of the seven argument arrays as launched.

  Point t = 8·b + q. The first window's block is batch b's whole slab of the activations; the second's is rows
  512·q … 512·q + 511 of that slab; the third's and fourth's are the packed weights [128, 384] and biases [1, 384]
  whole, which the host operations before the region built from the three weight matrices (transposed, side by side)
  and the three biases (end to end). No host operation writes an argument.
-/
import proofs.«425314_j78219944395235_3_alg».proof.Proof.KiRuns
import proofs.«425314_j78219944395235_3_alg».proof.Proof.HostPrefix
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

theorem N_lt (t : Fin cfg0.N) : t.val < 32 := lt_of_lt_of_eq t.isLt (show cfg0.N = 32 from N_0)

/-- The batch of a point, -/
def bOf (t : Fin cfg0.N) : Fin 4 := ⟨t.val / 8, by have := N_lt t; omega⟩
/-- and the row of the batch's slab that row `r` of the point's query tile is. -/
def rowOf (t : Fin cfg0.N) (r : Fin 512) : Fin 4096 := ⟨(t.val % 8) * 512 + r.val, by have := r.isLt; omega⟩

/-- The windows' block indices at point t = 8·b + q, over the 32 points: the first window's is (b, 0, 0), -/
theorem idx_win0 : ∀ t : Fin cfg0.N, win0_0.index t (0 : Fin 3) = t.val / 8 ∧ win0_0.index t (1 : Fin 3) = 0
    ∧ win0_0.index t (2 : Fin 3) = 0 :=
  (by decide +kernel : ∀ t : Fin grid0.N, _)
/-- the second's is (b, q, 0), -/
theorem idx_win1 : ∀ t : Fin cfg0.N, win0_1.index t (0 : Fin 3) = t.val / 8 ∧ win0_1.index t (1 : Fin 3) = t.val % 8
    ∧ win0_1.index t (2 : Fin 3) = 0 :=
  (by decide +kernel : ∀ t : Fin grid0.N, _)
/-- and the third's and fourth's are (0, 0): a block's element sits in its array, on each axis, at block index × block
    size + its coordinate inside the block. -/
theorem idx_win2 : ∀ t : Fin cfg0.N, win0_2.index t (0 : Fin 2) = 0 ∧ win0_2.index t (1 : Fin 2) = 0 :=
  (by decide +kernel : ∀ t : Fin grid0.N, _)
theorem idx_win3 : ∀ t : Fin cfg0.N, win0_3.index t (0 : Fin 2) = 0 ∧ win0_3.index t (1 : Fin 2) = 0 :=
  (by decide +kernel : ∀ t : Fin grid0.N, _)

theorem blk0_at (c : Dev nD) (t : Fin cfg0.N) (n : Fin 4096) (d : Fin 128) :
    (iblk m c 0 t : S1x4096x128.Idx → Elt F .f32) (ix3 0 n d)
      = (m ((c : Thread nD τ).loc main_arg0) : S4x4096x128.Idx → Elt F .f32) (ix3 (bOf t) n d) := by
  obtain ⟨h0, h1, h2⟩ := idx_win0 t
  unfold iblk
  rw [View.read_apply]
  show V m c main_arg0 _ = m (c.tc.loc main_arg0) _
  rw [show V m c main_arg0 = _ from HostPrefix.kept_arg0 (V₀ m c)]
  show m (c.tc.loc main_arg0) _ = m (c.tc.loc main_arg0) _
  congr 1
  funext a
  apply Fin.ext
  match a with
  | ⟨0, _⟩ => show win0_0.index t (0 : Fin 3) * 1 + 1 * 0 = t.val / 8; omega
  | ⟨1, _⟩ => show win0_0.index t (1 : Fin 3) * 4096 + 1 * n.val = n.val; omega
  | ⟨2, _⟩ => show win0_0.index t (2 : Fin 3) * 128 + 1 * d.val = d.val; omega

theorem blk1_at (c : Dev nD) (t : Fin cfg0.N) (r : Fin 512) (d : Fin 128) :
    (iblk m c 1 t : S1x512x128.Idx → Elt F .f32) (ix3 0 r d)
      = (m ((c : Thread nD τ).loc main_arg0) : S4x4096x128.Idx → Elt F .f32) (ix3 (bOf t) (rowOf t r) d) := by
  obtain ⟨h0, h1, h2⟩ := idx_win1 t
  unfold iblk
  rw [View.read_apply]
  show V m c main_arg0 _ = m (c.tc.loc main_arg0) _
  rw [show V m c main_arg0 = _ from HostPrefix.kept_arg0 (V₀ m c)]
  show m (c.tc.loc main_arg0) _ = m (c.tc.loc main_arg0) _
  congr 1
  funext a
  apply Fin.ext
  match a with
  | ⟨0, _⟩ => show win0_1.index t (0 : Fin 3) * 1 + 1 * 0 = t.val / 8; omega
  | ⟨1, _⟩ => show win0_1.index t (1 : Fin 3) * 512 + 1 * r.val = (t.val % 8) * 512 + r.val; omega
  | ⟨2, _⟩ => show win0_1.index t (2 : Fin 3) * 128 + 1 * d.val = d.val; omega

theorem blk2_q (c : Dev nD) (t : Fin cfg0.N) (d e : Fin 128) :
    (iblk m c 2 t : S128x384.Idx → Elt F .f32) (ix2 d ⟨e.val, by omega⟩)
      = (m ((c : Thread nD τ).loc main_arg1) : S128x128.Idx → Elt F .f32) (ix2 e d) := by
  obtain ⟨h0, h1⟩ := idx_win2 t
  unfold iblk
  rw [View.read_apply]
  refine Eq.trans ?_ (HostPrefix.v3_q (V₀ m c) d e)
  show V m c main_v3 _ = V m c main_v3 _
  congr 1
  funext a
  apply Fin.ext
  match a with
  | ⟨0, _⟩ => show win0_2.index t (0 : Fin 2) * 128 + 1 * d.val = d.val; omega
  | ⟨1, _⟩ => show win0_2.index t (1 : Fin 2) * 384 + 1 * (e.val) = e.val; omega
theorem blk2_k (c : Dev nD) (t : Fin cfg0.N) (d e : Fin 128) :
    (iblk m c 2 t : S128x384.Idx → Elt F .f32) (ix2 d ⟨128 + e.val, by omega⟩)
      = (m ((c : Thread nD τ).loc main_arg3) : S128x128.Idx → Elt F .f32) (ix2 e d) := by
  obtain ⟨h0, h1⟩ := idx_win2 t
  unfold iblk
  rw [View.read_apply]
  refine Eq.trans ?_ (HostPrefix.v3_k (V₀ m c) d e)
  show V m c main_v3 _ = V m c main_v3 _
  congr 1
  funext a
  apply Fin.ext
  match a with
  | ⟨0, _⟩ => show win0_2.index t (0 : Fin 2) * 128 + 1 * d.val = d.val; omega
  | ⟨1, _⟩ => show win0_2.index t (1 : Fin 2) * 384 + 1 * (128 + e.val) = 128 + e.val; omega
theorem blk2_v (c : Dev nD) (t : Fin cfg0.N) (d e : Fin 128) :
    (iblk m c 2 t : S128x384.Idx → Elt F .f32) (ix2 d ⟨256 + e.val, by omega⟩)
      = (m ((c : Thread nD τ).loc main_arg5) : S128x128.Idx → Elt F .f32) (ix2 e d) := by
  obtain ⟨h0, h1⟩ := idx_win2 t
  unfold iblk
  rw [View.read_apply]
  refine Eq.trans ?_ (HostPrefix.v3_v (V₀ m c) d e)
  show V m c main_v3 _ = V m c main_v3 _
  congr 1
  funext a
  apply Fin.ext
  match a with
  | ⟨0, _⟩ => show win0_2.index t (0 : Fin 2) * 128 + 1 * d.val = d.val; omega
  | ⟨1, _⟩ => show win0_2.index t (1 : Fin 2) * 384 + 1 * (256 + e.val) = 256 + e.val; omega

theorem blk3_q (c : Dev nD) (t : Fin cfg0.N) (e : Fin 128) :
    (iblk m c 3 t : S1x384.Idx → Elt F .f32) (ix2 0 ⟨e.val, by omega⟩)
      = (m ((c : Thread nD τ).loc main_arg2) : S128.Idx → Elt F .f32) (ix1 e) := by
  obtain ⟨h0, h1⟩ := idx_win3 t
  unfold iblk
  rw [View.read_apply]
  refine Eq.trans ?_ (HostPrefix.v5_q (V₀ m c) e)
  show V m c main_v5 _ = V m c main_v5 _
  congr 1
  funext a
  apply Fin.ext
  match a with
  | ⟨0, _⟩ => show win0_3.index t (0 : Fin 2) * 1 + 1 * 0 = 0; omega
  | ⟨1, _⟩ => show win0_3.index t (1 : Fin 2) * 384 + 1 * (e.val) = e.val; omega
theorem blk3_k (c : Dev nD) (t : Fin cfg0.N) (e : Fin 128) :
    (iblk m c 3 t : S1x384.Idx → Elt F .f32) (ix2 0 ⟨128 + e.val, by omega⟩)
      = (m ((c : Thread nD τ).loc main_arg4) : S128.Idx → Elt F .f32) (ix1 e) := by
  obtain ⟨h0, h1⟩ := idx_win3 t
  unfold iblk
  rw [View.read_apply]
  refine Eq.trans ?_ (HostPrefix.v5_k (V₀ m c) e)
  show V m c main_v5 _ = V m c main_v5 _
  congr 1
  funext a
  apply Fin.ext
  match a with
  | ⟨0, _⟩ => show win0_3.index t (0 : Fin 2) * 1 + 1 * 0 = 0; omega
  | ⟨1, _⟩ => show win0_3.index t (1 : Fin 2) * 384 + 1 * (128 + e.val) = 128 + e.val; omega
theorem blk3_v (c : Dev nD) (t : Fin cfg0.N) (e : Fin 128) :
    (iblk m c 3 t : S1x384.Idx → Elt F .f32) (ix2 0 ⟨256 + e.val, by omega⟩)
      = (m ((c : Thread nD τ).loc main_arg6) : S128.Idx → Elt F .f32) (ix1 e) := by
  obtain ⟨h0, h1⟩ := idx_win3 t
  unfold iblk
  rw [View.read_apply]
  refine Eq.trans ?_ (HostPrefix.v5_v (V₀ m c) e)
  show V m c main_v5 _ = V m c main_v5 _
  congr 1
  funext a
  apply Fin.ext
  match a with
  | ⟨0, _⟩ => show win0_3.index t (0 : Fin 2) * 1 + 1 * 0 = 0; omega
  | ⟨1, _⟩ => show win0_3.index t (1 : Fin 2) * 384 + 1 * (256 + e.val) = 256 + e.val; omega

end Cert.KernelIdeal.Hand

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.PayloadAt.lean ====
/-
  The values the kernel's body stores, read entry by entry over the extended reals.

  The body keeps three things. From the whole activation block and the packed weight `W` (`[128, 384]`, three
  `[128, 128]` column bands) and packed bias `b` (`[1, 384]`) it stores the key and value projections: entry
  `(m, e)` of each is `∑_d x[m, d] · W[d, o + e] + b[o + e]`, with `o = 128` for the keys and `o = 256` for the
  values (`projAt`). It resets the running row to zero. And at each tile of 512 query rows it adds to the running row
  the tile's attended rows summed over the tile: with `q[r] = projAt … 0` of row `r` of the tile, scores
  `s[r, m] = ∑_d q[r, d] · K[m, d]`, the scores of each row made a probability vector the stable way (the row's
  maximum, a fold of `max` from −∞, taken away; the exponential; division by the row's sum), the new running row at
  `e` is the old one plus `∑_r ∑_m soft(s[r, ·])[m] · V[m, e]`. The last store divides the running row by `4096.0`.

  Over the extended reals a change of float format is the identity, a matrix product into the zero accumulator is the
  plain sum of products, an `add` reduction is the sum and a `maximumf` reduction is the fold of `max` from its
  initial value, so each stored value, read at one index, is one of these closed forms. Every statement is at a symbolic
  index: no array is ever evaluated.
-/
import proofs.«425314_j78219944395235_3_alg».proof.Proof.Gen.KernelIdeal.Skeleton
import proofs.«425314_j78219944395235_3_alg».proof.Proof.Spec
import proofs.«425314_j78219944395235_3_alg».proof.Proof.LibDot
import proofs.«425314_j78219944395235_3_alg».proof.Proof.LibDotT
import proofs.«425314_j78219944395235_3_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadAt

open Cert.KernelIdeal Cert.KernelIdeal.Gen Idealize.ShloMosaic Idealize.ShloMosaic.ValueIdx

/-- One projected row: the row `xr` against columns `[o, o + 128)` of the packed weight, plus the packed bias there. -/
def projAt (w3 : S128x384.Idx → EReal) (b3 : S1x384.Idx → EReal) (o : Nat) (ho : o + 128 ≤ 384) (xr : Fin 128 → EReal)
    (e : Fin 128) : EReal :=
  (∑ d : Fin 128, xr d * w3 (ix2 d ⟨o + e.val, by have := e.isLt; omega⟩))
    + b3 (ix2 (0 : Fin 1) ⟨o + e.val, by have := e.isLt; omega⟩)

/-! ## Layout operations at coordinates -/

section Layout
variable {α : Type}

/-- The column band `[o, o + 128)` of a `[128, 384]` matrix, read at `(d, e)`: the matrix at `(d, o + e)`. -/
theorem slice_band_at (x : S128x384.Idx → α) (o : Nat) (ho : o + 128 ≤ 384) (h : S128x384.Slices ![0, o] S128x128)
    (d e : Fin 128) :
    extractStridedSlice S128x128 ![0, o] x h (ix2 d e) = x (ix2 d ⟨o + e.val, by have := e.isLt; omega⟩) := by
  refine extractStridedSlice_apply _ x h _ _ fun a => ?_
  match a with
  | ⟨0, _⟩ => show d.val = 0 + d.val; omega
  | ⟨1, _⟩ => rfl

/-- The band `[o, o + 128)` of a `[1, 384]` row, read at `(0, e)`: the row at `(0, o + e)`. -/
theorem slice_row_at (x : S1x384.Idx → α) (o : Nat) (ho : o + 128 ≤ 384) (h : S1x384.Slices ![0, o] S1x128)
    (u : Fin 1) (e : Fin 128) :
    extractStridedSlice S1x128 ![0, o] x h (ix2 u e) = x (ix2 u ⟨o + e.val, by have := e.isLt; omega⟩) := by
  refine extractStridedSlice_apply _ x h _ _ fun a => ?_
  match a with
  | ⟨0, _⟩ => show u.val = 0 + u.val; omega
  | ⟨1, _⟩ => rfl

/-- A `[1, 128]` row broadcast down `R` rows reads, at `(r, e)`, the row at `(0, e)`. -/
theorem bcast_row_at {R : Nat} (x : S1x128.Idx → α) (h : S1x128.Broadcasts ⟨2, ![R, 128]⟩) (r : Fin R) (e : Fin 128) :
    broadcastTo ⟨2, ![R, 128]⟩ x h (ix2 r e) = x (ix2 (0 : Fin 1) e) := by
  refine broadcastTo_apply x h _ _ fun a => ?_
  match a with
  | ⟨0, _⟩ => rfl
  | ⟨1, _⟩ => rfl

/-- A `[1, R, 128]` block viewed `[R, 128]` reads, at `(r, d)`, the block at `(0, r, d)`. -/
theorem cast_block_at {R : Nat} (x : (⟨3, ![1, R, 128]⟩ : Shape).Idx → α)
    (h : (⟨3, ![1, R, 128]⟩ : Shape).ShapeCasts ⟨2, ![R, 128]⟩) (r : Fin R) (d : Fin 128) :
    shapeCast ⟨2, ![R, 128]⟩ x h (ix2 r d) = x (ix3 (0 : Fin 1) r d) := by
  refine shapeCast_apply x h _ _ ?_
  rw [Shape.rowMajor_val_three, Shape.rowMajor_val_two]
  show (0 * R + r.val) * 128 + d.val = r.val * 128 + d.val
  omega

/-- A `[128]` vector viewed as the row `[1, 128]` reads, at `(u, e)`, the vector at `e`. -/
theorem cast_vec_row_at (x : S128.Idx → α) (h : S128.ShapeCasts S1x128) (u : Fin 1) (e : Fin 128) :
    shapeCast S1x128 x h (ix2 u e) = x (ix1 e) := by
  refine shapeCast_apply x h _ _ ?_
  rw [Shape.rowMajor_val_two, Shape.rowMajor_val_one]
  show e.val = u.val * 128 + e.val
  have := u.isLt; omega

/-- A `[1, 128]` row viewed `[1, 1, 128]` reads, at `(u, u', e)`, the row at `(0, e)`. -/
theorem cast_row_block_at (x : S1x128.Idx → α) (h : S1x128.ShapeCasts S1x1x128) (u u' : Fin 1) (e : Fin 128) :
    shapeCast S1x1x128 x h (ix3 u u' e) = x (ix2 (0 : Fin 1) e) := by
  refine shapeCast_apply x h _ _ ?_
  rw [Shape.rowMajor_val_three, Shape.rowMajor_val_two]
  show 0 * 128 + e.val = (u.val * 1 + u'.val) * 128 + e.val
  have := u.isLt; have := u'.isLt; omega

end Layout

/-! ## Reductions at coordinates -/

/-- The pattern of `-∞` is the bottom of the extended reals. -/
theorem ofBits_neg_inf : Ideal.ofBits .f32 0xFF800000#32 = ⊥ := by simp [Ideal.ofBits, Ideal.ieee]

/-- The maximum along the rows of a `[512, 4096]` matrix from `-∞`, read at row `r`: the fold of `max` from `⊥`
    over the row's entries. -/
theorem rowMax_at (S : FVec Ideal S512x4096 .f32) (h : S512x4096.Reduces [1] S512) (hφ : FKind.Formats FTy.f32)
    (hacc : (0xFF800000#32 : BitVec 32) = FKind.maximumf.neutral .f32 hφ) (r : Fin 512) :
    multiReduction .maximumf [1] S512 S 0xFF800000#32 h hφ hacc (ix1 r) = Cert.Spec.rowMax (fun m => S (ix2 r m)) := by
  refine (Ideal.multiReduction_maximumf_single S _ h hφ hacc (ix1 r)).trans ?_
  show Finset.fold max (Ideal.ofBits .f32 0xFF800000#32) (fun m : Fin 4096 => S (h.lift (ix1 r) m)) Finset.univ
    = Finset.fold max ⊥ (fun m : Fin 4096 => S (ix2 r m)) Finset.univ
  rw [ofBits_neg_inf]
  refine congrArg (fun f : Fin 4096 → EReal => Finset.fold max ⊥ f Finset.univ) (funext fun m => congrArg S ?_)
  funext ax
  refine Fin.ext ?_
  match ax with
  | ⟨0, _⟩ => rfl
  | ⟨1, _⟩ => rfl

/-- The sum down the columns of an `[a, b]` matrix, read at column `q`: the sum over the rows of column `q`'s
    entries. -/
theorem colSum_at {a b : ℕ} (src : FVec Ideal ⟨2, ![a, b]⟩ .f32) (acc : BitVec 32)
    (h : (⟨2, ![a, b]⟩ : Shape).Reduces [0] ⟨1, ![b]⟩) (hφ : FKind.Formats FTy.f32) (hacc : acc = FKind.add.neutral .f32 hφ)
    (q : Fin b) :
    multiReduction .add [0] ⟨1, ![b]⟩ src acc h hφ hacc (ix1 q) = ∑ k : Fin a, src (ix2 k q) := by
  refine (Ideal.multiReduction_add_single src acc h hφ hacc (ix1 q)).trans ?_
  refine Finset.sum_congr rfl fun k _ => congrArg src (funext fun ax => Fin.ext ?_)
  match ax with
  | ⟨0, _⟩ => rfl
  | ⟨1, _⟩ => rfl

/-! ## The pure values that only re-view their operand -/

/-- The packed weight, re-viewed and narrowed: itself. -/
theorem pay3_at (v0 : Vec Ideal S128x384 .f32) (j : S128x384.Idx) : k0_pay3 (F := Ideal) v0 j = v0 j := by
  unfold k0_pay3
  exact congrFun (shapeCast_self v0 _) j

/-- The packed bias, re-viewed: itself. -/
theorem pay4_at (v3 : Vec Ideal S1x384 .f32) (j : S1x384.Idx) : k0_pay4 (F := Ideal) v3 j = v3 j := by
  unfold k0_pay4
  exact congrFun (shapeCast_self v3 _) j

/-- The activation block viewed as a matrix and narrowed: entry `(m, d)` is the block's `(0, m, d)`. -/
theorem pay5_at (v41 : Vec Ideal S1x4096x128 .f32) (m : Fin 4096) (d : Fin 128) :
    k0_pay5 (F := Ideal) v41 (ix2 m d) = v41 (ix3 (0 : Fin 1) m d) := by
  unfold k0_pay5
  exact cast_block_at v41 _ m d

/-! ## The stages of the body at coordinates -/

/-- A projected tile: `R` rows `X` against the band `[o, o + 128)` of the packed weight, plus the packed bias there,
    narrowed; entry `(r, e)` is `projAt` of row `r`. -/
theorem proj_at {R : Nat} (D : DotDims ⟨2, ![R, 128]⟩ S128x128 ⟨2, ![R, 128]⟩)
    (hl : D.lhsContracting = [1]) (hr : D.rhsContracting = [0]) (hln : D.lhsNonContracting = [0])
    (hrn : D.rhsNonContracting = [1]) (hlb : D.lhsBatch = []) (hrb : D.rhsBatch = [])
    (X : FVec Ideal ⟨2, ![R, 128]⟩ .bf16) (v0 : Vec Ideal S128x384 .f32) (v3 : Vec Ideal S1x384 .f32)
    (o : Nat) (ho : o + 128 ≤ 384) (hs : S128x384.Slices ![0, o] S128x128) (hs' : S1x384.Slices ![0, o] S1x128)
    (hb : S1x128.Broadcasts ⟨2, ![R, 128]⟩) (hlt : FTy.bits .bf16 < FTy.bits .f32) (r : Fin R) (e : Fin 128) :
    truncf .bf16 (addf (matmul D none X (extractStridedSlice S128x128 ![0, o] (k0_pay3 (F := Ideal) v0) hs)
        (constant ⟨2, ![R, 128]⟩ .f32 0x00000000#32))
      (broadcastTo ⟨2, ![R, 128]⟩ (extractStridedSlice S1x128 ![0, o] (k0_pay4 (F := Ideal) v3) hs') hb)) hlt (ix2 r e)
      = projAt v0 v3 o ho (fun d => X (ix2 r d)) e := by
  show matmul D none X _ _ (ix2 r e) + broadcastTo _ _ hb (ix2 r e) = _
  unfold projAt
  refine congrArg₂ (· + ·) ?_ ?_
  · refine (Cert.LibDot.matmul_zero_at D hl hr hln hrn hlb hrb none X _ r e).trans ?_
    refine Finset.sum_congr rfl fun d _ => congrArg (X (ix2 r d) * ·) ?_
    exact (slice_band_at _ o ho hs d e).trans (pay3_at v0 _)
  · refine (bcast_row_at _ hb r e).trans ?_
    exact (slice_row_at _ o ho hs' 0 e).trans (pay4_at v3 _)

/-- The exponent of a score matrix: each row's maximum taken away, then the exponential; entry `(r, m)` is the
    shifted exponential of row `r`'s entry `m`. -/
theorem expo_at (S : FVec Ideal S512x4096 .f32) (h : S512x4096.Reduces [1] S512) (hc : S512.ShapeCasts S512x1)
    (hb : S512x1.Broadcasts S512x4096) (hφ : FKind.Formats FTy.f32)
    (hacc : (0xFF800000#32 : BitVec 32) = FKind.maximumf.neutral .f32 hφ) (r : Fin 512) (m : Fin 4096) :
    exp (subf S (broadcastTo S512x4096
        (shapeCast S512x1 (multiReduction .maximumf [1] S512 S 0xFF800000#32 h hφ hacc) hc) hb)) (ix2 r m)
      = Cert.Spec.expo (fun m' => S (ix2 r m')) m := by
  refine (exp_apply _ _).trans ((congrArg Ideal.exp (subf_apply _ _ _)).trans ?_)
  unfold Cert.Spec.expo
  refine congrArg (fun t => Ideal.exp (S (ix2 r m) - t)) ?_
  refine (broadcastTo_a1_ab_apply _ hb r m).trans ?_
  refine (shapeCast_a_a1_apply _ hc r 0).trans ?_
  exact rowMax_at S h hφ hacc r

/-- The rows of a score matrix made probability vectors (the exponent over its row sum, narrowed): entry `(r, m)` is
    `soft` of row `r` at `m`. -/
theorem soft_rows_at (S : FVec Ideal S512x4096 .f32) (h : S512x4096.Reduces [1] S512) (hc : S512.ShapeCasts S512x1)
    (hb : S512x1.Broadcasts S512x4096) (hφ hφ' : FKind.Formats FTy.f32)
    (hacc : (0xFF800000#32 : BitVec 32) = FKind.maximumf.neutral .f32 hφ)
    (hacc' : (0x00000000#32 : BitVec 32) = FKind.add.neutral .f32 hφ') (hlt : FTy.bits .bf16 < FTy.bits .f32)
    (r : Fin 512) (m : Fin 4096) :
    truncf .bf16
      (divf
        (exp (subf S (broadcastTo S512x4096
          (shapeCast S512x1 (multiReduction .maximumf [1] S512 S 0xFF800000#32 h hφ hacc) hc) hb)))
        (broadcastTo S512x4096 (shapeCast S512x1 (multiReduction .add [1] S512
          (exp (subf S (broadcastTo S512x4096
            (shapeCast S512x1 (multiReduction .maximumf [1] S512 S 0xFF800000#32 h hφ hacc) hc) hb)))
          0x00000000#32 h hφ' hacc') hc) hb)) hlt (ix2 r m)
      = Cert.Spec.soft (fun m' => S (ix2 r m')) m := by
  refine (truncf_apply _ hlt _).trans ((divf_apply _ _ _).trans ?_)
  unfold Cert.Spec.soft
  refine congrArg₂ Ideal.div (expo_at S h hc hb hφ hacc r m) ?_
  refine (broadcastTo_a1_ab_apply _ hb r m).trans ?_
  refine (shapeCast_a_a1_apply _ hc r 0).trans ?_
  refine (multiReduction_add_rows_apply _ _ h hφ' hacc' r).trans ?_
  exact Finset.sum_congr rfl fun k _ => expo_at S h hc hb hφ hacc r k

/-- The attended tile summed down its rows and viewed as a row: entry `(0, e)` is the double sum, over the tile's
    rows and over the keys, of the weight times the value. -/
theorem attend_colsum_at (D : DotDims S512x4096 S4096x128 S512x128)
    (hl : D.lhsContracting = [1]) (hr : D.rhsContracting = [0]) (hln : D.lhsNonContracting = [0])
    (hrn : D.rhsNonContracting = [1]) (hlb : D.lhsBatch = []) (hrb : D.rhsBatch = [])
    (P : FVec Ideal S512x4096 .bf16) (V : FVec Ideal S4096x128 .bf16) (h : S512x128.Reduces [0] S128)
    (hφ : FKind.Formats FTy.f32) (hacc : (0x00000000#32 : BitVec 32) = FKind.add.neutral .f32 hφ)
    (hc : S128.ShapeCasts S1x128) (u : Fin 1) (e : Fin 128) :
    shapeCast S1x128 (multiReduction .add [0] S128 (matmul D none P V (constant S512x128 .f32 0x00000000#32))
        0x00000000#32 h hφ hacc) hc (ix2 u e)
      = ∑ r : Fin 512, ∑ m : Fin 4096, P (ix2 r m) * V (ix2 m e) := by
  refine (cast_vec_row_at _ hc u e).trans ?_
  refine (colSum_at _ _ h hφ hacc e).trans ?_
  exact Finset.sum_congr rfl fun r _ => Cert.LibDot.matmul_zero_at D hl hr hln hrn hlb hrb none P V r e

/-! ## The stored values -/

/-- The key projection stored: entry `(m, e)` is row `m` of the block against the band at 128. -/
theorem pay6_at (v0 : Vec Ideal S128x384 .f32) (v3 : Vec Ideal S1x384 .f32) (v41 : Vec Ideal S1x4096x128 .f32)
    (m : Fin 4096) (e : Fin 128) :
    k0_pay6 (F := Ideal) v0 v3 v41 (ix2 m e) = projAt v0 v3 128 (by decide) (fun d => v41 (ix3 0 m d)) e := by
  unfold k0_pay6
  refine (congrFun (shapeCast_self _ _) _).trans ?_
  refine (proj_at _ rfl rfl rfl rfl rfl rfl _ v0 v3 128 (by decide) _ _ _ _ m e).trans ?_
  exact congrArg (fun xr => projAt v0 v3 128 _ xr e) (funext fun d => pay5_at v41 m d)

/-- The value projection stored: entry `(m, e)` is row `m` of the block against the band at 256. -/
theorem pay7_at (v0 : Vec Ideal S128x384 .f32) (v3 : Vec Ideal S1x384 .f32) (v41 : Vec Ideal S1x4096x128 .f32)
    (m : Fin 4096) (e : Fin 128) :
    k0_pay7 (F := Ideal) v0 v3 v41 (ix2 m e) = projAt v0 v3 256 (by decide) (fun d => v41 (ix3 0 m d)) e := by
  unfold k0_pay7
  refine (congrFun (shapeCast_self _ _) _).trans ?_
  refine (proj_at _ rfl rfl rfl rfl rfl rfl _ v0 v3 256 (by decide) _ _ _ _ m e).trans ?_
  exact congrArg (fun xr => projAt v0 v3 256 _ xr e) (funext fun d => pay5_at v41 m d)

/-- The running row's reset: zero everywhere. -/
theorem pay8_at (e : Fin 128) : k0_pay8 (F := Ideal) (ix2 0 e) = 0 := by
  unfold k0_pay8
  refine (congrFun (shapeCast_self _ _) _).trans ?_
  exact Ideal.ofBits_zero_f32

/-- The running row stored back: itself. -/
theorem pay1_eq (v : FVec Ideal S1x128 .f32) : k0_pay1 (F := Ideal) v = v := by
  unfold k0_pay1
  exact shapeCast_self v _

/-- The result stored: the running row divided by `4096.0`. -/
theorem pay2_at (v41 : Vec Ideal S1x128 .f32) (e : Fin 128) :
    k0_pay2 (F := Ideal) v41 (ix3 0 0 e) = Ideal.div (v41 (ix2 0 e)) (Ideal.ofBits .f32 0x45800000#32) := by
  unfold k0_pay2
  refine (cast_row_block_at _ _ 0 0 e).trans ?_
  rfl

/-- The running row after a tile of 512 query rows: the old row plus, summed over the tile's rows and over the
    keys, the weight `soft` of the row's scores times the value. -/
theorem pay9_at (v0 : Vec Ideal S128x384 .f32) (v3 : Vec Ideal S1x384 .f32) (v8 : Vec Ideal S1x512x128 .f32)
    (v17 v18 : Vec Ideal S4096x128 .bf16) (v31 : Vec Ideal S1x128 .f32) (e : Fin 128) :
    k0_pay9 (F := Ideal) v0 v3 v8 v17 v18 v31 (ix2 0 e)
      = v31 (ix2 0 e) + ∑ r : Fin 512, ∑ m : Fin 4096,
          Cert.Spec.soft (fun m' => ∑ d : Fin 128,
            projAt v0 v3 0 (by decide) (fun d' => v8 (ix3 0 r d')) d * v17 (ix2 m' d)) m * v18 (ix2 m e) := by
  unfold k0_pay9
  refine (addf_apply _ _ _).trans (congrArg (v31 (ix2 0 e) + ·) ?_)
  refine (attend_colsum_at _ rfl rfl rfl rfl rfl rfl _ v18 _ _ _ _ 0 e).trans ?_
  refine Finset.sum_congr rfl fun r _ => Finset.sum_congr rfl fun m _ => congrArg (· * v18 (ix2 m e)) ?_
  refine (soft_rows_at _ _ _ _ _ _ _ _ _ r m).trans ?_
  refine congrArg (fun s => Cert.Spec.soft s m) (funext fun m' => ?_)
  refine (Cert.LibDotT.matmul_zero_at_T (φ₂ := .bf16) _ rfl rfl rfl rfl rfl rfl none _ v17 r m').trans ?_
  refine Finset.sum_congr rfl fun d _ => congrArg (· * v17 (ix2 m' d)) ?_
  refine (proj_at _ rfl rfl rfl rfl rfl rfl _ v0 v3 0 (by decide) _ _ _ _ r d).trans ?_
  exact congrArg (fun xr => projAt v0 v3 0 _ xr d) (funext fun d' => cast_block_at v8 _ r d')

end Cert.KernelIdeal.PayloadAt

end
-- ==== Proof.KiValue.lean ====
/-
  The value of the kernel's result array over the extended reals.

  Grid point t = 8·b + q (batch b < 4, query tile q < 8). With Q, K, V the three affine images of the activations
  (Q = x Wqᵀ + bq and so on, entry by entry), the buffers after the body at t hold:

    the key scratch     K[b, n, d]                              (written at q = 0, kept afterwards),
    the value scratch   V[b, n, d]                              (the same),
    the running row     ∑_{q' ≤ q} ∑_{r < 512} attend[b, 512·q' + r, e],

  where attend[b, n, e] = ∑ₘ soft(⟨Q[b, n], K[b, m]⟩ₘ)[m] · V[b, m, e]. This is proved by induction on the point: at q = 0
  the running row is 0 plus the first tile's sum; at q > 0 the point before is in the same batch and the tile's sum is
  added to what it left. Sums over the extended reals are sums in a commutative monoid, so the 4096 rows of a batch
  re-tile freely as 8 tiles of 512: at q = 7 the running row is ∑ₙ attend[b, n, e], and the result's staging buffer is
  that sum divided by 4096.0, the pooled value of the specification.

  The result array [4, 1, 128] is written back once per batch, at q = 7, through the block (b, 0, 0) of shape
  [1, 1, 128]; the four blocks tile the array, so entry (b, 0, e) of the final array is the pooled value at (b, e):
  the specification's function of the seven argument arrays.
-/
import proofs.«425314_j78219944395235_3_alg».proof.Proof.KiFrame
import proofs.«425314_j78219944395235_3_alg».proof.Proof.KiPieces
import proofs.«425314_j78219944395235_3_alg».proof.Proof.KiBlocks
import proofs.«425314_j78219944395235_3_alg».proof.Proof.PayloadAt
import proofs.«425314_j78219944395235_3_alg».proof.Proof.Spec
import Idealize.ShloMosaic.Lib.Pipeline.Value
import Idealize.ShloMosaic.Lib.ValueIdx

set_option maxRecDepth 16384

noncomputable section

open scoped BigOperators

namespace Cert.KernelIdeal.KiValue

open Cert.KernelIdeal Cert.KernelIdeal.Gen Cert.KernelIdeal.Hand Cert.KernelIdeal.PayloadAt
open Idealize.ShloMosaic Idealize.ShloMosaic.ValueIdx Idealize.ShloMosaic.TcCoe
open Idealize.ShloMosaic.Pipeline (Dat)

variable (m : (ℓ : Loc nD τ sig) → Buf (Elt Ideal) ℓ) (c : Dev nD)

/-! ## The arguments and their three affine images -/

/-- The activations, the three weight matrices and the three biases, as the kernel is launched with them. -/
abbrev aX : Cert.Spec.SX.Idx → EReal := m ((c : Thread nD τ).loc main_arg0)
abbrev aWq : Cert.Spec.SW.Idx → EReal := m ((c : Thread nD τ).loc main_arg1)
abbrev aBq : Cert.Spec.SB.Idx → EReal := m ((c : Thread nD τ).loc main_arg2)
abbrev aWk : Cert.Spec.SW.Idx → EReal := m ((c : Thread nD τ).loc main_arg3)
abbrev aBk : Cert.Spec.SB.Idx → EReal := m ((c : Thread nD τ).loc main_arg4)
abbrev aWv : Cert.Spec.SW.Idx → EReal := m ((c : Thread nD τ).loc main_arg5)
abbrev aBv : Cert.Spec.SB.Idx → EReal := m ((c : Thread nD τ).loc main_arg6)

/-- The queries, keys and values: the activations through the three affine maps. -/
def Qf : Fin 4 → Fin 4096 → Fin 128 → EReal := Cert.Spec.lin (aX m c) (aWq m c) (aBq m c)
def Kf : Fin 4 → Fin 4096 → Fin 128 → EReal := Cert.Spec.lin (aX m c) (aWk m c) (aBk m c)
def Vf : Fin 4 → Fin 4096 → Fin 128 → EReal := Cert.Spec.lin (aX m c) (aWv m c) (aBv m c)

/-! ## A projected row in the specification's terms

The packed weight's band at offset `o` is a weight matrix transposed, and the packed bias's band is its bias: a row of
the activations against a band, plus the bias, is the affine map's entry. -/

theorem fin_zero_add (e : Fin 128) (h : 0 + e.val < 384) (h' : e.val < 384) :
    (⟨0 + e.val, h⟩ : Fin 384) = ⟨e.val, h'⟩ := Fin.ext (Nat.zero_add _)

/-- Against the first band: the query. -/
theorem proj_q (t : Fin cfg0.N) (b : Fin 4) (n : Fin 4096) (d : Fin 128) :
    projAt (iblk m c 2 t) (iblk m c 3 t) 0 (by decide) (fun d' => aX m c (ix3 b n d')) d = Qf m c b n d := by
  unfold projAt Qf Cert.Spec.lin
  refine congrArg₂ (· + ·) (Finset.sum_congr rfl fun d' _ => congrArg (aX m c (ix3 b n d') * ·) ?_) ?_
  · refine Eq.trans (congrArg (iblk m c 2 t) (congrArg (ix2 d') (fin_zero_add d _ (by have := d.isLt; omega)))) ?_
    exact blk2_q m c t d' d
  · refine Eq.trans (congrArg (iblk m c 3 t) (congrArg (ix2 (0 : Fin 1)) (fin_zero_add d _ (by have := d.isLt; omega)))) ?_
    exact blk3_q m c t d

/-- Against the second band: the key. -/
theorem proj_k (t : Fin cfg0.N) (b : Fin 4) (n : Fin 4096) (d : Fin 128) :
    projAt (iblk m c 2 t) (iblk m c 3 t) 128 (by decide) (fun d' => aX m c (ix3 b n d')) d = Kf m c b n d := by
  unfold projAt Kf Cert.Spec.lin
  refine congrArg₂ (· + ·) (Finset.sum_congr rfl fun d' _ => congrArg (aX m c (ix3 b n d') * ·) ?_) ?_
  · exact blk2_k m c t d' d
  · exact blk3_k m c t d

/-- Against the third band: the value. -/
theorem proj_v (t : Fin cfg0.N) (b : Fin 4) (n : Fin 4096) (d : Fin 128) :
    projAt (iblk m c 2 t) (iblk m c 3 t) 256 (by decide) (fun d' => aX m c (ix3 b n d')) d = Vf m c b n d := by
  unfold projAt Vf Cert.Spec.lin
  refine congrArg₂ (· + ·) (Finset.sum_congr rfl fun d' _ => congrArg (aX m c (ix3 b n d') * ·) ?_) ?_
  · exact blk2_v m c t d' d
  · exact blk3_v m c t d

/-! ## Tiles of rows -/

/-- Row `r` of query tile `q` (read modulo 8) of a batch's 4096 rows. -/
def rowN (q : ℕ) (r : Fin 512) : Fin 4096 :=
  ⟨(q % 8) * 512 + r.val, by have := r.isLt; have := Nat.mod_lt q (show 0 < 8 by decide); omega⟩

theorem rowN_mod (q : ℕ) (r : Fin 512) : rowN (q % 8) r = rowN q r :=
  Fin.ext (by show (q % 8 % 8) * 512 + r.val = (q % 8) * 512 + r.val; rw [Nat.mod_mod])

/-- The rows of a point's query tile are the tile's rows. -/
theorem rowOf_eq (t : Fin cfg0.N) (r : Fin 512) : rowOf t r = rowN t.val r := rfl

/-- The 4096 rows are 8 tiles of 512: a sum over the rows is the sum over the tiles of the sums over a tile. -/
theorem sum_rows_tiles (f : Fin 4096 → EReal) :
    ∑ n : Fin 4096, f n = ∑ q ∈ Finset.range 8, ∑ r : Fin 512, f (rowN q r) := by
  have h1 : ∑ n : Fin 4096, f n = ∑ p : Fin 8 × Fin 512, f (rowN p.1.val p.2) :=
    (Fintype.sum_equiv (finProdFinEquiv (m := 8) (n := 512)) (fun p => f (rowN p.1.val p.2)) f fun p =>
      congrArg f (Fin.ext (by
        show (p.1.val % 8) * 512 + p.2.val = p.2.val + 512 * p.1.val
        rw [Nat.mod_eq_of_lt p.1.isLt]; omega))).symm
  rw [h1, Fintype.sum_prod_type]
  exact Fin.sum_univ_eq_sum_range (fun q => ∑ r : Fin 512, f (rowN q r)) 8

/-- The attended rows of tile `q` of batch `b`, summed. -/
def tileSum (b : Fin 4) (q : ℕ) (e : Fin 128) : EReal :=
  ∑ r : Fin 512, Cert.Spec.attend (Qf m c) (Kf m c) (Vf m c) b (rowN q r) e

theorem tileSum_mod (b : Fin 4) (q : ℕ) (e : Fin 128) : tileSum m c b (q % 8) e = tileSum m c b q e := by
  unfold tileSum
  exact Finset.sum_congr rfl fun r _ => by rw [rowN_mod]

/-! ## One tile added to the running row -/

/-- With the scratch buffers at the batch's keys and values, the body's accumulation at point `t` adds the tile's
    attended rows, summed, to the running row. -/
theorem step_at (t : Fin cfg0.N) (xk xv : Vec Ideal S4096x128 .bf16) (xa : Vec Ideal S1x128 .f32)
    (hk : ∀ n d, xk (ix2 n d) = Kf m c (bOf t) n d) (hv : ∀ n d, xv (ix2 n d) = Vf m c (bOf t) n d) (e : Fin 128) :
    k0_pay9 (F := Ideal) (iblk m c 2 t) (iblk m c 3 t) (iblk m c 1 t) xk xv xa (ix2 0 e)
      = xa (ix2 0 e) + tileSum m c (bOf t) t.val e := by
  refine (pay9_at _ _ _ xk xv xa e).trans (congrArg (xa (ix2 0 e) + ·) ?_)
  unfold tileSum Cert.Spec.attend
  refine Finset.sum_congr rfl fun r _ => Finset.sum_congr rfl fun m' _ => ?_
  rw [hv m' e]
  refine congrArg (· * Vf m c (bOf t) m' e) ?_
  refine congrArg (fun s => Cert.Spec.soft s m') (funext fun m'' => ?_)
  unfold Cert.Spec.score
  refine Finset.sum_congr rfl fun d _ => ?_
  rw [hk m'' d]
  refine congrArg (· * Kf m c (bOf t) m'' d) ?_
  have hrow : (fun d' => (iblk m c 1 t : S1x512x128.Idx → EReal) (ix3 0 r d'))
      = fun d' => aX m c (ix3 (bOf t) (rowN t.val r) d') := funext fun d' => blk1_at m c t r d'
  refine (congrArg (fun xr => projAt (iblk m c 2 t) (iblk m c 3 t) 0 (by decide) xr d) hrow).trans ?_
  exact proj_q m c t (bOf t) (rowN t.val r) d

/-! ## The invariant between points -/

/-- After the point at position `n`, of batch `b`: the key scratch holds the batch's keys, the value scratch its values,
    and the running row the attended rows of the tiles up to the point's own, summed. -/
def Inv (n : ℕ) (hn : n < cfg0.N) : Prop :=
  (∀ j d, ((outsAt m c n hn).2.1 : S4096x128.Idx → EReal) (ix2 j d) = Kf m c (bOf ⟨n, hn⟩) j d)
  ∧ (∀ j d, ((outsAt m c n hn).2.2.1 : S4096x128.Idx → EReal) (ix2 j d) = Vf m c (bOf ⟨n, hn⟩) j d)
  ∧ (∀ e, ((outsAt m c n hn).2.2.2 : S1x128.Idx → EReal) (ix2 0 e)
      = ∑ q ∈ Finset.range (n % 8 + 1), tileSum m c (bOf ⟨n, hn⟩) q e)

/-- The stored key projection is the batch's keys, -/
theorem keys_at (t : Fin cfg0.N) (j : Fin 4096) (d : Fin 128) :
    k0_pay6 (F := Ideal) (iblk m c 2 t) (iblk m c 3 t) (iblk m c 0 t) (ix2 j d) = Kf m c (bOf t) j d := by
  refine (pay6_at _ _ _ j d).trans ?_
  have hrow : (fun d' => (iblk m c 0 t : S1x4096x128.Idx → EReal) (ix3 0 j d'))
      = fun d' => aX m c (ix3 (bOf t) j d') := funext fun d' => blk0_at m c t j d'
  exact (congrArg (fun xr => projAt (iblk m c 2 t) (iblk m c 3 t) 128 (by decide) xr d) hrow).trans
    (proj_k m c t (bOf t) j d)

/-- and the stored value projection its values. -/
theorem vals_at (t : Fin cfg0.N) (j : Fin 4096) (d : Fin 128) :
    k0_pay7 (F := Ideal) (iblk m c 2 t) (iblk m c 3 t) (iblk m c 0 t) (ix2 j d) = Vf m c (bOf t) j d := by
  refine (pay7_at _ _ _ j d).trans ?_
  have hrow : (fun d' => (iblk m c 0 t : S1x4096x128.Idx → EReal) (ix3 0 j d'))
      = fun d' => aX m c (ix3 (bOf t) j d') := funext fun d' => blk0_at m c t j d'
  exact (congrArg (fun xr => projAt (iblk m c 2 t) (iblk m c 3 t) 256 (by decide) xr d) hrow).trans
    (proj_v m c t (bOf t) j d)

/-- At the first point of a batch the scratch buffers are written and the running row is zero plus the first tile. -/
theorem inv_first (t : Fin cfg0.N) (h0 : t.val % 8 = 0) : Inv m c t.val t.isLt := by
  unfold Inv
  rw [outsAt_A m c t h0]
  dsimp only
  refine ⟨fun j d => ?_, fun j d => ?_, fun e => ?_⟩
  · rw [skA_eq]; exact keys_at m c t j d
  · rw [svA_eq]; exact vals_at m c t j d
  · rw [saA_eq, pay1_eq]
    refine (step_at m c t _ _ _ (keys_at m c t) (vals_at m c t) e).trans ?_
    rw [pay8_at, zero_add, ← tileSum_mod m c (bOf t) t.val e, h0]
    exact (Finset.sum_range_one (fun q => tileSum m c (bOf t) q e)).symm

/-- At a later point of a batch the scratch buffers are kept and the point's tile is added to the running row. -/
theorem inv_next (t : Fin cfg0.N) (h0 : ¬t.val % 8 = 0)
    (ih : Inv m c (t.val - 1) (Nat.lt_of_le_of_lt (Nat.sub_le _ _) t.isLt)) : Inv m c t.val t.isLt := by
  have hb : bOf ⟨t.val - 1, Nat.lt_of_le_of_lt (Nat.sub_le _ _) t.isLt⟩ = bOf t :=
    Fin.ext (by show (t.val - 1) / 8 = t.val / 8; omega)
  have hq : (t.val - 1) % 8 + 1 = t.val % 8 := by omega
  obtain ⟨ihk, ihv, iha⟩ := ih
  rw [hb] at ihk ihv iha
  rw [hq] at iha
  have hsum : ∀ e, ((outsAt m c (t.val - 1) (Nat.lt_of_le_of_lt (Nat.sub_le _ _) t.isLt)).2.2.2 : S1x128.Idx → EReal) (ix2 0 e)
      + tileSum m c (bOf t) t.val e = ∑ q ∈ Finset.range (t.val % 8 + 1), tileSum m c (bOf t) q e := fun e => by
    rw [iha e, Finset.sum_range_succ, tileSum_mod]
  unfold Inv
  by_cases h1 : t.val % 8 = 7
  · rw [outsAt_C m c t h0 h1]
    dsimp only
    refine ⟨ihk, ihv, fun e => ?_⟩
    rw [saC_eq, pay1_eq]
    exact (step_at m c t _ _ _ ihk ihv e).trans (hsum e)
  · rw [outsAt_B m c t h0 h1]
    dsimp only
    refine ⟨ihk, ihv, fun e => ?_⟩
    rw [saB_eq, pay1_eq]
    exact (step_at m c t _ _ _ ihk ihv e).trans (hsum e)

/-- The invariant holds after every point. -/
theorem inv_all : ∀ (n : ℕ) (hn : n < cfg0.N), Inv m c n hn
  | 0, hn => inv_first m c ⟨0, hn⟩ (Nat.zero_mod _)
  | n + 1, hn => by
    by_cases h0 : (n + 1) % 8 = 0
    · exact inv_first m c ⟨n + 1, hn⟩ h0
    · exact inv_next m c ⟨n + 1, hn⟩ h0 (inv_all n (Nat.lt_of_succ_lt hn))

/-! ## The result's staging buffer at the last point of a batch -/

/-- At the last point of batch `b` the result's staging buffer holds the batch's pooled row. -/
theorem staged_last (t : Fin cfg0.N) (h1 : t.val % 8 = 7) (e : Fin 128) :
    ((outsAt m c t.val t.isLt).1 : S1x1x128.Idx → EReal) (ix3 0 0 e)
      = Cert.Spec.pooled (Qf m c) (Kf m c) (Vf m c) (bOf t) e := by
  have h0 : ¬t.val % 8 = 0 := by omega
  have hst : (outsAt m c t.val t.isLt).1 = k0_pay2 (F := Ideal) ((outsAt m c t.val t.isLt).2.2.2) := by
    rw [outsAt_C m c t h0 h1]; dsimp only; rw [o4C_eq, saC_eq]
  rw [hst]
  refine (pay2_at _ e).trans ?_
  rw [(inv_all m c t.val t.isLt).2.2 e, h1]
  unfold Cert.Spec.pooled
  refine congrArg (fun s => Ideal.div s (Ideal.ofBits .f32 0x45800000#32)) ?_
  exact (sum_rows_tiles fun n => Cert.Spec.attend (Qf m c) (Kf m c) (Vf m c) (bOf t) n e).symm

/-! ## From the blocks to the array -/

/-- The result array as the specification has it: entry `(b, 0, e)` is batch `b`'s pooled row at `e`. -/
def Gout : S4x1x128.Idx → EReal :=
  fun j => Cert.Spec.pooled (Qf m c) (Kf m c) (Vf m c) (j 0) (j 2)

/-- The result's block index at point `t = 8·b + q` is `(b, 0, 0)`: decided over the grid. -/
theorem idx_facts : ∀ t : Fin cfg0.N, win0_4.index t (0 : Fin 3) = t.val / 8
    ∧ win0_4.index t (1 : Fin 3) = 0 ∧ win0_4.index t (2 : Fin 3) = 0 :=
  (by decide +kernel : ∀ t : Fin grid0.N, _)

/-- What a point that writes the result's block back writes is its block of `Gout`: the point is the last of its
    batch, its block is row `b` of the array, and the staging buffer holds the batch's pooled row. -/
theorem flushed_eq (t : Fin cfg0.N) (hf : (cfg0.win 4).flush t = true) :
    (dats (F := Ideal) m 0 c).flushed 4 t = ((cfg0.win 4).blk t).view.read (Elt Ideal) (Gout m c) := by
  have h1 : t.val % 8 = 7 := (flush0_4 t).mp hf
  obtain ⟨e0, e1, e2⟩ := idx_facts t
  show (cfg0.win 4).cut (grid0.coords t) ((dats (F := Ideal) m 0 c).after 4 t) = _
  rw [after4]
  funext y
  have hy0 : (y 0).val < 1 := (y 0).isLt
  have hy1 : (y 1).val < 1 := (y 1).isLt
  have hy2 : (y 2).val < 128 := (y 2).isLt
  show ((outsAt (F := Ideal) m c t.val t.isLt).1 : S1x1x128.Idx → EReal) ((cfg0.win 4).xinj (grid0.coords t) y)
    = Gout m c (((cfg0.win 4).blk t).view.emb y)
  have hx : (cfg0.win 4).xinj (grid0.coords t) y = ix3 (0 : Fin 1) (0 : Fin 1) (⟨(y 2).val, hy2⟩ : Fin 128) := by
    funext a; apply Fin.ext
    match a with
    | ⟨0, _⟩ => show (y 0).val = 0; omega
    | ⟨1, _⟩ => show (y 1).val = 0; omega
    | ⟨2, _⟩ => rfl
  rw [hx, staged_last m c t h1]
  unfold Gout
  refine congrArg₂ (Cert.Spec.pooled (Qf m c) (Kf m c) (Vf m c)) (Fin.ext ?_) (Fin.ext ?_)
  · show t.val / 8 = win0_4.index t (0 : Fin 3) * 1 + 1 * (y 0).val; omega
  · show (y 2).val = win0_4.index t (2 : Fin 3) * 128 + 1 * (y 2).val; omega

/-- An index of the array is in point `t`'s block iff each coordinate is in the block's range on its axis. -/
theorem mem_blk (t : Fin cfg0.N) (i : S4x1x128.Idx) :
    i ∈ ((cfg0.win 4).blk t).view.set ↔ ∀ a : Fin 3, win0_4.index t a * S1x1x128.size a ≤ (i a).val
      ∧ (i a).val < win0_4.index t a * S1x1x128.size a + S1x1x128.size a := by
  show i ∈ ((View.whole main_v6).slice (win0_4.rect t)).set ↔ _
  rw [View.set_slice_whole, Rect.mem_set_unit]
  exact Iff.rfl

/-- Every entry of the array is in the block of a point that writes back: entry `(b, 0, e)` in that of the last point
    of batch `b`. -/
theorem cover (i : S4x1x128.Idx) :
    ∃ t : Fin cfg0.N, (cfg0.win 4).flush t = true ∧ i ∈ ((cfg0.win 4).blk t).view.set := by
  have hN : cfg0.N = 32 := N_0
  have hi0 : (i 0).val < 4 := (i 0).isLt
  have hi1 : (i 1).val < 1 := (i 1).isLt
  have hi2 : (i 2).val < 128 := (i 2).isLt
  obtain ⟨t, ht⟩ : ∃ t : Fin cfg0.N, t.val = 8 * (i 0).val + 7 := ⟨⟨8 * (i 0).val + 7, by omega⟩, rfl⟩
  obtain ⟨e0, e1, e2⟩ := idx_facts t
  refine ⟨t, (flush0_4 t).mpr (by omega), ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 1 ≤ (i 1).val ∧ (i 1).val < win0_4.index t (1 : Fin 3) * 1 + 1
    omega
  | ⟨2, _⟩ =>
    show win0_4.index t (2 : Fin 3) * 128 ≤ (i 2).val ∧ (i 2).val < win0_4.index t (2 : Fin 3) * 128 + 128
    omega

/-- The result array after the region: the specification's pooled rows. -/
theorem final_eq : (dats (F := Ideal) m 0 c).arrAt 4 cfg0.N = Gout m c :=
  (dats (F := Ideal) m 0 c).arrAt_eq_of_cover 4 (Gout m c) (fun t hf => flushed_eq m c t hf) (cover)

/-- Entry `(b, 0, e)` of the result array is the specification's function of the seven argument arrays at `(b, e)`. -/
theorem out_at (b : Fin 4) (e : Fin 128) :
    (((dats (F := Ideal) m 0 c).arrAt 4 cfg0.N) : S4x1x128.Idx → EReal) (ix3 b 0 e)
      = Cert.Spec.G (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (ix2 b e) := by
  rw [final_eq]
  rfl

end Cert.KernelIdeal.KiValue

end
-- ==== Proof.lean ====
/-
  The certificate's claims, assembled.

  The kernel program packs the three weight matrices (transposed, side by side) and the three biases (end to end) on
  the host, runs one fused kernel over a grid of 4 batches × 8 query tiles, and drops the unit axis of its result. The
  kernel keeps a batch's keys and values in two scratch buffers (written at the batch's first tile), adds each tile's
  attended rows, summed, to a running row in a third, and at the batch's last tile writes the running row divided by
  4096. The reference computes the same attention with whole-array operations and takes the mean over the rows.

  Frames: each kernel program runs to the end, faults nowhere and leaves its seven arguments as launched — the body run
  once per kind of grid point (a batch's first, inner, last tile), the contents of the scratch buffers and of the
  result's staging buffer stated point by point, the activations' array (read through two windows) held in two halves
  across the region; the reference's frame is its run with the result dropped. The idealized kernel program is the
  word-level one's own text (no rewrite), so `preserves` is trivial.

  Equality over the extended reals: both programs end with the specification's function `Cert.Spec.G` of the arguments.
  For the kernel program: by induction over the grid the key and value scratch hold the batch's affine images of the
  activations and the running row the sum of the attended rows of the tiles so far, so the block written back at a
  batch's last tile is the batch's pooled row (the sum over all 4096 rows regrouped in 8 tiles of 512, divided by
  4096), and the written-back blocks cover the result array. For the reference: its operations read one at a time at an
  index. Neither side needs the inputs' finiteness: the two sides differ only by the grouping of sums, a change of
  float format (the identity here) and a maximum against −∞.
-/
import proofs.«425314_j78219944395235_3_alg».proof.Defs
import proofs.«425314_j78219944395235_3_alg».proof.Proof.Gen.Kernel
import proofs.«425314_j78219944395235_3_alg».proof.Proof.Gen.KernelIdeal
import proofs.«425314_j78219944395235_3_alg».proof.Proof.Gen.ReferenceIdeal
import proofs.«425314_j78219944395235_3_alg».proof.Proof.Gen.Pre_finite_inputs
import proofs.«425314_j78219944395235_3_alg».proof.Proof.Gen.ReferenceIdeal.Run
import proofs.«425314_j78219944395235_3_alg».proof.Proof.Gen.ReferenceIdeal.Read
import proofs.«425314_j78219944395235_3_alg».proof.Proof.KiClaims
import proofs.«425314_j78219944395235_3_alg».proof.Proof.KbClaims
import proofs.«425314_j78219944395235_3_alg».proof.Proof.RefIsSpec
import Idealize.ShloMosaic.Adequacy
import Idealize.ShloMosaic.Init
import proofs.«425314_j78219944395235_3_alg».proof.Proof.KiValue

noncomputable section

namespace Cert.Proof

open Idealize.ShloMosaic Idealize.ShloMosaic.TcCoe Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the extended reals. -/
theorem preserves : Cert.preserves_Kernel_KernelIdeal := trivial

/-- Both programs end with the specification's function of the arguments: the kernel program by the pipeline's account
    of its write-backs read entry by entry, the reference by its operations read one at a time. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · refine (θ_run Cert.KernelIdeal.defs _ _).mono (fun r h c => ⟨?_, (h c).2⟩) (Cert.KernelIdeal.Hand.run_value (F := Ideal) m ρ)
    funext j
    rw [eq_ix2 j]
    exact ((h c).1 (j 0) (j 1)).trans (Cert.KernelIdeal.KiValue.out_at m c (j 0) (j 1))
  · refine (θ_run Cert.ReferenceIdeal.defs _ _).mono (fun r h c => ⟨?_, (h c).2⟩) (Cert.ReferenceIdeal.Value.run (F := Ideal) m' ρ')
    rw [(h c).1, Cert.ReferenceIdeal.Read.val_main_v27_eq, Cert.RefSpec.ref_is_G,
      (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
